-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v54)) (v3 : (c : Dev Cert.KernelIdeal.nD) → Buf (Elt Ideal) ((c.tc : Thread Cert.KernelIdeal.nD Cert.KernelIdeal.τ).loc Cert.KernelIdeal.main_v56)) (v4 : (c : Dev Cert.KernelIdeal.nD) → Buf (Elt Ideal) ((c.tc : Thread Cert.KernelIdeal.nD Cert.KernelIdeal.τ).loc Cert.KernelIdeal.main_v58)) (v5 : (c : Dev Cert.KernelIdeal.nD) → Buf (Elt Ideal) ((c.tc : Thread Cert.KernelIdeal.nD Cert.KernelIdeal.τ).loc Cert.KernelIdeal.main_v60)) (v6 : (c : Dev Cert.KernelIdeal.nD) → Buf (Elt Ideal) ((c.tc : Thread Cert.KernelIdeal.nD Cert.KernelIdeal.τ).loc Cert.KernelIdeal.main_v62)) (v7 : (c : Dev Cert.KernelIdeal.nD) → Buf (Elt Ideal) ((c.tc : Thread Cert.KernelIdeal.nD Cert.KernelIdeal.τ).loc Cert.KernelIdeal.main_v64)) (v8 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_v58) = v4 c
          ∧ r.2.mem ((c.tc : Thread Cert.KernelIdeal.nD Cert.KernelIdeal.τ).loc Cert.KernelIdeal.main_v60) = v5 c
          ∧ r.2.mem ((c.tc : Thread Cert.KernelIdeal.nD Cert.KernelIdeal.τ).loc Cert.KernelIdeal.main_v62) = v6 c
          ∧ r.2.mem ((c.tc : Thread Cert.KernelIdeal.nD Cert.KernelIdeal.τ).loc Cert.KernelIdeal.main_v64) = v7 c
          ∧ r.2.mem ((c.tc : Thread Cert.KernelIdeal.nD Cert.KernelIdeal.τ).loc Cert.KernelIdeal.main_v66) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_v132) = v5 c
          ∧ r.2.mem ((c.tc : Thread Cert.ReferenceIdeal.nD Cert.ReferenceIdeal.τ).loc Cert.ReferenceIdeal.main_v134) = v6 c
          ∧ r.2.mem ((c.tc : Thread Cert.ReferenceIdeal.nD Cert.ReferenceIdeal.τ).loc Cert.ReferenceIdeal.main_v136) = v7 c
          ∧ r.2.mem ((c.tc : Thread Cert.ReferenceIdeal.nD Cert.ReferenceIdeal.τ).loc Cert.ReferenceIdeal.main_v138) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S732160x1 : Shape := ⟨2, ![732160, 1]⟩
abbrev S2x5857280 : Shape := ⟨2, ![2, 5857280]⟩
abbrev S4608 : Shape := ⟨1, ![4608]⟩
abbrev S1x16 : Shape := ⟨2, ![1, 16]⟩
abbrev S16 : Shape := ⟨1, ![16]⟩
abbrev S16x16 : Shape := ⟨2, ![16, 16]⟩
abbrev S9x16x8 : Shape := ⟨3, ![9, 16, 8]⟩
abbrev S9x8 : Shape := ⟨2, ![9, 8]⟩
abbrev S9x8x1 : Shape := ⟨3, ![9, 8, 1]⟩
abbrev S9x1 : Shape := ⟨2, ![9, 1]⟩
abbrev S_ : Shape := ⟨0, ![]⟩

class Facts : Prop where
  bcast_S_S732160x1 : S_.BroadcastsInDim S732160x1 (![] : Fin 0 → Fin S732160x1.rank)
  reducesTo_S732160x1_S_d0_1 : S732160x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S9x16x8 : S_.BroadcastsInDim S9x16x8 (![] : Fin 0 → Fin S9x16x8.rank)
  reducesTo_S9x16x8_S_d0_1_2 : S9x16x8.ReducesTo [0, 1, 2] S_
  bcast_S_S9x8 : S_.BroadcastsInDim S9x8 (![] : Fin 0 → Fin S9x8.rank)
  reducesTo_S9x8_S_d0_1 : S9x8.ReducesTo [0, 1] S_
  bcast_S_S9x8x1 : S_.BroadcastsInDim S9x8x1 (![] : Fin 0 → Fin S9x8x1.rank)
  reducesTo_S9x8x1_S_d0_1_2 : S9x8x1.ReducesTo [0, 1, 2] S_
  bcast_S_S9x1 : S_.BroadcastsInDim S9x1 (![] : Fin 0 → Fin S9x1.rank)
  reducesTo_S9x1_S_d0_1 : S9x1.ReducesTo [0, 1] S_

variable [Facts]

def fn_part2 {F : FTy → Type} [FloatOps F] (main_arg9 : FVec F S9x8x1 .f32) (main_arg10 : FVec F S9x1 .f32) (main_v33 : IVec S_ 1) : IVec S_ 1 :=
  let main_v34 : FVec F S9x8x1 .f32 := Host.absf main_arg9
  let main_cst_12 : FVec F S_ .f32 := constant S_ .f32 0x7F800000#32
  let main_v35 : FVec F S9x8x1 .f32 := broadcastInDim S9x8x1 ![] bcast_S_S9x8x1 main_cst_12
  let main_v36 : IVec S9x8x1 1 := cmpf .olt main_v34 main_v35
  let main_c_13 : IVec S_ 1 := constantI S_ 1 1#1
  let main_v37 : IVec S_ 1 := (fun x v => Host.reduce IntOp.andi x v reducesTo_S9x8x1_S_d0_1_2 h_S_) main_v36 main_c_13
  let main_v38 : IVec S_ 1 := andi main_v33 main_v37
  let main_v39 : FVec F S9x1 .f32 := Host.absf main_arg10
  let main_cst_14 : FVec F S_ .f32 := constant S_ .f32 0x7F800000#32
  let main_v40 : FVec F S9x1 .f32 := broadcastInDim S9x1 ![] bcast_S_S9x1 main_cst_14
  let main_v41 : IVec S9x1 1 := cmpf .olt main_v39 main_v40
  let main_c_15 : IVec S_ 1 := constantI S_ 1 1#1
  let main_v42 : IVec S_ 1 := (fun x v => Host.reduce IntOp.andi x v reducesTo_S9x1_S_d0_1 h_S_) main_v41 main_c_15
  let main_v43 : IVec S_ 1 := andi main_v38 main_v42
  main_v43

def fn_part1 {F : FTy → Type} [FloatOps F] (main_arg6 : FVec F S16 .f32) (main_arg7 : FVec F S9x16x8 .f32) (main_arg8 : FVec F S9x8 .f32) (main_arg9 : FVec F S9x8x1 .f32) (main_arg10 : FVec F S9x1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S9x16x8 .f32 := Host.absf main_arg7
  let main_cst_8 : FVec F S_ .f32 := constant S_ .f32 0x7F800000#32
  let main_v25 : FVec F S9x16x8 .f32 := broadcastInDim S9x16x8 ![] bcast_S_S9x16x8 main_cst_8
  let main_v26 : IVec S9x16x8 1 := cmpf .olt main_v24 main_v25
  let main_c_9 : IVec S_ 1 := constantI S_ 1 1#1
  let main_v27 : IVec S_ 1 := (fun x v => Host.reduce IntOp.andi x v reducesTo_S9x16x8_S_d0_1_2 h_S_) main_v26 main_c_9
  let main_v28 : IVec S_ 1 := andi main_v23 main_v27
  let main_v29 : FVec F S9x8 .f32 := Host.absf main_arg8
  let main_cst_10 : FVec F S_ .f32 := constant S_ .f32 0x7F800000#32
  let main_v30 : FVec F S9x8 .f32 := broadcastInDim S9x8 ![] bcast_S_S9x8 main_cst_10
  let main_v31 : IVec S9x8 1 := cmpf .olt main_v29 main_v30
  let main_c_11 : IVec S_ 1 := constantI S_ 1 1#1
  let main_v32 : IVec S_ 1 := (fun x v => Host.reduce IntOp.andi x v reducesTo_S9x8_S_d0_1 h_S_) main_v31 main_c_11
  let main_v33 : IVec S_ 1 := andi main_v28 main_v32
  fn_part2 (F := F) main_arg9 main_arg10 main_v33

def fn {F : FTy → Type} [FloatOps F] (main_arg0 : FVec F S732160x1 .f32) (main_arg1 : IVec S2x5857280 32) (main_arg2 : IVec S4608 32) (main_arg3 : FVec F S1x16 .f32) (main_arg4 : FVec F S16 .f32) (main_arg5 : FVec F S16x16 .f32) (main_arg6 : FVec F S16 .f32) (main_arg7 : FVec F S9x16x8 .f32) (main_arg8 : FVec F S9x8 .f32) (main_arg9 : FVec F S9x8x1 .f32) (main_arg10 : FVec F S9x1 .f32) : IVec S_ 1 :=
  let main_v0 : FVec F S732160x1 .f32 := Host.absf main_arg0
  let main_cst : FVec F S_ .f32 := constant S_ .f32 0x7F800000#32
  let main_v1 : FVec F S732160x1 .f32 := broadcastInDim S732160x1 ![] bcast_S_S732160x1 main_cst
  let main_v2 : IVec S732160x1 1 := cmpf .olt main_v0 main_v1
  let main_c : IVec S_ 1 := constantI S_ 1 1#1
  let main_v3 : IVec S_ 1 := (fun x v => Host.reduce IntOp.andi x v reducesTo_S732160x1_S_d0_1 h_S_) main_v2 main_c
  let main_v4 : FVec F S1x16 .f32 := Host.absf main_arg3
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_arg9 main_arg10 main_v13 main_v16
-- ==== Kernel.lean ====
abbrev S732160x1 : Shape := ⟨2, ![732160, 1]⟩
abbrev S2x5857280 : Shape := ⟨2, ![2, 5857280]⟩
abbrev S4608 : Shape := ⟨1, ![4608]⟩
abbrev S1x16 : Shape := ⟨2, ![1, 16]⟩
abbrev S16 : Shape := ⟨1, ![16]⟩
abbrev S16x16 : Shape := ⟨2, ![16, 16]⟩
abbrev S9x16x8 : Shape := ⟨3, ![9, 16, 8]⟩
abbrev S9x8 : Shape := ⟨2, ![9, 8]⟩
abbrev S9x8x1 : Shape := ⟨3, ![9, 8, 1]⟩
abbrev S9x1 : Shape := ⟨2, ![9, 1]⟩
abbrev S1x5857280 : Shape := ⟨2, ![1, 5857280]⟩
abbrev S5857280 : Shape := ⟨1, ![5857280]⟩
abbrev S_ : Shape := ⟨0, ![]⟩
abbrev S732160 : Shape := ⟨1, ![732160]⟩
abbrev S5857280x1 : Shape := ⟨2, ![5857280, 1]⟩
abbrev S732160x16 : Shape := ⟨2, ![732160, 16]⟩
abbrev S5720x1 : Shape := ⟨2, ![5720, 1]⟩
abbrev S5720x16 : Shape := ⟨2, ![5720, 16]⟩
abbrev S5857280x16 : Shape := ⟨2, ![5857280, 16]⟩
abbrev S512x1430x16 : Shape := ⟨3, ![512, 1430, 16]⟩
abbrev S512x9x16 : Shape := ⟨3, ![512, 9, 16]⟩
abbrev S9x512x16 : Shape := ⟨3, ![9, 512, 16]⟩
abbrev S512x1430x1 : Shape := ⟨3, ![512, 1430, 1]⟩
abbrev S512x9x1 : Shape := ⟨3, ![512, 9, 1]⟩
abbrev S9x512x1 : Shape := ⟨3, ![9, 512, 1]⟩
abbrev S9x1x8 : Shape := ⟨3, ![9, 1, 8]⟩
abbrev S9x1x1 : Shape := ⟨3, ![9, 1, 1]⟩
abbrev S1x512x16 : Shape := ⟨3, ![1, 512, 16]⟩
abbrev S1x512x1 : Shape := ⟨3, ![1, 512, 1]⟩
abbrev S1x16x8 : Shape := ⟨3, ![1, 16, 8]⟩
abbrev S1x1x8 : Shape := ⟨3, ![1, 1, 8]⟩
abbrev S1x8x1 : Shape := ⟨3, ![1, 8, 1]⟩
abbrev S1x1x1 : Shape := ⟨3, ![1, 1, 1]⟩
abbrev S512x1 : Shape := ⟨2, ![512, 1]⟩
abbrev S512x16 : Shape := ⟨2, ![512, 16]⟩
abbrev S16x8 : Shape := ⟨2, ![16, 8]⟩
abbrev S512x8 : Shape := ⟨2, ![512, 8]⟩
abbrev S1x8 : Shape := ⟨2, ![1, 8]⟩
abbrev S8x1 : Shape := ⟨2, ![8, 1]⟩
abbrev S1x1 : Shape := ⟨2, ![1, 1]⟩

abbrev nBuf : Space → Nat
  | .hbm => 87
  | .vmem => 40
  | .smem => 0
  | _ => 0

abbrev bufTy : (tb : Table) → Fin (tcTables nBuf tb) → BufTy
  | .hbm, ⟨0, _⟩ => ⟨S732160x1, .f32⟩
  | .hbm, ⟨1, _⟩ => ⟨S2x5857280, .i32⟩
  | .hbm, ⟨2, _⟩ => ⟨S4608, .i32⟩
  | .hbm, ⟨3, _⟩ => ⟨S1x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S9x16x8, .f32⟩
  | .hbm, ⟨8, _⟩ => ⟨S9x8, .f32⟩
  | .hbm, ⟨9, _⟩ => ⟨S9x8x1, .f32⟩
  | .hbm, ⟨10, _⟩ => ⟨S9x1, .f32⟩
  | .hbm, ⟨11, _⟩ => ⟨S1x5857280, .i32⟩
  | .hbm, ⟨12, _⟩ => ⟨S5857280, .i32⟩
  | .hbm, ⟨13, _⟩ => ⟨S1x5857280, .i32⟩
  | .hbm, ⟨14, _⟩ => ⟨S5857280, .i32⟩
  | .hbm, ⟨15, _⟩ => ⟨S_, .f32⟩
  | .hbm, ⟨16, _⟩ => ⟨S5857280, .f32⟩
  | .hbm, ⟨17, _⟩ => ⟨S_, .f32⟩
  | .hbm, ⟨18, _⟩ => ⟨S732160, .f32⟩
  | .hbm, ⟨19, _⟩ => ⟨S5857280x1, .i32⟩
  | .hbm, ⟨20, _⟩ => ⟨S732160, .f32⟩
  | .hbm, ⟨21, _⟩ => ⟨S_, .f32⟩
  | .hbm, ⟨22, _⟩ => ⟨S732160, .f32⟩
  | .hbm, ⟨23, _⟩ => ⟨S732160, .f32⟩
  | .hbm, ⟨24, _⟩ => ⟨S732160, .f32⟩
  | .hbm, ⟨25, _⟩ => ⟨S732160x1, .f32⟩
  | .hbm, ⟨26, _⟩ => ⟨S732160x16, .f32⟩
  | .hbm, ⟨27, _⟩ => ⟨S_, .i32⟩
  | .hbm, ⟨28, _⟩ => ⟨S5857280, .i32⟩
  | .hbm, ⟨29, _⟩ => ⟨S5857280, .i1⟩
  | .hbm, ⟨30, _⟩ => ⟨S_, .i32⟩
  | .hbm, ⟨31, _⟩ => ⟨S5857280, .i32⟩
  | .hbm, ⟨32, _⟩ => ⟨S5857280, .i32⟩
  | .hbm, ⟨33, _⟩ => ⟨S5857280, .i32⟩
  | .hbm, ⟨34, _⟩ => ⟨S5857280x1, .i32⟩
  | .hbm, ⟨35, _⟩ => ⟨S5857280x16, .f32⟩
  | .hbm, ⟨36, _⟩ => ⟨S_, .f32⟩
  | .hbm, ⟨37, _⟩ => ⟨S732160x16, .f32⟩
  | .hbm, ⟨38, _⟩ => ⟨S5857280x1, .i32⟩
  | .hbm, ⟨39, _⟩ => ⟨S732160x16, .f32⟩
  | .hbm, ⟨40, _⟩ => ⟨S1x16, .f32⟩
  | .hbm, ⟨41, _⟩ => ⟨S732160x16, .f32⟩
  | .hbm, ⟨42, _⟩ => ⟨S732160x16, .f32⟩
  | .hbm, ⟨43, _⟩ => ⟨S_, .i32⟩
  | .hbm, ⟨44, _⟩ => ⟨S5857280, .i32⟩
  | .hbm, ⟨45, _⟩ => ⟨S5857280, .i1⟩
  | .hbm, ⟨46, _⟩ => ⟨S_, .i32⟩
  | .hbm, ⟨47, _⟩ => ⟨S5857280, .i32⟩
  | .hbm, ⟨48, _⟩ => ⟨S5857280, .i32⟩
  | .hbm, ⟨49, _⟩ => ⟨S5857280, .i32⟩
  | .hbm, ⟨50, _⟩ => ⟨S5857280x1, .i32⟩
  | .hbm, ⟨51, _⟩ => ⟨S5857280x16, .f32⟩
  | .hbm, ⟨52, _⟩ => ⟨S_, .f32⟩
  | .hbm, ⟨53, _⟩ => ⟨S732160x16, .f32⟩
  | .hbm, ⟨54, _⟩ => ⟨S5857280x1, .i32⟩
  | .hbm, ⟨55, _⟩ => ⟨S732160x16, .f32⟩
  | .hbm, ⟨56, _⟩ => ⟨S512x1430x16, .f32⟩
  | .hbm, ⟨57, _⟩ => ⟨S512x9x16, .f32⟩
  | .hbm, ⟨58, _⟩ => ⟨S9x512x16, .f32⟩
  | .hbm, ⟨59, _⟩ => ⟨S512x1430x16, .f32⟩
  | .hbm, ⟨60, _⟩ => ⟨S512x9x16, .f32⟩
  | .hbm, ⟨61, _⟩ => ⟨S9x512x16, .f32⟩
  | .hbm, ⟨62, _⟩ => ⟨S512x1430x1, .f32⟩
  | .hbm, ⟨63, _⟩ => ⟨S512x9x1, .f32⟩
  | .hbm, ⟨64, _⟩ => ⟨S9x512x1, .f32⟩
  | .hbm, ⟨65, _⟩ => ⟨S1x16, .f32⟩
  | .hbm, ⟨66, _⟩ => ⟨S9x1x8, .f32⟩
  | .hbm, ⟨67, _⟩ => ⟨S9x1x1, .f32⟩
  | .hbm, ⟨68, _⟩ => ⟨S9x512x1, .f32⟩
  | .hbm, ⟨69, _⟩ => ⟨S1x512x1, .f32⟩
  | .hbm, ⟨70, _⟩ => ⟨S512x1, .f32⟩
  | .hbm, ⟨71, _⟩ => ⟨S1x512x1, .f32⟩
  | .hbm, ⟨72, _⟩ => ⟨S512x1, .f32⟩
  | .hbm, ⟨73, _⟩ => ⟨S1x512x1, .f32⟩
  | .hbm, ⟨74, _⟩ => ⟨S512x1, .f32⟩
  | .hbm, ⟨75, _⟩ => ⟨S1x512x1, .f32⟩
  | .hbm, ⟨76, _⟩ => ⟨S512x1, .f32⟩
  | .hbm, ⟨77, _⟩ => ⟨S1x512x1, .f32⟩
  | .hbm, ⟨78, _⟩ => ⟨S512x1, .f32⟩
  | .hbm, ⟨79, _⟩ => ⟨S1x512x1, .f32⟩
  | .hbm, ⟨80, _⟩ => ⟨S512x1, .f32⟩
  | .hbm, ⟨81, _⟩ => ⟨S1x512x1, .f32⟩
  | .hbm, ⟨82, _⟩ => ⟨S512x1, .f32⟩
  | .hbm, ⟨83, _⟩ => ⟨S1x512x1, .f32⟩
  | .hbm, ⟨84, _⟩ => ⟨S512x1, .f32⟩
  | .hbm, ⟨85, _⟩ => ⟨S1x512x1, .f32⟩
  | .hbm, ⟨86, _⟩ => ⟨S512x1, .f32⟩
  | .local _ .vmem, ⟨0, _⟩ => ⟨S5720x1, .f32⟩
  | .local _ .vmem, ⟨1, _⟩ => ⟨S5720x1, .f32⟩
  | .local _ .vmem, ⟨2, _⟩ => ⟨S1x16, .f32⟩
  | .local _ .vmem, ⟨3, _⟩ => ⟨S5720x1, .f32⟩
  | .local _ .vmem, ⟨4, _⟩ => ⟨S5720x1, .f32⟩
  | .local _ .vmem, ⟨5, _⟩ => ⟨S5720x16, .f32⟩
  | .local _ .vmem, ⟨6, _⟩ => ⟨S5720x16, .f32⟩
  | .local _ .vmem, ⟨7, _⟩ => ⟨S5720x16, .f32⟩
  | .local _ .vmem, ⟨8, _⟩ => ⟨S5720x16, .f32⟩
  | .local _ .vmem, ⟨9, _⟩ => ⟨S5720x16, .f32⟩
  | .local _ .vmem, ⟨10, _⟩ => ⟨S5720x16, .f32⟩
  | .local _ .vmem, ⟨11, _⟩ => ⟨S5720x1, .f32⟩
  | .local _ .vmem, ⟨12, _⟩ => ⟨S5720x1, .f32⟩
  | .local _ .vmem, ⟨13, _⟩ => ⟨S1x16, .f32⟩
  | .local _ .vmem, ⟨14, _⟩ => ⟨S5720x16, .f32⟩
  | .local _ .vmem, ⟨15, _⟩ => ⟨S5720x16, .f32⟩
  | .local _ .vmem, ⟨16, _⟩ => ⟨S5720x16, .f32⟩
  | .local _ .vmem, ⟨17, _⟩ => ⟨S5720x16, .f32⟩
  | .local _ .vmem, ⟨18, _⟩ => ⟨S16x16, .f32⟩
  | .local _ .vmem, ⟨19, _⟩ => ⟨S5720x1, .f32⟩
  | .local _ .vmem, ⟨20, _⟩ => ⟨S5720x1, .f32⟩
  | .local _ .vmem, ⟨21, _⟩ => ⟨S5720x16, .f32⟩
  | .local _ .vmem, ⟨22, _⟩ => ⟨S5720x16, .f32⟩
  | .local _ .vmem, ⟨23, _⟩ => ⟨S1x512x16, .f32⟩
  | .local _ .vmem, ⟨24, _⟩ => ⟨S1x512x16, .f32⟩
  | .local _ .vmem, ⟨25, _⟩ => ⟨S1x512x16, .f32⟩
  | .local _ .vmem, ⟨26, _⟩ => ⟨S1x512x16, .f32⟩
  | .local _ .vmem, ⟨27, _⟩ => ⟨S1x512x1, .f32⟩
  | .local _ .vmem, ⟨28, _⟩ => ⟨S1x512x1, .f32⟩
  | .local _ .vmem, ⟨29, _⟩ => ⟨S1x16, .f32⟩
  | .local _ .vmem, ⟨30, _⟩ => ⟨S1x16x8, .f32⟩
  | .local _ .vmem, ⟨31, _⟩ => ⟨S1x16x8, .f32⟩
  | .local _ .vmem, ⟨32, _⟩ => ⟨S1x1x8, .f32⟩
  | .local _ .vmem, ⟨33, _⟩ => ⟨S1x1x8, .f32⟩
  | .local _ .vmem, ⟨34, _⟩ => ⟨S1x8x1, .f32⟩
  | .local _ .vmem, ⟨35, _⟩ => ⟨S1x8x1, .f32⟩
  | .local _ .vmem, ⟨36, _⟩ => ⟨S1x1x1, .f32⟩
  | .local _ .vmem, ⟨37, _⟩ => ⟨S1x1x1, .f32⟩
  | .local _ .vmem, ⟨38, _⟩ => ⟨S1x512x1, .f32⟩
  | .local _ .vmem, ⟨39, _⟩ => ⟨S1x512x1, .f32⟩
  | _, _ => ⟨S732160x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35
abbrev cc3_sem7_0 : DmaSem sig := 36
abbrev cc3_sem7_1 : DmaSem sig := 37
abbrev cc3_sem8_0 : DmaSem sig := 38
abbrev cc3_sem8_1 : DmaSem sig := 39

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5720x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5720x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5720x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5720x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5720x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5720x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5720x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5720x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5720x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5720x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![9], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x512x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x16x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x8x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x512x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x5857280_S1x5857280_0_0 : S2x5857280.Slices ![0, 0] S1x5857280
  shapeCasts_S1x5857280_S5857280 : S1x5857280.ShapeCasts S5857280
  slices_S2x5857280_S1x5857280_1_0 : S2x5857280.Slices ![1, 0] S1x5857280
  bcast_S_S5857280 : S_.BroadcastsInDim S5857280 (![] : Fin 0 → Fin S5857280.rank)
  bcast_S_S732160 : S_.BroadcastsInDim S732160 (![] : Fin 0 → Fin S732160.rank)
  bcast_S5857280_S5857280x1_0 : S5857280.BroadcastsInDim S5857280x1 (![0] : Fin 1 → Fin S5857280x1.rank)
  shapeCasts_S732160_S732160x1 : S732160.ShapeCasts S732160x1
  inb_S5720x1_S5720x1_0_0 : ∀ a, (![0, 0] : Fin 2 → Nat) a + S5720x1.size a ≤ S5720x1.size a
  h_S5720x1 : 0 < S5720x1.numel
  inb_S1x16_S1x16_0_0 : ∀ a, (![0, 0] : Fin 2 → Nat) a + S1x16.size a ≤ S1x16.size a
  h_S1x16 : 0 < S1x16.numel
  shapeCasts_S5720x1_S5720x1 : S5720x1.ShapeCasts S5720x1
  broadcasts_S5720x1_S5720x16 : S5720x1.Broadcasts S5720x16
  shapeCasts_S1x16_S1x16 : S1x16.ShapeCasts S1x16
  broadcasts_S1x16_S5720x16 : S1x16.Broadcasts S5720x16
  inb_S5720x16_S5720x16_0_0 : ∀ a, (![0, 0] : Fin 2 → Nat) a + S5720x16.size a ≤ S5720x16.size a
  h_S5720x16 : 0 < S5720x16.numel
  bcast_S_S732160x16 : S_.BroadcastsInDim S732160x16 (![] : Fin 0 → Fin S732160x16.rank)
  shapeCasts_S16_S1x16 : S16.ShapeCasts S1x16
  shapeCasts_S5720x16_S5720x16 : S5720x16.ShapeCasts S5720x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S732160x16_S512x1430x16 : S732160x16.ShapeCasts S512x1430x16
  slices_S512x1430x16_S512x9x16_0_1421_0 : S512x1430x16.Slices ![0, 1421, 0] S512x9x16
  transposes_S512x9x16_S9x512x16_1_0_2 : S512x9x16.Transposes [1, 0, 2] S9x512x16
  shapeCasts_S732160x1_S512x1430x1 : S732160x1.ShapeCasts S512x1430x1
  slices_S512x1430x1_S512x9x1_0_1421_0 : S512x1430x1.Slices ![0, 1421, 0] S512x9x1
  transposes_S512x9x1_S9x512x1_1_0_2 : S512x9x1.Transposes [1, 0, 2] S9x512x1
  shapeCasts_S9x8_S9x1x8 : S9x8.ShapeCasts S9x1x8
  shapeCasts_S9x1_S9x1x1 : S9x1.ShapeCasts S9x1x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  broadcasts_S512x1_S512x16 : S512x1.Broadcasts S512x16
  broadcasts_S1x16_S512x16 : S1x16.Broadcasts S512x16
  inb_S1x16x8_S1x16x8_0_0_0 : ∀ a, (![0, 0, 0] : Fin 3 → Nat) a + S1x16x8.size a ≤ S1x16x8.size a
  h_S1x16x8 : 0 < S1x16x8.numel
  shapeCasts_S1x16x8_S16x8 : S1x16x8.ShapeCasts S16x8
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  broadcasts_S1x8_S512x8 : S1x8.Broadcasts S512x8
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S512x1 : S1x1.Broadcasts S512x1
  shapeCasts_S512x1_S1x512x1 : S512x1.ShapeCasts S1x512x1
  slices_S9x512x1_S1x512x1_0_0_0 : S9x512x1.Slices ![0, 0, 0] S1x512x1
  slices_S9x512x1_S1x512x1_1_0_0 : S9x512x1.Slices ![1, 0, 0] S1x512x1
  slices_S9x512x1_S1x512x1_2_0_0 : S9x512x1.Slices ![2, 0, 0] S1x512x1
  slices_S9x512x1_S1x512x1_3_0_0 : S9x512x1.Slices ![3, 0, 0] S1x512x1
  slices_S9x512x1_S1x512x1_4_0_0 : S9x512x1.Slices ![4, 0, 0] S1x512x1
  slices_S9x512x1_S1x512x1_5_0_0 : S9x512x1.Slices ![5, 0, 0] S1x512x1
  slices_S9x512x1_S1x512x1_6_0_0 : S9x512x1.Slices ![6, 0, 0] S1x512x1
  slices_S9x512x1_S1x512x1_7_0_0 : S9x512x1.Slices ![7, 0, 0] S1x512x1
  slices_S9x512x1_S1x512x1_8_0_0 : S9x512x1.Slices ![8, 0, 0] S1x512x1
  scatter_S732160_S5857280x1_S5857280_n_0_0_1_wf : ScatterDims.WF S732160 S5857280x1 S5857280 [] [0] [0] 1
  gather_S732160x16_S5857280x1_S5857280x16_1_0_n_n_0_1_116_wf : GatherDims.WF S732160x16 S5857280x1 S5857280x16 [1] [0] [] [0] [] 1 ![1, 16]
  scatter_S732160x16_S5857280x1_S5857280x16_1_0_0_1_wf : ScatterDims.WF S732160x16 S5857280x1 S5857280x16 [1] [0] [0] 1
  dot_S5720x16_S16x16_S5720x16_1_0_0_1_n_n_wf : DotDims.WF S5720x16 S16x16 S5720x16 [1] [0] [0] [1] [] []
  dot_S512x16_S16x8_S512x8_1_0_0_1_n_n_wf : DotDims.WF S512x16 S16x8 S512x8 [1] [0] [0] [1] [] []
  dot_S512x8_S8x1_S512x1_1_0_0_1_n_n_wf : DotDims.WF S512x8 S8x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5720x1.size a ≤ S732160x1.size a
  hwx0_0 : ∀ i : grid0.Coords, EltTy.bits .f32 = 32 ∨ (Rect.block (s := S732160x1) S5720x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5720x1.size a ≤ S732160x1.size a
  hwx0_2 : ∀ i : grid0.Coords, EltTy.bits .f32 = 32 ∨ (Rect.block (s := S732160x1) S5720x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5720x16.size a ≤ S732160x16.size a
  hwx0_3 : ∀ i : grid0.Coords, EltTy.bits .f32 = 32 ∨ (Rect.block (s := S732160x16) S5720x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5720x16.size a ≤ S732160x16.size a
  hwx1_0 : ∀ i : grid1.Coords, EltTy.bits .f32 = 32 ∨ (Rect.block (s := S732160x16) S5720x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5720x16.size a ≤ S732160x16.size a
  hwx1_1 : ∀ i : grid1.Coords, EltTy.bits .f32 = 32 ∨ (Rect.block (s := S732160x16) S5720x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5720x1.size a ≤ S732160x1.size a
  hwx1_2 : ∀ i : grid1.Coords, EltTy.bits .f32 = 32 ∨ (Rect.block (s := S732160x1) S5720x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5720x16.size a ≤ S732160x16.size a
  hwx1_4 : ∀ i : grid1.Coords, EltTy.bits .f32 = 32 ∨ (Rect.block (s := S732160x16) S5720x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5720x16.size a ≤ S732160x16.size a
  hwx2_0 : ∀ i : grid2.Coords, EltTy.bits .f32 = 32 ∨ (Rect.block (s := S732160x16) S5720x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5720x1.size a ≤ S732160x1.size a
  hwx2_2 : ∀ i : grid2.Coords, EltTy.bits .f32 = 32 ∨ (Rect.block (s := S732160x1) S5720x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5720x16.size a ≤ S732160x16.size a
  hwx2_3 : ∀ i : grid2.Coords, EltTy.bits .f32 = 32 ∨ (Rect.block (s := S732160x16) S5720x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x16.size a ≤ S9x512x16.size a
  hwx3_0 : ∀ i : grid3.Coords, EltTy.bits .f32 = 32 ∨ (Rect.block (s := S9x512x16) S1x512x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x16.size a ≤ S9x512x16.size a
  hwx3_1 : ∀ i : grid3.Coords, EltTy.bits .f32 = 32 ∨ (Rect.block (s := S9x512x16) S1x512x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1.size a ≤ S9x512x1.size a
  hwx3_2 : ∀ i : grid3.Coords, EltTy.bits .f32 = 32 ∨ (Rect.block (s := S9x512x1) S1x512x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x16x8.size a ≤ S9x16x8.size a
  hwx3_4 : ∀ i : grid3.Coords, EltTy.bits .f32 = 32 ∨ (Rect.block (s := S9x16x8) S1x16x8.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x8.size a ≤ S9x1x8.size a
  hwx3_5 : ∀ i : grid3.Coords, EltTy.bits .f32 = 32 ∨ (Rect.block (s := S9x1x8) S1x1x8.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x8x1.size a ≤ S9x8x1.size a
  hwx3_6 : ∀ i : grid3.Coords, EltTy.bits .f32 = 32 ∨ (Rect.block (s := S9x8x1) S1x8x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x1x1.size a ≤ S9x1x1.size a
  hwx3_7 : ∀ i : grid3.Coords, EltTy.bits .f32 = 32 ∨ (Rect.block (s := S9x1x1) S1x1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x512x1.size a ≤ S9x512x1.size a
  hwx3_8 : ∀ i : grid3.Coords, EltTy.bits .f32 = 32 ∨ (Rect.block (s := S9x512x1) S1x512x1.size (cc3_transform_8 i) (hinb3_8 i)).WholeWords (EltTy.packing .f32)

variable [Facts₀]

def scatter_S732160_S5857280x1_S5857280_n_0_0_1 : ScatterDims S732160 S5857280x1 S5857280 where
  updateWindowDims := []
  insertedWindowDims := [0]
  scatterDimsToOperandDims := [0]
  indexVectorDim := 1
  wf := scatter_S732160_S5857280x1_S5857280_n_0_0_1_wf
def gather_S732160x16_S5857280x1_S5857280x16_1_0_n_n_0_1_116 : GatherDims S732160x16 S5857280x1 S5857280x16 where
  offsetDims := [1]
  collapsedSliceDims := [0]
  operandBatchingDims := []
  startIndicesBatchingDims := []
  startIndexMap := [0]
  indexVectorDim := 1
  sliceSizes := ![1, 16]
  wf := gather_S732160x16_S5857280x1_S5857280x16_1_0_n_n_0_1_116_wf
def scatter_S732160x16_S5857280x1_S5857280x16_1_0_0_1 : ScatterDims S732160x16 S5857280x1 S5857280x16 where
  updateWindowDims := [1]
  insertedWindowDims := [0]
  scatterDimsToOperandDims := [0]
  indexVectorDim := 1
  wf := scatter_S732160x16_S5857280x1_S5857280x16_1_0_0_1_wf
def dot_S5720x16_S16x16_S5720x16_1_0_0_1_n_n : DotDims S5720x16 S16x16 S5720x16 where
  lhsContracting := [1]
  rhsContracting := [0]
  lhsNonContracting := [0]
  rhsNonContracting := [1]
  lhsBatch := []
  rhsBatch := []
  wf := dot_S5720x16_S16x16_S5720x16_1_0_0_1_n_n_wf
def dot_S512x16_S16x8_S512x8_1_0_0_1_n_n : DotDims S512x16 S16x8 S512x8 where
  lhsContracting := [1]
  rhsContracting := [0]
  lhsNonContracting := [0]
  rhsNonContracting := [1]
  lhsBatch := []
  rhsBatch := []
  wf := dot_S512x16_S16x8_S512x8_1_0_0_1_n_n_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

abbrev win0_0 : Pipeline.Window sig grid0 :=
  Pipeline.Window.ofSpec (Memref.whole main_arg0) S5720x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5720x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5720x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5720x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5720x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5720x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5720x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5720x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5720x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5720x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S1x512x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x512x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x512x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S1x16x8.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x1x8.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S1x8x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v47) S1x1x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v48) S1x512x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S732160x1 : Shape := ⟨2, ![732160, 1]⟩
abbrev S2x5857280 : Shape := ⟨2, ![2, 5857280]⟩
abbrev S4608 : Shape := ⟨1, ![4608]⟩
abbrev S1x16 : Shape := ⟨2, ![1, 16]⟩
abbrev S16 : Shape := ⟨1, ![16]⟩
abbrev S16x16 : Shape := ⟨2, ![16, 16]⟩
abbrev S9x16x8 : Shape := ⟨3, ![9, 16, 8]⟩
abbrev S9x8 : Shape := ⟨2, ![9, 8]⟩
abbrev S9x8x1 : Shape := ⟨3, ![9, 8, 1]⟩
abbrev S9x1 : Shape := ⟨2, ![9, 1]⟩
abbrev S1x5857280 : Shape := ⟨2, ![1, 5857280]⟩
abbrev S5857280 : Shape := ⟨1, ![5857280]⟩
abbrev S732160x16 : Shape := ⟨2, ![732160, 16]⟩
abbrev S_ : Shape := ⟨0, ![]⟩
abbrev S732160 : Shape := ⟨1, ![732160]⟩
abbrev S5857280x1 : Shape := ⟨2, ![5857280, 1]⟩
abbrev S5857280x16 : Shape := ⟨2, ![5857280, 16]⟩
abbrev S9 : Shape := ⟨1, ![9]⟩
abbrev S512 : Shape := ⟨1, ![512]⟩
abbrev S1x512 : Shape := ⟨2, ![1, 512]⟩
abbrev S9x512 : Shape := ⟨2, ![9, 512]⟩
abbrev S9x512x1 : Shape := ⟨3, ![9, 512, 1]⟩
abbrev S9x512x16 : Shape := ⟨3, ![9, 512, 16]⟩
abbrev S9x512x8 : Shape := ⟨3, ![9, 512, 8]⟩
abbrev S9x1x8 : Shape := ⟨3, ![9, 1, 8]⟩
abbrev S9x1x1 : Shape := ⟨3, ![9, 1, 1]⟩
abbrev S1x512x1 : Shape := ⟨3, ![1, 512, 1]⟩
abbrev S512x1 : Shape := ⟨2, ![512, 1]⟩

abbrev nBuf : Space → Nat
  | .hbm => 180
  | .vmem => 0
  | .smem => 0
  | _ => 0

abbrev hbmTy0_0 (i : Nat) : BufTy := match i % 128 with
  | 0 => ⟨S732160x1, .f32⟩
  | 1 => ⟨S2x5857280, .i32⟩
  | 2 => ⟨S4608, .i32⟩
  | 3 => ⟨S1x16, .f32⟩
  | 4 => ⟨S16, .f32⟩
  | 5 => ⟨S16x16, .f32⟩
  | 6 => ⟨S16, .f32⟩
  | 7 => ⟨S9x16x8, .f32⟩
  | 8 => ⟨S9x8, .f32⟩
  | 9 => ⟨S9x8x1, .f32⟩
  | 10 => ⟨S9x1, .f32⟩
  | 11 => ⟨S1x5857280, .i32⟩
  | 12 => ⟨S5857280, .i32⟩
  | 13 => ⟨S1x5857280, .i32⟩
  | 14 => ⟨S5857280, .i32⟩
  | 15 => ⟨S732160x16, .f32⟩
  | 16 => ⟨S_, .f32⟩
  | 17 => ⟨S5857280, .f32⟩
  | 18 => ⟨S_, .f32⟩
  | 19 => ⟨S732160, .f32⟩
  | 20 => ⟨S5857280x1, .i32⟩
  | 21 => ⟨S732160, .f32⟩
  | 22 => ⟨S_, .f32⟩
  | 23 => ⟨S732160, .f32⟩
  | 24 => ⟨S732160, .f32⟩
  | 25 => ⟨S732160, .f32⟩
  | 26 => ⟨S_, .i32⟩
  | 27 => ⟨S5857280, .i32⟩
  | 28 => ⟨S5857280, .i1⟩
  | 29 => ⟨S_, .i32⟩
  | 30 => ⟨S5857280, .i32⟩
  | 31 => ⟨S5857280, .i32⟩
  | 32 => ⟨S5857280, .i32⟩
  | 33 => ⟨S5857280x1, .i32⟩
  | 34 => ⟨S5857280, .f32⟩
  | 35 => ⟨S_, .i32⟩
  | 36 => ⟨S5857280, .i32⟩
  | 37 => ⟨S5857280, .i1⟩
  | 38 => ⟨S_, .i32⟩
  | 39 => ⟨S5857280, .i32⟩
  | 40 => ⟨S5857280, .i32⟩
  | 41 => ⟨S5857280, .i32⟩
  | 42 => ⟨S5857280x1, .i32⟩
  | 43 => ⟨S5857280, .f32⟩
  | 44 => ⟨S5857280, .f32⟩
  | 45 => ⟨S5857280x1, .f32⟩
  | 46 => ⟨S_, .i32⟩
  | 47 => ⟨S5857280, .i32⟩
  | 48 => ⟨S5857280, .i1⟩
  | 49 => ⟨S_, .i32⟩
  | 50 => ⟨S5857280, .i32⟩
  | 51 => ⟨S5857280, .i32⟩
  | 52 => ⟨S5857280, .i32⟩
  | 53 => ⟨S5857280x1, .i32⟩
  | 54 => ⟨S5857280x16, .f32⟩
  | 55 => ⟨S5857280x16, .f32⟩
  | 56 => ⟨S5857280x16, .f32⟩
  | 57 => ⟨S_, .f32⟩
  | 58 => ⟨S732160x16, .f32⟩
  | 59 => ⟨S5857280x1, .i32⟩
  | 60 => ⟨S732160x16, .f32⟩
  | 61 => ⟨S732160, .f32⟩
  | 62 => ⟨S732160x1, .f32⟩
  | 63 => ⟨S732160x16, .f32⟩
  | 64 => ⟨S732160x16, .f32⟩
  | 65 => ⟨S732160x16, .f32⟩
  | 66 => ⟨S1x16, .f32⟩
  | 67 => ⟨S732160x16, .f32⟩
  | 68 => ⟨S732160x16, .f32⟩
  | 69 => ⟨S_, .f32⟩
  | 70 => ⟨S732160x16, .f32⟩
  | 71 => ⟨S732160x16, .f32⟩
  | 72 => ⟨S732160x16, .f32⟩
  | 73 => ⟨S_, .f32⟩
  | 74 => ⟨S5857280, .f32⟩
  | 75 => ⟨S_, .f32⟩
  | 76 => ⟨S732160, .f32⟩
  | 77 => ⟨S5857280x1, .i32⟩
  | 78 => ⟨S732160, .f32⟩
  | 79 => ⟨S_, .f32⟩
  | 80 => ⟨S732160, .f32⟩
  | 81 => ⟨S732160, .f32⟩
  | 82 => ⟨S732160, .f32⟩
  | 83 => ⟨S_, .i32⟩
  | 84 => ⟨S5857280, .i32⟩
  | 85 => ⟨S5857280, .i1⟩
  | 86 => ⟨S_, .i32⟩
  | 87 => ⟨S5857280, .i32⟩
  | 88 => ⟨S5857280, .i32⟩
  | 89 => ⟨S5857280, .i32⟩
  | 90 => ⟨S5857280x1, .i32⟩
  | 91 => ⟨S5857280, .f32⟩
  | 92 => ⟨S_, .i32⟩
  | 93 => ⟨S5857280, .i32⟩
  | 94 => ⟨S5857280, .i1⟩
  | 95 => ⟨S_, .i32⟩
  | 96 => ⟨S5857280, .i32⟩
  | 97 => ⟨S5857280, .i32⟩
  | 98 => ⟨S5857280, .i32⟩
  | 99 => ⟨S5857280x1, .i32⟩
  | 100 => ⟨S5857280, .f32⟩
  | 101 => ⟨S5857280, .f32⟩
  | 102 => ⟨S5857280x1, .f32⟩
  | 103 => ⟨S_, .i32⟩
  | 104 => ⟨S5857280, .i32⟩
  | 105 => ⟨S5857280, .i1⟩
  | 106 => ⟨S_, .i32⟩
  | 107 => ⟨S5857280, .i32⟩
  | 108 => ⟨S5857280, .i32⟩
  | 109 => ⟨S5857280, .i32⟩
  | 110 => ⟨S5857280x1, .i32⟩
  | 111 => ⟨S5857280x16, .f32⟩
  | 112 => ⟨S5857280x16, .f32⟩
  | 113 => ⟨S5857280x16, .f32⟩
  | 114 => ⟨S_, .f32⟩
  | 115 => ⟨S732160x16, .f32⟩
  | 116 => ⟨S5857280x1, .i32⟩
  | 117 => ⟨S732160x16, .f32⟩
  | 118 => ⟨S732160, .f32⟩
  | 119 => ⟨S732160x1, .f32⟩
  | 120 => ⟨S732160x16, .f32⟩
  | 121 => ⟨S732160x16, .f32⟩
  | 122 => ⟨S732160x16, .f32⟩
  | 123 => ⟨S1x16, .f32⟩
  | 124 => ⟨S732160x16, .f32⟩
  | 125 => ⟨S732160x16, .f32⟩
  | 126 => ⟨S_, .f32⟩
  | 127 => ⟨S732160x16, .f32⟩
  | _ => ⟨S732160x1, .f32⟩

abbrev hbmTy0_1 (i : Nat) : BufTy := match i % 128 with
  | 0 => ⟨S732160x16, .f32⟩
  | 1 => ⟨S9, .i32⟩
  | 2 => ⟨S9x1, .i32⟩
  | 3 => ⟨S_, .i32⟩
  | 4 => ⟨S9x1, .i32⟩
  | 5 => ⟨S9x1, .i32⟩
  | 6 => ⟨S512, .i32⟩
  | 7 => ⟨S1x512, .i32⟩
  | 8 => ⟨S_, .i32⟩
  | 9 => ⟨S1x512, .i32⟩
  | 10 => ⟨S1x512, .i32⟩
  | 11 => ⟨S9x512, .i32⟩
  | 12 => ⟨S9x512, .i32⟩
  | 13 => ⟨S9x512, .i32⟩
  | 14 => ⟨S_, .i32⟩
  | 15 => ⟨S9x512, .i32⟩
  | 16 => ⟨S9x512, .i1⟩
  | 17 => ⟨S_, .i32⟩
  | 18 => ⟨S9x512, .i32⟩
  | 19 => ⟨S9x512, .i32⟩
  | 20 => ⟨S9x512, .i32⟩
  | 21 => ⟨S9x512x1, .i32⟩
  | 22 => ⟨S9x512x16, .f32⟩
  | 23 => ⟨S9x512x8, .f32⟩
  | 24 => ⟨S9x1x8, .f32⟩
  | 25 => ⟨S9x512x8, .f32⟩
  | 26 => ⟨S9x512x8, .f32⟩
  | 27 => ⟨S_, .f32⟩
  | 28 => ⟨S9x512x8, .f32⟩
  | 29 => ⟨S9x512x8, .f32⟩
  | 30 => ⟨S9x512x1, .f32⟩
  | 31 => ⟨S9x1x1, .f32⟩
  | 32 => ⟨S9x512x1, .f32⟩
  | 33 => ⟨S9x512x1, .f32⟩
  | 34 => ⟨S1x512x1, .f32⟩
  | 35 => ⟨S512x1, .f32⟩
  | 36 => ⟨S1x512x1, .f32⟩
  | 37 => ⟨S512x1, .f32⟩
  | 38 => ⟨S1x512x1, .f32⟩
  | 39 => ⟨S512x1, .f32⟩
  | 40 => ⟨S1x512x1, .f32⟩
  | 41 => ⟨S512x1, .f32⟩
  | 42 => ⟨S1x512x1, .f32⟩
  | 43 => ⟨S512x1, .f32⟩
  | 44 => ⟨S1x512x1, .f32⟩
  | 45 => ⟨S512x1, .f32⟩
  | 46 => ⟨S1x512x1, .f32⟩
  | 47 => ⟨S512x1, .f32⟩
  | 48 => ⟨S1x512x1, .f32⟩
  | 49 => ⟨S512x1, .f32⟩
  | 50 => ⟨S1x512x1, .f32⟩
  | 51 => ⟨S512x1, .f32⟩
  | _ => ⟨S732160x1, .f32⟩

abbrev hbmTy (i : Nat) : BufTy := match i / 128 with
  | 0 => hbmTy0_0 i
  | 1 => hbmTy0_1 i
  | _ => ⟨S732160x1, .f32⟩

abbrev bufTy : (tb : Table) → Fin (tcTables nBuf tb) → BufTy
  | .hbm, ⟨i, _⟩ => hbmTy i
  | _, _ => ⟨S732160x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_18 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_20 : Ref sig .tc := ⟨.hbm, 142, rfl⟩
abbrev main_v105 : Ref sig .tc := ⟨.hbm, 143, rfl⟩
abbrev main_v106 : Ref sig .tc := ⟨.hbm, 144, rfl⟩
abbrev main_c_21 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_call2_cst : Ref sig .tc := ⟨.hbm, 155, rfl⟩
abbrev main_call2_v0 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩

abbrev nD : Nat := 1
abbrev τ : Topo := Topo.v7x

variable {F : FTy → Type} [FloatOps F]

class Facts₀ : Prop where
  slices_S2x5857280_S1x5857280_0_0 : S2x5857280.Slices ![0, 0] S1x5857280
  shapeCasts_S1x5857280_S5857280 : S1x5857280.ShapeCasts S5857280
  slices_S2x5857280_S1x5857280_1_0 : S2x5857280.Slices ![1, 0] S1x5857280
  bcast_S_S5857280 : S_.BroadcastsInDim S5857280 (![] : Fin 0 → Fin S5857280.rank)
  bcast_S_S732160 : S_.BroadcastsInDim S732160 (![] : Fin 0 → Fin S732160.rank)
  bcast_S5857280_S5857280x1_0 : S5857280.BroadcastsInDim S5857280x1 (![0] : Fin 1 → Fin S5857280x1.rank)
  bcast_S5857280x1_S5857280x16_0_1 : S5857280x1.BroadcastsInDim S5857280x16 (![0, 1] : Fin 2 → Fin S5857280x16.rank)
  bcast_S_S732160x16 : S_.BroadcastsInDim S732160x16 (![] : Fin 0 → Fin S732160x16.rank)
  bcast_S732160_S732160x1_0 : S732160.BroadcastsInDim S732160x1 (![0] : Fin 1 → Fin S732160x1.rank)
  bcast_S732160x1_S732160x16_0_1 : S732160x1.BroadcastsInDim S732160x16 (![0, 1] : Fin 2 → Fin S732160x16.rank)
  bcast_S16_S1x16_1 : S16.BroadcastsInDim S1x16 (![1] : Fin 1 → Fin S1x16.rank)
  bcast_S1x16_S732160x16_0_1 : S1x16.BroadcastsInDim S732160x16 (![0, 1] : Fin 2 → Fin S732160x16.rank)
  bcast_S9_S9x1_0 : S9.BroadcastsInDim S9x1 (![0] : Fin 1 → Fin S9x1.rank)
  bcast_S_S9x1 : S_.BroadcastsInDim S9x1 (![] : Fin 0 → Fin S9x1.rank)
  bcast_S512_S1x512_1 : S512.BroadcastsInDim S1x512 (![1] : Fin 1 → Fin S1x512.rank)
  bcast_S_S1x512 : S_.BroadcastsInDim S1x512 (![] : Fin 0 → Fin S1x512.rank)
  bcast_S9x1_S9x512_0_1 : S9x1.BroadcastsInDim S9x512 (![0, 1] : Fin 2 → Fin S9x512.rank)
  bcast_S1x512_S9x512_0_1 : S1x512.BroadcastsInDim S9x512 (![0, 1] : Fin 2 → Fin S9x512.rank)
  bcast_S_S9x512 : S_.BroadcastsInDim S9x512 (![] : Fin 0 → Fin S9x512.rank)
  bcast_S9x512_S9x512x1_0_1 : S9x512.BroadcastsInDim S9x512x1 (![0, 1] : Fin 2 → Fin S9x512x1.rank)
  bcast_S9x8_S9x1x8_0_2 : S9x8.BroadcastsInDim S9x1x8 (![0, 2] : Fin 2 → Fin S9x1x8.rank)
  bcast_S9x1x8_S9x512x8_0_1_2 : S9x1x8.BroadcastsInDim S9x512x8 (![0, 1, 2] : Fin 3 → Fin S9x512x8.rank)
  bcast_S_S9x512x8 : S_.BroadcastsInDim S9x512x8 (![] : Fin 0 → Fin S9x512x8.rank)
  bcast_S9x1_S9x1x1_0_2 : S9x1.BroadcastsInDim S9x1x1 (![0, 2] : Fin 2 → Fin S9x1x1.rank)
  bcast_S9x1x1_S9x512x1_0_1_2 : S9x1x1.BroadcastsInDim S9x512x1 (![0, 1, 2] : Fin 3 → Fin S9x512x1.rank)
  slices_S9x512x1_S1x512x1_0_0_0 : S9x512x1.Slices ![0, 0, 0] S1x512x1
  shapeCasts_S1x512x1_S512x1 : S1x512x1.ShapeCasts S512x1
  slices_S9x512x1_S1x512x1_1_0_0 : S9x512x1.Slices ![1, 0, 0] S1x512x1
  slices_S9x512x1_S1x512x1_2_0_0 : S9x512x1.Slices ![2, 0, 0] S1x512x1
  slices_S9x512x1_S1x512x1_3_0_0 : S9x512x1.Slices ![3, 0, 0] S1x512x1
  slices_S9x512x1_S1x512x1_4_0_0 : S9x512x1.Slices ![4, 0, 0] S1x512x1
  slices_S9x512x1_S1x512x1_5_0_0 : S9x512x1.Slices ![5, 0, 0] S1x512x1
  slices_S9x512x1_S1x512x1_6_0_0 : S9x512x1.Slices ![6, 0, 0] S1x512x1
  slices_S9x512x1_S1x512x1_7_0_0 : S9x512x1.Slices ![7, 0, 0] S1x512x1
  slices_S9x512x1_S1x512x1_8_0_0 : S9x512x1.Slices ![8, 0, 0] S1x512x1
  dot_S732160x1_S1x16_S732160x16_1_0_0_1_n_n_wf : DotDims.WF S732160x1 S1x16 S732160x16 [1] [0] [0] [1] [] []
  scatter_S732160_S5857280x1_S5857280_n_0_0_1_wf : ScatterDims.WF S732160 S5857280x1 S5857280 [] [0] [0] 1
  gather_S732160_S5857280x1_S5857280_n_0_n_n_0_1_1_wf : GatherDims.WF S732160 S5857280x1 S5857280 [] [0] [] [0] [] 1 ![1]
  gather_S732160x16_S5857280x1_S5857280x16_1_0_n_n_0_1_116_wf : GatherDims.WF S732160x16 S5857280x1 S5857280x16 [1] [0] [] [0] [] 1 ![1, 16]
  scatter_S732160x16_S5857280x1_S5857280x16_1_0_0_1_wf : ScatterDims.WF S732160x16 S5857280x1 S5857280x16 [1] [0] [0] 1
  dot_S732160x16_S16x16_S732160x16_1_0_0_1_n_n_wf : DotDims.WF S732160x16 S16x16 S732160x16 [1] [0] [0] [1] [] []
  gather_S732160x16_S9x512x1_S9x512x16_2_0_n_n_0_2_116_wf : GatherDims.WF S732160x16 S9x512x1 S9x512x16 [2] [0] [] [0] [] 2 ![1, 16]
  dot_S9x512x16_S9x16x8_S9x512x8_2_1_1_2_0_0_wf : DotDims.WF S9x512x16 S9x16x8 S9x512x8 [2] [1] [1] [2] [0] [0]
  dot_S9x512x8_S9x8x1_S9x512x1_2_1_1_2_0_0_wf : DotDims.WF S9x512x8 S9x8x1 S9x512x1 [2] [1] [1] [2] [0] [0]

variable [Facts₀]

def dot_S732160x1_S1x16_S732160x16_1_0_0_1_n_n : DotDims S732160x1 S1x16 S732160x16 where
  lhsContracting := [1]
  rhsContracting := [0]
  lhsNonContracting := [0]
  rhsNonContracting := [1]
  lhsBatch := []
  rhsBatch := []
  wf := dot_S732160x1_S1x16_S732160x16_1_0_0_1_n_n_wf
def scatter_S732160_S5857280x1_S5857280_n_0_0_1 : ScatterDims S732160 S5857280x1 S5857280 where
  updateWindowDims := []
  insertedWindowDims := [0]
  scatterDimsToOperandDims := [0]
  indexVectorDim := 1
  wf := scatter_S732160_S5857280x1_S5857280_n_0_0_1_wf
def gather_S732160_S5857280x1_S5857280_n_0_n_n_0_1_1 : GatherDims S732160 S5857280x1 S5857280 where
  offsetDims := []
  collapsedSliceDims := [0]
  operandBatchingDims := []
  startIndicesBatchingDims := []
  startIndexMap := [0]
  indexVectorDim := 1
  sliceSizes := ![1]
  wf := gather_S732160_S5857280x1_S5857280_n_0_n_n_0_1_1_wf
def gather_S732160x16_S5857280x1_S5857280x16_1_0_n_n_0_1_116 : GatherDims S732160x16 S5857280x1 S5857280x16 where
  offsetDims := [1]
  collapsedSliceDims := [0]
  operandBatchingDims := []
  startIndicesBatchingDims := []
  startIndexMap := [0]
  indexVectorDim := 1
  sliceSizes := ![1, 16]
  wf := gather_S732160x16_S5857280x1_S5857280x16_1_0_n_n_0_1_116_wf
def scatter_S732160x16_S5857280x1_S5857280x16_1_0_0_1 : ScatterDims S732160x16 S5857280x1 S5857280x16 where
  updateWindowDims := [1]
  insertedWindowDims := [0]
  scatterDimsToOperandDims := [0]
  indexVectorDim := 1
  wf := scatter_S732160x16_S5857280x1_S5857280x16_1_0_0_1_wf
def dot_S732160x16_S16x16_S732160x16_1_0_0_1_n_n : DotDims S732160x16 S16x16 S732160x16 where
  lhsContracting := [1]
  rhsContracting := [0]
  lhsNonContracting := [0]
  rhsNonContracting := [1]
  lhsBatch := []
  rhsBatch := []
  wf := dot_S732160x16_S16x16_S732160x16_1_0_0_1_n_n_wf
def gather_S732160x16_S9x512x1_S9x512x16_2_0_n_n_0_2_116 : GatherDims S732160x16 S9x512x1 S9x512x16 where
  offsetDims := [2]
  collapsedSliceDims := [0]
  operandBatchingDims := []
  startIndicesBatchingDims := []
  startIndexMap := [0]
  indexVectorDim := 2
  sliceSizes := ![1, 16]
  wf := gather_S732160x16_S9x512x1_S9x512x16_2_0_n_n_0_2_116_wf
def dot_S9x512x16_S9x16x8_S9x512x8_2_1_1_2_0_0 : DotDims S9x512x16 S9x16x8 S9x512x8 where
  lhsContracting := [2]
  rhsContracting := [1]
  lhsNonContracting := [1]
  rhsNonContracting := [2]
  lhsBatch := [0]
  rhsBatch := [0]
  wf := dot_S9x512x16_S9x16x8_S9x512x8_2_1_1_2_0_0_wf
def dot_S9x512x8_S9x8x1_S9x512x1_2_1_1_2_0_0 : DotDims S9x512x8 S9x8x1 S9x512x1 where
  lhsContracting := [2]
  rhsContracting := [1]
  lhsNonContracting := [1]
  rhsNonContracting := [2]
  lhsBatch := [0]
  rhsBatch := [0]
  wf := dot_S9x512x8_S9x8x1_S9x512x1_2_1_1_2_0_0_wf

class Facts : Prop extends Facts₀ where

variable [Facts]
-- ==== Proof.Spec.lean ====
/-
  THE MATHEMATICS BOTH PROGRAMS COMPUTE, stated once over the argument arrays, index by index, on the extended reals.

  A graph of 732160 nodes and 5857280 edges is given by an integer array of two rows: row 0 the edges' sources, row 1
  their targets. An edge whose target word, read signed, is not a node number adds to no node (an accumulating scatter
  drops it); a source word is first wrapped (a negative word has the node count added) and then clamped into the node
  range, which is what reading a row of an array at that word does.

  deg i      = (0 + the number of edges into i) + 1
  dinv i     = deg i ^ (-1/2), a nonnegative real
  one graph-convolution layer on features hh [node, channel] with bias b, in the two arrangements the programs use:
    layerK: relu (dinv i * ((0 + sum over edges e into i of dinv (src e) * hh (src e) j) + dinv i * hh i j) + b j)
    layerR: relu (((0 + sum over edges e into i of (dinv (src e) * dinv (tgt e)) * hh (src e) j) + (dinv i * dinv i) * hh i j) + b j)
  They are equal: dinv i is a nonnegative finite number, so the product with it distributes over sums of extended
  reals, and an edge into i has target row i.
  The network: features x * W1, a layer, features (that) * W2, a layer, then for head k and graph g the node
  g * 1430 + 1421 + k is read and a two-layer perceptron with the head's weights applied.
-/
import Idealize.ShloMosaic.PureOps.Ideal
import Idealize.ShloMosaic.Lib.ValueIdx
import Mathlib.Data.EReal.Operations
import Mathlib.Algebra.BigOperators.Group.Finset.Basic

noncomputable section

open scoped BigOperators

namespace Gcn

open Idealize.ShloMosaic Idealize.ShloMosaic.ValueIdx

/-! ## The arrays' types, over literal shapes -/

abbrev EdgeArr : Type := (⟨2, ![2, 5857280]⟩ : Shape).Idx → BitVec 32
abbrev ArrN1 : Type := (⟨2, ![732160, 1]⟩ : Shape).Idx → EReal
abbrev ArrN16 : Type := (⟨2, ![732160, 16]⟩ : Shape).Idx → EReal
abbrev Arr1x16 : Type := (⟨2, ![1, 16]⟩ : Shape).Idx → EReal
abbrev Arr16 : Type := (⟨1, ![16]⟩ : Shape).Idx → EReal
abbrev Arr16x16 : Type := (⟨2, ![16, 16]⟩ : Shape).Idx → EReal
abbrev Arr9x16x8 : Type := (⟨3, ![9, 16, 8]⟩ : Shape).Idx → EReal
abbrev Arr9x8 : Type := (⟨2, ![9, 8]⟩ : Shape).Idx → EReal
abbrev Arr9x8x1 : Type := (⟨3, ![9, 8, 1]⟩ : Shape).Idx → EReal
abbrev Arr9x1 : Type := (⟨2, ![9, 1]⟩ : Shape).Idx → EReal
abbrev Arr512x1 : Type := (⟨2, ![512, 1]⟩ : Shape).Idx → EReal

/-! ## Edges -/

/-- The source word of edge e. -/
def srcW (ei : EdgeArr) (e : Fin 5857280) : BitVec 32 := ei (ix2 (0 : Fin 2) e)
/-- The target word of edge e. -/
def dstW (ei : EdgeArr) (e : Fin 5857280) : BitVec 32 := ei (ix2 (1 : Fin 2) e)
/-- A negative word has the node count added. -/
def wrapW (v : BitVec 32) : BitVec 32 := Scalar.select (IntOp.cmpi .slt v 0#32) (IntOp.addi v 732160#32) v
/-- The row read at word v: wrapped, read signed, clamped into the node range. -/
def rowOf (v : BitVec 32) : Fin 732160 := ⟨min (wrapW v).toInt.toNat (732160 - 1), by omega⟩
/-- The edges into node i: those whose target word, read signed, is i. -/
def inE (ei : EdgeArr) (i : Fin 732160) : Finset (Fin 5857280) :=
  Finset.univ.filter fun e => (dstW ei e).toInt = (i.val : Int)

/-! ## Degrees -/

/-- The float word of 1.0 denotes 1. -/
theorem ofBits_one : Ideal.ofBits .f32 0x3F800000#32 = 1 := by
  simp [Ideal.ofBits, Ideal.ieee, -EReal.coe_mul]; norm_num

def deg (ei : EdgeArr) (i : Fin 732160) : EReal := ((0 : EReal) + ∑ _e ∈ inE ei i, (1 : EReal)) + 1
def dinv (ei : EdgeArr) (i : Fin 732160) : EReal := Ideal.rsqrt (deg ei i)

/-! ## One layer, in the two arrangements -/

def layerK (ei : EdgeArr) (hh : ArrN16) (b : Arr16) : ArrN16 := fun i =>
  max (dinv ei (i 0) * (((0 : EReal) + ∑ e ∈ inE ei (i 0), dinv ei (rowOf (srcW ei e)) * hh (ix2 (rowOf (srcW ei e)) (i 1)))
      + dinv ei (i 0) * hh i) + b (ix1 (i 1))) 0

def layerR (ei : EdgeArr) (hh : ArrN16) (b : Arr16) : ArrN16 := fun i =>
  max ((((0 : EReal) + ∑ e ∈ inE ei (i 0),
          (dinv ei (rowOf (srcW ei e)) * dinv ei (rowOf (dstW ei e))) * hh (ix2 (rowOf (srcW ei e)) (i 1)))
      + (dinv ei (i 0) * dinv ei (i 0)) * hh i) + b (ix1 (i 1))) 0

/-! ## The features going into each layer -/

def feat1 (x : ArrN1) (w : Arr1x16) : ArrN16 := fun i => x (ix2 (i 0) (0 : Fin 1)) * w (ix2 (0 : Fin 1) (i 1))
def feat2 (h : ArrN16) (w : Arr16x16) : ArrN16 := fun i => ∑ k : Fin 16, h (ix2 (i 0) k) * w (ix2 k (i 1))

/-! ## The heads -/

/-- The node head k reads in graph g. -/
def node (k : Fin 9) (g : Fin 512) : Fin 732160 := ⟨g.val * 1430 + 1421 + k.val, by omega⟩

/-- Head k's output for graph g from the second layer's output h2. -/
def headOut (h2 : ArrN16) (fw1 : Arr9x16x8) (fb1 : Arr9x8) (fw2 : Arr9x8x1) (fb2 : Arr9x1) (k : Fin 9) : Arr512x1 := fun i =>
  (∑ hd : Fin 8, max ((∑ f : Fin 16, h2 (ix2 (node k (i 0)) f) * fw1 (ix3 k f hd)) + fb1 (ix2 k hd)) 0 * fw2 (ix3 k hd (0 : Fin 1)))
    + fb2 (ix2 k (0 : Fin 1))

/-- The kernel's arrangement of the whole network. -/
def netK (x : ArrN1) (ei : EdgeArr) (w1 : Arr1x16) (b1 : Arr16) (w2 : Arr16x16) (b2 : Arr16) (fw1 : Arr9x16x8) (fb1 : Arr9x8)
    (fw2 : Arr9x8x1) (fb2 : Arr9x1) (k : Fin 9) : Arr512x1 :=
  headOut (layerK ei (feat2 (layerK ei (feat1 x w1) b1) w2) b2) fw1 fb1 fw2 fb2 k

/-- The reference's arrangement of the whole network. -/
def netR (x : ArrN1) (ei : EdgeArr) (w1 : Arr1x16) (b1 : Arr16) (w2 : Arr16x16) (b2 : Arr16) (fw1 : Arr9x16x8) (fb1 : Arr9x8)
    (fw2 : Arr9x8x1) (fb2 : Arr9x1) (k : Fin 9) : Arr512x1 :=
  headOut (layerR ei (feat2 (layerR ei (feat1 x w1) b1) w2) b2) fw1 fb1 fw2 fb2 k

/-! ## What each of the kernel's four launches leaves in its output array, as a function of the arrays it reads -/

abbrev Arr9x512x16 : Type := (⟨3, ![9, 512, 16]⟩ : Shape).Idx → EReal
abbrev Arr9x512x1 : Type := (⟨3, ![9, 512, 1]⟩ : Shape).Idx → EReal
abbrev Arr9x1x8 : Type := (⟨3, ![9, 1, 8]⟩ : Shape).Idx → EReal
abbrev Arr9x1x1 : Type := (⟨3, ![9, 1, 1]⟩ : Shape).Idx → EReal

/-- Launch 0: the scaled first features, d * (x * w). -/
def G0 (x : ArrN1) (w : Arr1x16) (d : ArrN1) : ArrN16 := fun i =>
  d (ix2 (i 0) (0 : Fin 1)) * (x (ix2 (i 0) (0 : Fin 1)) * w (ix2 (0 : Fin 1) (i 1)))
/-- Launch 1: relu (d * (agg + sh) + b). -/
def G1 (agg sh : ArrN16) (d : ArrN1) (b : Arr1x16) : ArrN16 := fun i =>
  max (d (ix2 (i 0) (0 : Fin 1)) * (agg i + sh i) + b (ix2 (0 : Fin 1) (i 1))) 0
/-- Launch 2: the scaled second features, d * (h @ w). -/
def G2 (h : ArrN16) (w : Arr16x16) (d : ArrN1) : ArrN16 := fun i =>
  d (ix2 (i 0) (0 : Fin 1)) * ∑ k : Fin 16, h (ix2 (i 0) k) * w (ix2 k (i 1))
/-- Launch 3: per head, relu (d * (agg + sh) + b) through the head's two-layer perceptron. -/
def G3 (agg sh : Arr9x512x16) (d : Arr9x512x1) (b : Arr1x16) (fw1 : Arr9x16x8) (fb1 : Arr9x1x8) (fw2 : Arr9x8x1)
    (fb2 : Arr9x1x1) : Arr9x512x1 := fun i =>
  (∑ hd : Fin 8, max ((∑ f : Fin 16,
        max (d (ix3 (i 0) (i 1) (0 : Fin 1)) * (agg (ix3 (i 0) (i 1) f) + sh (ix3 (i 0) (i 1) f)) + b (ix2 (0 : Fin 1) f)) 0
          * fw1 (ix3 (i 0) f hd)) + fb1 (ix3 (i 0) (0 : Fin 1) hd)) 0 * fw2 (ix3 (i 0) hd (0 : Fin 1)))
    + fb2 (ix3 (i 0) (0 : Fin 1) (0 : Fin 1))

/-! ## The kernel's stages composed: what its last launch leaves, as a function of the arguments -/

/-- dinv as a column [node, 1]. -/
def D2 (ei : EdgeArr) : ArrN1 := fun i => dinv ei (i 0)
/-- The plain sum over the edges into a node of a feature array's rows at the edges' source rows. -/
def AGG (ei : EdgeArr) (sh : ArrN16) : ArrN16 := fun i =>
  (0 : EReal) + ∑ e ∈ inE ei (i 0), sh (ix2 (rowOf (srcW ei e)) (i 1))
/-- A bias as a row [1, 16]. -/
def row16 (b : Arr16) : Arr1x16 := fun i => b (ix1 (i 1))
/-- The rows the heads read, [head, graph, channel]. -/
def headRows (a : ArrN16) : Arr9x512x16 := fun i => a (ix2 (node (i 0) (i 1)) (i 2))
def headRows1 (a : ArrN1) : Arr9x512x1 := fun i => a (ix2 (node (i 0) (i 1)) (0 : Fin 1))
/-- The heads' biases with a unit axis inserted. -/
def mid8 (fb1 : Arr9x8) : Arr9x1x8 := fun i => fb1 (ix2 (i 0) (i 2))
def mid1 (fb2 : Arr9x1) : Arr9x1x1 := fun i => fb2 (ix2 (i 0) (0 : Fin 1))

def kSH1 (x : ArrN1) (ei : EdgeArr) (w1 : Arr1x16) : ArrN16 := G0 x w1 (D2 ei)
def kH1 (x : ArrN1) (ei : EdgeArr) (w1 : Arr1x16) (b1 : Arr16) : ArrN16 :=
  G1 (AGG ei (kSH1 x ei w1)) (kSH1 x ei w1) (D2 ei) (row16 b1)
def kSH2 (x : ArrN1) (ei : EdgeArr) (w1 : Arr1x16) (b1 : Arr16) (w2 : Arr16x16) : ArrN16 := G2 (kH1 x ei w1 b1) w2 (D2 ei)
def kOUT (x : ArrN1) (ei : EdgeArr) (w1 : Arr1x16) (b1 : Arr16) (w2 : Arr16x16) (b2 : Arr16) (fw1 : Arr9x16x8) (fb1 : Arr9x8)
    (fw2 : Arr9x8x1) (fb2 : Arr9x1) : Arr9x512x1 :=
  G3 (headRows (AGG ei (kSH2 x ei w1 b1 w2))) (headRows (kSH2 x ei w1 b1 w2)) (headRows1 (D2 ei)) (row16 b2) fw1 (mid8 fb1) fw2 (mid1 fb2)
/-- Head k's slice of the last launch's output, as [graph, 1]. -/
def kernelOut (x : ArrN1) (ei : EdgeArr) (w1 : Arr1x16) (b1 : Arr16) (w2 : Arr16x16) (b2 : Arr16) (fw1 : Arr9x16x8) (fb1 : Arr9x8)
    (fw2 : Arr9x8x1) (fb2 : Arr9x1) (k : Fin 9) : Arr512x1 := fun i =>
  kOUT x ei w1 b1 w2 b2 fw1 fb1 fw2 fb2 (ix3 k (i 0) (0 : Fin 1))

end Gcn

end
-- ==== Proof.Reg0.lean ====
/-
  LAUNCH 0 (the scaled first features). Each of the 128 grid points stages rows 5720 t … 5720 t + 5719 of x and of the dinv column and the one weight row, and writes back the block d * (x * w) of those rows; the blocks tile the output array, so it ends holding `Gcn.G0` of the three arrays as the launch finds them.
-/
import proofs.«430161_j29643864277061_3_alg».proof.Proof.Gen.KernelIdeal.Frame
import proofs.«430161_j29643864277061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the launch is entered: any
variable (V : (c : Dev nD) → (b : Ref sig .tc) → Buf (Elt Ideal) ((c : Thread nD τ).loc b))

/-! ## The body's arithmetic at an entry of the block -/

/-- The body's loads and its store sit at offset zero on both axes. -/
private theorem zero_offsets : (![0, 0] : Fin 2 → Nat) = fun _ => 0 := funext fun a => by fin_cases a <;> rfl

/-- A column [a, 1] broadcast to [a, b] reads, at (p, q), the column's entry of row p. -/
private theorem broadcast_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Entry (p, q) of the block the body stores: the dinv entry of row p times (the x entry of row p times the weight of channel q). -/
private theorem scaled_entry (x0 : Vec Ideal S5720x1 .f32) (x1 : Vec Ideal S1x16 .f32) (x2 : Vec Ideal S5720x1 .f32)
    (p : Fin 5720) (q : Fin 16) :
    k0_pay1 x0 x1 x2 (ix2 p q) = x2 (ix2 p (0 : Fin 1)) * (x0 (ix2 p (0 : Fin 1)) * x1 (ix2 (0 : Fin 1) q)) := by
  unfold k0_pay1
  simp only [shapeCast_self]
  rw [mulf_apply, mulf_apply, broadcast_column_apply, broadcast_column_apply, broadcastTo_1b_ab_apply]

/-! ## Where the windows' blocks sit -/

/-- The printed index maps, decided over the 128 grid points: the two per-row windows and the output window sit at row block t,
    column block 0; the weight window is the whole one-row array at every point. -/
private theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, q) of the block a grid point stores is `Gcn.G0` at any array index (r, q) whose row r the three staged blocks' row p is:
    stated over the blocks and arrays as plain functions, each block's entries given as entries of its array. -/
private theorem scaled_entry_eq (x0 : Vec Ideal S5720x1 .f32) (x1 : Vec Ideal S1x16 .f32) (x2 : Vec Ideal S5720x1 .f32)
    (X : Gcn.ArrN1) (W : Gcn.Arr1x16) (D : Gcn.ArrN1) (p : Fin 5720) (q : Fin 16) (i : (⟨2, ![732160, 16]⟩ : Shape).Idx)
    (hq : i 1 = q)
    (h0 : x0 (ix2 p (0 : Fin 1)) = X (ix2 (i 0) (0 : Fin 1))) (h1 : x1 (ix2 (0 : Fin 1) q) = W (ix2 (0 : Fin 1) q))
    (h2 : x2 (ix2 p (0 : Fin 1)) = D (ix2 (i 0) (0 : Fin 1))) :
    k0_pay1 x0 x1 x2 (ix2 p q) = Gcn.G0 X W D i := by
  rw [scaled_entry, h0, h1, h2]
  unfold Gcn.G0
  rw [hq]

/-- WHAT POINT t WRITES BACK is block t of `Gcn.G0` of the three arrays as the launch finds them. -/
theorem written_block0 (c : Dev nD) (t : Fin cfg0.N) :
    (dat0 (F := Ideal) V c).flushed 3 t
      = ((cfg0.win 3).blk t).view.read (Elt Ideal) (Gcn.G0 (V c main_arg0) (V c main_arg3) (V c main_v11)) := by
  show (cfg0.win 3).cut (grid0.coords t) ((dat0 V c).after 3 t) = _
  rw [after0_3]
  unfold out0_3
  rw [View.canon_unit_zero zero_offsets]
  simp only [View.ld_unit_zero (S := S5720x1) zero_offsets, View.ld_unit_zero (S := S1x16) zero_offsets]
  obtain ⟨e00, e01, e10, e11, e20, e21, e30, e31⟩ := block_indices t
  funext j
  obtain ⟨p, q, rfl⟩ : ∃ (p : Fin 5720) (q : Fin 16), j = ix2 p q := ⟨j 0, j 1, eq_ix2 j⟩
  refine scaled_entry_eq (iblk0 V c 0 t) (iblk0 V c 1 t) (iblk0 V c 2 t) (V c main_arg0) (V c main_arg3) (V c main_v11) p q
    (((cfg0.win 3).blk t).view.emb (ix2 p q)) ?_ ?_ ?_ ?_
  · apply Fin.ext
    show win0_3.index t (1 : Fin 2) * 16 + 1 * q.val = q.val
    omega
  · show V c main_arg0 (((cfg0.win 0).blk t).view.emb (ix2 p (0 : Fin 1))) = V c main_arg0 _
    refine congrArg (V c main_arg0) (funext fun a => Fin.ext ?_)
    match a with
    | ⟨0, _⟩ => show win0_0.index t (0 : Fin 2) * 5720 + 1 * p.val = win0_3.index t (0 : Fin 2) * 5720 + 1 * p.val; omega
    | ⟨1, _⟩ => show win0_0.index t (1 : Fin 2) * 1 + 1 * 0 = 0; omega
  · show V c main_arg3 (((cfg0.win 1).blk t).view.emb (ix2 (0 : Fin 1) q)) = V c main_arg3 _
    refine congrArg (V c main_arg3) (funext fun a => Fin.ext ?_)
    match a with
    | ⟨0, _⟩ => show win0_1.index t (0 : Fin 2) * 1 + 1 * 0 = 0; omega
    | ⟨1, _⟩ => show win0_1.index t (1 : Fin 2) * 16 + 1 * q.val = q.val; omega
  · show V c main_v11 (((cfg0.win 2).blk t).view.emb (ix2 p (0 : Fin 1))) = V c main_v11 _
    refine congrArg (V c main_v11) (funext fun a => Fin.ext ?_)
    match a with
    | ⟨0, _⟩ => show win0_2.index t (0 : Fin 2) * 5720 + 1 * p.val = win0_3.index t (0 : Fin 2) * 5720 + 1 * p.val; omega
    | ⟨1, _⟩ => show win0_2.index t (1 : Fin 2) * 1 + 1 * 0 = 0; omega

/-! ## The blocks tile the array -/

/-- An index of the array is in point t's block iff each coordinate is in the block's range on its axis. -/
private theorem mem_block (t : Fin cfg0.N) (i : S732160x16.Idx) :
    i ∈ ((cfg0.win 3).blk t).view.set
      ↔ ∀ a : Fin 2, win0_3.index t a * S5720x16.size a ≤ (i a).val ∧ (i a).val < win0_3.index t a * S5720x16.size a + S5720x16.size a := by
  show i ∈ ((View.whole main_v12).slice (win0_3.rect t)).set ↔ _
  rw [View.set_slice_whole, Rect.mem_set_unit]
  exact Iff.rfl

/-- Every row r lies in the block of the point r / 5720, and every point writes its block back. -/
private theorem covered (i : S732160x16.Idx) :
    ∃ t : Fin cfg0.N, (cfg0.win 3).flush t = true ∧ i ∈ ((cfg0.win 3).blk t).view.set := by
  have hi0 : (i 0).val < 732160 := (i 0).isLt
  have hi1 : (i 1).val < 16 := (i 1).isLt
  have hN : grid0.N = 128 := N_0
  obtain ⟨t, ht⟩ : ∃ t : Fin cfg0.N, t.val = (i 0).val / 5720 :=
    ⟨⟨(i 0).val / 5720, by show (i 0).val / 5720 < grid0.N; omega⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 5720 ≤ (i 0).val ∧ (i 0).val < win0_3.index t (0 : Fin 2) * 5720 + 5720
    omega
  | ⟨1, _⟩ =>
    show win0_3.index t (1 : Fin 2) * 16 ≤ (i 1).val ∧ (i 1).val < win0_3.index t (1 : Fin 2) * 16 + 16
    omega

/-- THE OUTPUT ARRAY after the launch: every point wrote its block of `Gcn.G0`, and the blocks cover the array. -/
theorem reg0_final (c : Dev nD) :
    (dat0 (F := Ideal) V c).arrAt 3 cfg0.N = Gcn.G0 (V c main_arg0) (V c main_arg3) (V c main_v11) :=
  (dat0 (F := Ideal) V c).arrAt_eq_of_cover 3 (Gcn.G0 (V c main_arg0) (V c main_arg3) (V c main_v11))
    (fun t _ => written_block0 V c t) covered

end Cert.KernelIdeal.RegVal

end
-- ==== Proof.Reg1.lean ====
/-
  LAUNCH 1 (the first layer's combine). Each of the 128 grid points stages rows 5720 t … 5720 t + 5719 of the aggregated and the scaled features and of the dinv column and the one bias row, and writes back relu (d * (agg + sh) + b) of those rows; the blocks tile the output array, so it ends holding `Gcn.G1` of the four arrays as the launch finds them.
-/
import proofs.«430161_j29643864277061_3_alg».proof.Proof.Gen.KernelIdeal.Frame
import proofs.«430161_j29643864277061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offsets of a whole-buffer access, as a constant function. -/
theorem reg1_hz : (![0, 0] : Fin 2 → Nat) = fun _ => 0 := funext fun a => by fin_cases a <;> rfl

/-- A column [5720, 1] broadcast along the channels reads, at row p and channel q, the column's row p. -/
theorem reg1_bcast_col (d : Vec Ideal S5720x1 .f32) (p : Fin 5720) (q : Fin 16) :
    broadcastTo S5720x16 d broadcasts_S5720x1_S5720x16 (ix2 p q) = d (ix2 p (0 : Fin 1)) := by
  refine broadcastTo_apply d _ (ix2 p q) (ix2 p (0 : Fin 1)) fun a => ?_
  match a with
  | ⟨0, _⟩ => rfl
  | ⟨1, _⟩ => rfl

/-- A row [1, 16] broadcast along the rows reads, at row p and channel q, the row's channel q. -/
theorem reg1_bcast_row (b : Vec Ideal S1x16 .f32) (p : Fin 5720) (q : Fin 16) :
    broadcastTo S5720x16 b broadcasts_S1x16_S5720x16 (ix2 p q) = b (ix2 (0 : Fin 1) q) := by
  refine broadcastTo_apply b _ (ix2 p q) (ix2 (0 : Fin 1) q) fun a => ?_
  match a with
  | ⟨0, _⟩ => rfl
  | ⟨1, _⟩ => rfl

/-- THE BODY AT ONE ELEMENT: row p, channel q of what a point stores is
    relu (d p * (agg p q + sh p q) + b q) of the staged blocks. -/
theorem reg1_pay_apply (d : Vec Ideal S5720x1 .f32) (agg sh : Vec Ideal S5720x16 .f32) (b : Vec Ideal S1x16 .f32)
    (p : Fin 5720) (q : Fin 16) :
    k1_pay1 d agg sh b (ix2 p q)
      = max (d (ix2 p (0 : Fin 1)) * (agg (ix2 p q) + sh (ix2 p q)) + b (ix2 (0 : Fin 1) q)) 0 := by
  unfold k1_pay1
  simp only [shapeCast_self]
  rw [maximumf_apply, addf_apply, mulf_apply, addf_apply, broadcast_apply, reg1_bcast_col, reg1_bcast_row]
  show max _ (Ideal.ofBits .f32 0x00000000#32) = _
  rw [Ideal.ofBits_zero_f32]

/-- The printed index maps over the 128 grid points: every row-blocked window sits at block t of the rows and block 0
    of the channels, and the bias row's window at block (0, 0). -/
theorem reg1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The same at any index y of the block, in y's own coordinates. -/
theorem reg1_pay_at (d : Vec Ideal S5720x1 .f32) (agg sh : Vec Ideal S5720x16 .f32) (b : Vec Ideal S1x16 .f32)
    (y : S5720x16.Idx) :
    k1_pay1 d agg sh b y = max (d (ix2 (y 0) (0 : Fin 1)) * (agg y + sh y) + b (ix2 (0 : Fin 1) (y 1))) 0 := by
  obtain ⟨p, q, rfl⟩ : ∃ (p : Fin 5720) (q : Fin 16), y = ix2 p q := ⟨y 0, y 1, eq_ix2 y⟩
  exact reg1_pay_apply d agg sh b p q

/-- ONE ELEMENT OF ONE BLOCK: if the four staged blocks hold, at block index y and at its row and its channel, what the
    four arrays hold at array index i and at i's row and channel, then what the body stores at y is `Gcn.G1` of the
    arrays at i. -/
theorem reg1_point (A0 A1 : Gcn.ArrN16) (A2 : Gcn.ArrN1) (A3 : Gcn.Arr1x16)
    (x0 x1 : Vec Ideal S5720x16 .f32) (x2 : Vec Ideal S5720x1 .f32) (x3 : Vec Ideal S1x16 .f32)
    (y : S5720x16.Idx) (i : S732160x16.Idx)
    (h0 : x0 y = A0 i) (h1 : x1 y = A1 i)
    (h2 : x2 (ix2 (y 0) (0 : Fin 1)) = A2 (ix2 (i 0) (0 : Fin 1)))
    (h3 : x3 (ix2 (0 : Fin 1) (y 1)) = A3 (ix2 (0 : Fin 1) (i 1))) :
    k1_pay1 x2 x0 x1 x3 y = Gcn.G1 A0 A1 A2 A3 i := by
  rw [reg1_pay_at, h0, h1, h2, h3]
  rfl

/-- An index of the output array lies in point t's block exactly when, on each axis, its coordinate lies in the block's
    range: block index × block size up to one block size further. -/
theorem reg1_mem_blk (t : Fin cfg1.N) (i : S732160x16.Idx) :
    i ∈ ((cfg1.win 4).blk t).view.set
      ↔ ∀ a : Fin 2, win1_4.index t a * S5720x16.size a ≤ (i a).val
          ∧ (i a).val < win1_4.index t a * S5720x16.size a + S5720x16.size a := by
  show i ∈ ((View.whole main_v24).slice (win1_4.rect t)).set ↔ _
  rw [View.set_slice_whole, Rect.mem_set_unit]
  exact Iff.rfl

/-- THE BLOCKS TILE THE ARRAY: row r lies in the block of point r / 5720 (732160 = 128 · 5720), and every point writes
    its block back. -/
theorem reg1_cover (i : S732160x16.Idx) :
    ∃ t : Fin cfg1.N, (cfg1.win 4).flush t = true ∧ i ∈ ((cfg1.win 4).blk t).view.set := by
  have hi0 : (i 0).val < 732160 := (i 0).isLt
  have hi1 : (i 1).val < 16 := (i 1).isLt
  have hN : grid1.N = 128 := N_1
  obtain ⟨t, ht⟩ : ∃ t : Fin cfg1.N, t.val = (i 0).val / 5720 :=
    ⟨⟨(i 0).val / 5720, by show (i 0).val / 5720 < grid1.N; rw [hN]; omega⟩, rfl⟩
  obtain ⟨-, -, -, -, -, -, -, -, e40, e41⟩ := reg1_idx_facts t
  refine ⟨t, flush1_4 t, ?_⟩
  rw [reg1_mem_blk]
  intro a
  match a with
  | ⟨0, _⟩ =>
    show win1_4.index t (0 : Fin 2) * 5720 ≤ (i 0).val ∧ (i 0).val < win1_4.index t (0 : Fin 2) * 5720 + 5720
    omega
  | ⟨1, _⟩ =>
    show win1_4.index t (1 : Fin 2) * 16 ≤ (i 1).val ∧ (i 1).val < win1_4.index t (1 : Fin 2) * 16 + 16
    omega

-- the TensorCore's buffer contents when the launch is entered: any
variable (V : (c : Dev nD) → (b : Ref sig .tc) → Buf (Elt Ideal) ((c : Thread nD τ).loc b))

/-- WHAT POINT t WRITES BACK is block t of `Gcn.G1` of the four arrays as the launch finds them: each staged block is
    its array read through the same rows (block index t on the rows, 0 on the channels; the bias row's block is the
    whole row), so element (p, q) of the stored block is `Gcn.G1` at row 5720 t + p, channel q. -/
theorem reg1_flushed_eq (c : Dev nD) (t : Fin cfg1.N) :
    (dat1 (F := Ideal) V c).flushed 4 t
      = ((cfg1.win 4).blk t).view.read (Elt Ideal) (Gcn.G1 (V c main_v22) (V c main_v12) (V c main_v11) (V c main_v23)) := by
  show (cfg1.win 4).cut (grid1.coords t) ((dat1 (F := Ideal) V c).after 4 t) = _
  rw [after1_4]
  unfold out1_4
  rw [View.canon_unit_zero reg1_hz]
  simp only [View.ld_unit_zero (S := S5720x16) reg1_hz, View.ld_unit_zero (S := S5720x1) reg1_hz, View.ld_unit_zero (S := S1x16) reg1_hz]
  obtain ⟨e00, e01, e10, e11, e20, e21, e30, e31, e40, e41⟩ := reg1_idx_facts t
  funext j
  refine reg1_point (V c main_v22) (V c main_v12) (V c main_v11) (V c main_v23)
    (iblk1 V c 0 t) (iblk1 V c 1 t) (iblk1 V c 2 t) (iblk1 V c 3 t)
    ((cfg1.win 4).xinj (grid1.coords t) j) (((cfg1.win 4).blk t).view.emb j) ?_ ?_ ?_ ?_
  · -- the aggregated features' block
    show V c main_v22 (((cfg1.win 0).blk t).view.emb ((cfg1.win 4).xinj (grid1.coords t) j)) = V c main_v22 (((cfg1.win 4).blk t).view.emb j)
    refine congrArg _ (funext fun a => Fin.ext ?_)
    match a with
    | ⟨0, _⟩ => show win1_0.index t (0 : Fin 2) * 5720 + 1 * (j 0).val = win1_4.index t (0 : Fin 2) * 5720 + 1 * (j 0).val; omega
    | ⟨1, _⟩ => show win1_0.index t (1 : Fin 2) * 16 + 1 * (j 1).val = win1_4.index t (1 : Fin 2) * 16 + 1 * (j 1).val; omega
  · -- the scaled features' block
    show V c main_v12 (((cfg1.win 1).blk t).view.emb ((cfg1.win 4).xinj (grid1.coords t) j)) = V c main_v12 (((cfg1.win 4).blk t).view.emb j)
    refine congrArg _ (funext fun a => Fin.ext ?_)
    match a with
    | ⟨0, _⟩ => show win1_1.index t (0 : Fin 2) * 5720 + 1 * (j 0).val = win1_4.index t (0 : Fin 2) * 5720 + 1 * (j 0).val; omega
    | ⟨1, _⟩ => show win1_1.index t (1 : Fin 2) * 16 + 1 * (j 1).val = win1_4.index t (1 : Fin 2) * 16 + 1 * (j 1).val; omega
  · -- the dinv column's block, at the element's row
    show V c main_v11 (((cfg1.win 2).blk t).view.emb (ix2 (((cfg1.win 4).xinj (grid1.coords t) j) 0) (0 : Fin 1)))
      = V c main_v11 (ix2 ((((cfg1.win 4).blk t).view.emb j) 0) (0 : Fin 1))
    refine congrArg _ (funext fun a => Fin.ext ?_)
    match a with
    | ⟨0, _⟩ => show win1_2.index t (0 : Fin 2) * 5720 + 1 * (j 0).val = win1_4.index t (0 : Fin 2) * 5720 + 1 * (j 0).val; omega
    | ⟨1, _⟩ => show win1_2.index t (1 : Fin 2) * 1 + 1 * 0 = 0; omega
  · -- the bias row's block, at the element's channel
    show V c main_v23 (((cfg1.win 3).blk t).view.emb (ix2 (0 : Fin 1) (((cfg1.win 4).xinj (grid1.coords t) j) 1)))
      = V c main_v23 (ix2 (0 : Fin 1) ((((cfg1.win 4).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 16 + 1 * (j 1).val = win1_4.index t (1 : Fin 2) * 16 + 1 * (j 1).val; omega

/-- THE OUTPUT ARRAY AFTER ALL 128 POINTS is `Gcn.G1` of the aggregated features, the scaled features, the dinv column
    and the bias row as the launch finds them: every point writes back its block of that one function, and the blocks
    cover the array. -/
theorem reg1_final (c : Dev nD) :
    (dat1 (F := Ideal) V c).arrAt 4 cfg1.N = Gcn.G1 (V c main_v22) (V c main_v12) (V c main_v11) (V c main_v23) := by
  exact (dat1 (F := Ideal) V c).arrAt_eq_of_cover 4 (Gcn.G1 (V c main_v22) (V c main_v12) (V c main_v11) (V c main_v23))
    (fun t _ => reg1_flushed_eq V c t) reg1_cover

end Cert.KernelIdeal.RegVal

end
-- ==== Proof.Reg2.lean ====
/-
  LAUNCH 2 (the scaled second features). Each of the 128 grid points stages rows 5720 t … 5720 t + 5719 of the first layer's output and of the dinv column and the whole 16 x 16 weight, and writes back d * (h @ w) of those rows, the matrix product a sum over the 16 channels; the blocks tile the output array, so it ends holding `Gcn.G2` of the three arrays as the launch finds them.
-/
import proofs.«430161_j29643864277061_3_alg».proof.Proof.Gen.KernelIdeal.Frame
import proofs.«430161_j29643864277061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the launch is entered: any
variable (V : (c : Dev nD) → (b : Ref sig .tc) → Buf (Elt Ideal) ((c : Thread nD τ).loc b))

/-! ## The body's arithmetic at an entry of the block -/

/-- The body's loads and its store sit at offset zero on both axes. -/
private theorem zero_offsets2 : (![0, 0] : Fin 2 → Nat) = fun _ => 0 := funext fun a => by fin_cases a <;> rfl

/-- A column [a, 1] broadcast to [a, b] reads, at (p, q), the column's entry of row p. -/
private theorem broadcast_column_apply2 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The matrix product's left operand is read at the output's row -/
private theorem product_lhs_0 (i : S5720x16.Idx) (q : dot_S5720x16_S16x16_S5720x16_1_0_0_1_n_n.contr.Idx) :
    (dot_S5720x16_S16x16_S5720x16_1_0_0_1_n_n.lhsIdx i q 0).val = (i 0).val := by
  unfold DotDims.lhsIdx
  rw [dif_neg (show ¬(0 : Fin S5720x16.rank) ∈ dot_S5720x16_S16x16_S5720x16_1_0_0_1_n_n.lhsBatch by decide), dif_pos (show (0 : Fin S5720x16.rank) ∈ dot_S5720x16_S16x16_S5720x16_1_0_0_1_n_n.lhsNonContracting by decide)]
  rfl
/-- and at the summed channel; -/
private theorem product_lhs_1 (i : S5720x16.Idx) (q : dot_S5720x16_S16x16_S5720x16_1_0_0_1_n_n.contr.Idx) :
    (dot_S5720x16_S16x16_S5720x16_1_0_0_1_n_n.lhsIdx i q 1).val = (q ⟨0, by decide⟩).val :=
  dot_S5720x16_S16x16_S5720x16_1_0_0_1_n_n.lhsIdx_val_of_single rfl i q
/-- the right operand at the summed channel -/
private theorem product_rhs_0 (i : S5720x16.Idx) (q : dot_S5720x16_S16x16_S5720x16_1_0_0_1_n_n.contr.Idx) :
    (dot_S5720x16_S16x16_S5720x16_1_0_0_1_n_n.rhsIdx i q 0).val = (q ⟨0, by decide⟩).val :=
  dot_S5720x16_S16x16_S5720x16_1_0_0_1_n_n.rhsIdx_val_of_single rfl i q
/-- and at the output's column. -/
private theorem product_rhs_1 (i : S5720x16.Idx) (q : dot_S5720x16_S16x16_S5720x16_1_0_0_1_n_n.contr.Idx) :
    (dot_S5720x16_S16x16_S5720x16_1_0_0_1_n_n.rhsIdx i q 1).val = (i 1).val := by
  unfold DotDims.rhsIdx
  rw [dif_neg (show ¬(1 : Fin S16x16.rank) ∈ dot_S5720x16_S16x16_S5720x16_1_0_0_1_n_n.rhsBatch by decide), dif_pos (show (1 : Fin S16x16.rank) ∈ dot_S5720x16_S16x16_S5720x16_1_0_0_1_n_n.rhsNonContracting by decide)]
  rfl

/-- Entry (p, q) of the block the body stores: the dinv entry of row p times the sum over the 16 channels k of the feature (p, k) times
    the weight (k, q). The two roundings to the narrower float format change nothing on the extended reals, and the product
    accumulates into zero. -/
private theorem product_entry (x0 : Vec Ideal S5720x16 .f32) (x1 : Vec Ideal S16x16 .f32) (x2 : Vec Ideal S5720x1 .f32)
    (p : Fin 5720) (q : Fin 16) :
    k2_pay1 x0 x1 x2 (ix2 p q) = x2 (ix2 p (0 : Fin 1)) * ∑ k : Fin 16, x0 (ix2 p k) * x1 (ix2 k q) := by
  unfold k2_pay1
  simp only [shapeCast_self]
  rw [mulf_apply, broadcast_column_apply2]
  congr 1
  simp only [matmul]
  rw [Ideal.matmul_constant_zero_apply, ← Equiv.sum_comp (contrEquiv1 dot_S5720x16_S16x16_S5720x16_1_0_0_1_n_n 16 rfl rfl).symm]
  refine Finset.sum_congr rfl fun k _ => ?_
  have hk := contrEquiv1_symm_val dot_S5720x16_S16x16_S5720x16_1_0_0_1_n_n 16 rfl rfl k
  have el : dot_S5720x16_S16x16_S5720x16_1_0_0_1_n_n.lhsIdx (ix2 p q) ((contrEquiv1 dot_S5720x16_S16x16_S5720x16_1_0_0_1_n_n 16 rfl rfl).symm k) = ix2 p k := funext fun a => Fin.ext (by
    match a with
    | ⟨0, _⟩ => exact product_lhs_0 _ _
    | ⟨1, _⟩ => exact (product_lhs_1 _ _).trans hk)
  have er : dot_S5720x16_S16x16_S5720x16_1_0_0_1_n_n.rhsIdx (ix2 p q) ((contrEquiv1 dot_S5720x16_S16x16_S5720x16_1_0_0_1_n_n 16 rfl rfl).symm k) = ix2 k q := funext fun a => Fin.ext (by
    match a with
    | ⟨0, _⟩ => exact (product_rhs_0 _ _).trans hk
    | ⟨1, _⟩ => exact product_rhs_1 _ _)
  rw [el, er]
  rfl

/-! ## Where the windows' blocks sit -/

/-- The printed index maps, decided over the 128 grid points: the two per-row windows and the output window sit at row block t,
    column block 0; the weight window is the whole 16 x 16 array at every point. -/
private theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry (p, q) of the block a grid point stores is `Gcn.G2` at any array index (r, q) whose row r the staged blocks' row p is:
    stated over the blocks and arrays as plain functions, each block's entries given as entries of its array. -/
private theorem product_entry_eq (x0 : Vec Ideal S5720x16 .f32) (x1 : Vec Ideal S16x16 .f32) (x2 : Vec Ideal S5720x1 .f32)
    (H : Gcn.ArrN16) (W : Gcn.Arr16x16) (D : Gcn.ArrN1) (p : Fin 5720) (q : Fin 16) (i : (⟨2, ![732160, 16]⟩ : Shape).Idx)
    (hq : i 1 = q)
    (h0 : ∀ k : Fin 16, x0 (ix2 p k) = H (ix2 (i 0) k)) (h1 : ∀ k : Fin 16, x1 (ix2 k q) = W (ix2 k q))
    (h2 : x2 (ix2 p (0 : Fin 1)) = D (ix2 (i 0) (0 : Fin 1))) :
    k2_pay1 x0 x1 x2 (ix2 p q) = Gcn.G2 H W D i := by
  rw [product_entry, h2]
  unfold Gcn.G2
  rw [hq]
  exact congrArg (D (ix2 (i 0) (0 : Fin 1)) * ·) (Finset.sum_congr rfl fun k _ => by rw [h0 k, h1 k])

/-- WHAT POINT t WRITES BACK is block t of `Gcn.G2` of the three arrays as the launch finds them. -/
theorem written_block2 (c : Dev nD) (t : Fin cfg2.N) :
    (dat2 (F := Ideal) V c).flushed 3 t
      = ((cfg2.win 3).blk t).view.read (Elt Ideal) (Gcn.G2 (V c main_v24) (V c main_arg5) (V c main_v11)) := by
  show (cfg2.win 3).cut (grid2.coords t) ((dat2 V c).after 3 t) = _
  rw [after2_3]
  unfold out2_3
  rw [View.canon_unit_zero zero_offsets2]
  simp only [View.ld_unit_zero (S := S5720x16) zero_offsets2, View.ld_unit_zero (S := S16x16) zero_offsets2,
    View.ld_unit_zero (S := S5720x1) zero_offsets2]
  obtain ⟨e00, e01, e10, e11, e20, e21, e30, e31⟩ := block_indices2 t
  funext j
  obtain ⟨p, q, rfl⟩ : ∃ (p : Fin 5720) (q : Fin 16), j = ix2 p q := ⟨j 0, j 1, eq_ix2 j⟩
  refine product_entry_eq (iblk2 V c 0 t) (iblk2 V c 1 t) (iblk2 V c 2 t) (V c main_v24) (V c main_arg5) (V c main_v11) p q
    (((cfg2.win 3).blk t).view.emb (ix2 p q)) ?_ (fun k => ?_) (fun k => ?_) ?_
  · apply Fin.ext
    show win2_3.index t (1 : Fin 2) * 16 + 1 * q.val = q.val
    omega
  · show V c main_v24 (((cfg2.win 0).blk t).view.emb (ix2 p k)) = V c main_v24 _
    refine congrArg (V c main_v24) (funext fun a => Fin.ext ?_)
    match a with
    | ⟨0, _⟩ => show win2_0.index t (0 : Fin 2) * 5720 + 1 * p.val = win2_3.index t (0 : Fin 2) * 5720 + 1 * p.val; omega
    | ⟨1, _⟩ => show win2_0.index t (1 : Fin 2) * 16 + 1 * k.val = k.val; omega
  · show V c main_arg5 (((cfg2.win 1).blk t).view.emb (ix2 k q)) = V c main_arg5 _
    refine congrArg (V c main_arg5) (funext fun a => Fin.ext ?_)
    match a with
    | ⟨0, _⟩ => show win2_1.index t (0 : Fin 2) * 16 + 1 * k.val = k.val; omega
    | ⟨1, _⟩ => show win2_1.index t (1 : Fin 2) * 16 + 1 * q.val = q.val; omega
  · show V c main_v11 (((cfg2.win 2).blk t).view.emb (ix2 p (0 : Fin 1))) = V c main_v11 _
    refine congrArg (V c main_v11) (funext fun a => Fin.ext ?_)
    match a with
    | ⟨0, _⟩ => show win2_2.index t (0 : Fin 2) * 5720 + 1 * p.val = win2_3.index t (0 : Fin 2) * 5720 + 1 * p.val; omega
    | ⟨1, _⟩ => show win2_2.index t (1 : Fin 2) * 1 + 1 * 0 = 0; omega

/-! ## The blocks tile the array -/

/-- An index of the array is in point t's block iff each coordinate is in the block's range on its axis. -/
private theorem mem_block2 (t : Fin cfg2.N) (i : S732160x16.Idx) :
    i ∈ ((cfg2.win 3).blk t).view.set
      ↔ ∀ a : Fin 2, win2_3.index t a * S5720x16.size a ≤ (i a).val ∧ (i a).val < win2_3.index t a * S5720x16.size a + S5720x16.size a := by
  show i ∈ ((View.whole main_v25).slice (win2_3.rect t)).set ↔ _
  rw [View.set_slice_whole, Rect.mem_set_unit]
  exact Iff.rfl

/-- Every row r lies in the block of the point r / 5720, and every point writes its block back. -/
private theorem covered2 (i : S732160x16.Idx) :
    ∃ t : Fin cfg2.N, (cfg2.win 3).flush t = true ∧ i ∈ ((cfg2.win 3).blk t).view.set := by
  have hi0 : (i 0).val < 732160 := (i 0).isLt
  have hi1 : (i 1).val < 16 := (i 1).isLt
  have hN : grid2.N = 128 := N_2
  obtain ⟨t, ht⟩ : ∃ t : Fin cfg2.N, t.val = (i 0).val / 5720 :=
    ⟨⟨(i 0).val / 5720, by show (i 0).val / 5720 < grid2.N; omega⟩, rfl⟩
  obtain ⟨-, -, -, -, -, -, e30, e31⟩ := block_indices2 t
  refine ⟨t, flush2_3 t, ?_⟩
  rw [mem_block2]
  intro a
  match a with
  | ⟨0, _⟩ =>
    show win2_3.index t (0 : Fin 2) * 5720 ≤ (i 0).val ∧ (i 0).val < win2_3.index t (0 : Fin 2) * 5720 + 5720
    omega
  | ⟨1, _⟩ =>
    show win2_3.index t (1 : Fin 2) * 16 ≤ (i 1).val ∧ (i 1).val < win2_3.index t (1 : Fin 2) * 16 + 16
    omega

/-- THE OUTPUT ARRAY after the launch: every point wrote its block of `Gcn.G2`, and the blocks cover the array. -/
theorem reg2_final (c : Dev nD) :
    (dat2 (F := Ideal) V c).arrAt 3 cfg2.N = Gcn.G2 (V c main_v24) (V c main_arg5) (V c main_v11) :=
  (dat2 (F := Ideal) V c).arrAt_eq_of_cover 3 (Gcn.G2 (V c main_v24) (V c main_arg5) (V c main_v11))
    (fun t _ => written_block2 V c t) covered2

end Cert.KernelIdeal.RegVal

end
-- ==== Proof.Reg3.lean ====
/-
  LAUNCH 3 (the heads). Grid point k stages head k's 512 rows of the aggregated and the scaled second features and of dinv, the bias row, and head k's weights and biases, and writes back relu (d * (agg + sh) + b) pushed through the head's two matrix products (sums over 16 and over 8 channels) with a relu between; the nine blocks tile the output array, so it ends holding `Gcn.G3` of the eight arrays as the launch finds them.
-/
import proofs.«430161_j29643864277061_3_alg».proof.Proof.Gen.KernelIdeal.Frame
import proofs.«430161_j29643864277061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

open scoped BigOperators

/-! ## The two matrix products, read at an index

Each contracts ONE axis (the left operand's columns against the right operand's rows), so its contraction index is one
coordinate and the product at (p, q) is the plain sum over that coordinate of left (p, k) * right (k, q). -/

private theorem lhs_wide_0 (i : S512x8.Idx) (q : dot_S512x16_S16x8_S512x8_1_0_0_1_n_n.contr.Idx) :
    (dot_S512x16_S16x8_S512x8_1_0_0_1_n_n.lhsIdx i q 0).val = (i 0).val := by
  unfold DotDims.lhsIdx
  rw [dif_neg (show ¬(0 : Fin S512x16.rank) ∈ dot_S512x16_S16x8_S512x8_1_0_0_1_n_n.lhsBatch by decide), dif_pos (show (0 : Fin S512x16.rank) ∈ dot_S512x16_S16x8_S512x8_1_0_0_1_n_n.lhsNonContracting by decide)]
  rfl
private theorem lhs_wide_1 (i : S512x8.Idx) (q : dot_S512x16_S16x8_S512x8_1_0_0_1_n_n.contr.Idx) :
    (dot_S512x16_S16x8_S512x8_1_0_0_1_n_n.lhsIdx i q 1).val = (q ⟨0, by decide⟩).val :=
  dot_S512x16_S16x8_S512x8_1_0_0_1_n_n.lhsIdx_val_of_single rfl i q
private theorem rhs_wide_0 (i : S512x8.Idx) (q : dot_S512x16_S16x8_S512x8_1_0_0_1_n_n.contr.Idx) :
    (dot_S512x16_S16x8_S512x8_1_0_0_1_n_n.rhsIdx i q 0).val = (q ⟨0, by decide⟩).val :=
  dot_S512x16_S16x8_S512x8_1_0_0_1_n_n.rhsIdx_val_of_single rfl i q
private theorem rhs_wide_1 (i : S512x8.Idx) (q : dot_S512x16_S16x8_S512x8_1_0_0_1_n_n.contr.Idx) :
    (dot_S512x16_S16x8_S512x8_1_0_0_1_n_n.rhsIdx i q 1).val = (i 1).val := by
  unfold DotDims.rhsIdx
  rw [dif_neg (show ¬(1 : Fin S16x8.rank) ∈ dot_S512x16_S16x8_S512x8_1_0_0_1_n_n.rhsBatch by decide), dif_pos (show (1 : Fin S16x8.rank) ∈ dot_S512x16_S16x8_S512x8_1_0_0_1_n_n.rhsNonContracting by decide)]
  rfl

/-- The hidden layer's product [512,16] x [16,8] into zero, at (p, q): the sum over the 16 channels. -/
private theorem wide_apply (A : FVec Ideal S512x16 .bf16) (B : FVec Ideal S16x8 .bf16) (p : Fin 512) (q : Fin 8) :
    matmul dot_S512x16_S16x8_S512x8_1_0_0_1_n_n none A B (constant (F := Ideal) S512x8 .f32 0x00000000#32) (ix2 p q)
      = ∑ f : Fin 16, A (ix2 p f) * B (ix2 f q) := by
  simp only [matmul]
  rw [Ideal.matmul_constant_zero_apply, ← Equiv.sum_comp (ValueIdx.contrEquiv1 dot_S512x16_S16x8_S512x8_1_0_0_1_n_n 16 rfl rfl).symm]
  refine Finset.sum_congr rfl fun k _ => ?_
  have hk := ValueIdx.contrEquiv1_symm_val dot_S512x16_S16x8_S512x8_1_0_0_1_n_n 16 rfl rfl k
  have el : dot_S512x16_S16x8_S512x8_1_0_0_1_n_n.lhsIdx (ix2 p q) ((ValueIdx.contrEquiv1 dot_S512x16_S16x8_S512x8_1_0_0_1_n_n 16 rfl rfl).symm k) = ix2 p k := funext fun a => Fin.ext (by
    match a with
    | ⟨0, _⟩ => exact lhs_wide_0 _ _
    | ⟨1, _⟩ => exact (lhs_wide_1 _ _).trans hk)
  have er : dot_S512x16_S16x8_S512x8_1_0_0_1_n_n.rhsIdx (ix2 p q) ((ValueIdx.contrEquiv1 dot_S512x16_S16x8_S512x8_1_0_0_1_n_n 16 rfl rfl).symm k) = ix2 k q := funext fun a => Fin.ext (by
    match a with
    | ⟨0, _⟩ => exact (rhs_wide_0 _ _).trans hk
    | ⟨1, _⟩ => exact rhs_wide_1 _ _)
  rw [el, er]

private theorem lhs_out_0 (i : S512x1.Idx) (q : dot_S512x8_S8x1_S512x1_1_0_0_1_n_n.contr.Idx) :
    (dot_S512x8_S8x1_S512x1_1_0_0_1_n_n.lhsIdx i q 0).val = (i 0).val := by
  unfold DotDims.lhsIdx
  rw [dif_neg (show ¬(0 : Fin S512x8.rank) ∈ dot_S512x8_S8x1_S512x1_1_0_0_1_n_n.lhsBatch by decide), dif_pos (show (0 : Fin S512x8.rank) ∈ dot_S512x8_S8x1_S512x1_1_0_0_1_n_n.lhsNonContracting by decide)]
  rfl
private theorem lhs_out_1 (i : S512x1.Idx) (q : dot_S512x8_S8x1_S512x1_1_0_0_1_n_n.contr.Idx) :
    (dot_S512x8_S8x1_S512x1_1_0_0_1_n_n.lhsIdx i q 1).val = (q ⟨0, by decide⟩).val :=
  dot_S512x8_S8x1_S512x1_1_0_0_1_n_n.lhsIdx_val_of_single rfl i q
private theorem rhs_out_0 (i : S512x1.Idx) (q : dot_S512x8_S8x1_S512x1_1_0_0_1_n_n.contr.Idx) :
    (dot_S512x8_S8x1_S512x1_1_0_0_1_n_n.rhsIdx i q 0).val = (q ⟨0, by decide⟩).val :=
  dot_S512x8_S8x1_S512x1_1_0_0_1_n_n.rhsIdx_val_of_single rfl i q
private theorem rhs_out_1 (i : S512x1.Idx) (q : dot_S512x8_S8x1_S512x1_1_0_0_1_n_n.contr.Idx) :
    (dot_S512x8_S8x1_S512x1_1_0_0_1_n_n.rhsIdx i q 1).val = (i 1).val := by
  unfold DotDims.rhsIdx
  rw [dif_neg (show ¬(1 : Fin S8x1.rank) ∈ dot_S512x8_S8x1_S512x1_1_0_0_1_n_n.rhsBatch by decide), dif_pos (show (1 : Fin S8x1.rank) ∈ dot_S512x8_S8x1_S512x1_1_0_0_1_n_n.rhsNonContracting by decide)]
  rfl

/-- The output layer's product [512,8] x [8,1] into zero, at (p, q): the sum over the 8 hidden channels. -/
private theorem narrow_apply (A : FVec Ideal S512x8 .bf16) (B : FVec Ideal S8x1 .bf16) (p : Fin 512) (q : Fin 1) :
    matmul dot_S512x8_S8x1_S512x1_1_0_0_1_n_n none A B (constant (F := Ideal) S512x1 .f32 0x00000000#32) (ix2 p q)
      = ∑ hd : Fin 8, A (ix2 p hd) * B (ix2 hd q) := by
  simp only [matmul]
  rw [Ideal.matmul_constant_zero_apply, ← Equiv.sum_comp (ValueIdx.contrEquiv1 dot_S512x8_S8x1_S512x1_1_0_0_1_n_n 8 rfl rfl).symm]
  refine Finset.sum_congr rfl fun k _ => ?_
  have hk := ValueIdx.contrEquiv1_symm_val dot_S512x8_S8x1_S512x1_1_0_0_1_n_n 8 rfl rfl k
  have el : dot_S512x8_S8x1_S512x1_1_0_0_1_n_n.lhsIdx (ix2 p q) ((ValueIdx.contrEquiv1 dot_S512x8_S8x1_S512x1_1_0_0_1_n_n 8 rfl rfl).symm k) = ix2 p k := funext fun a => Fin.ext (by
    match a with
    | ⟨0, _⟩ => exact lhs_out_0 _ _
    | ⟨1, _⟩ => exact (lhs_out_1 _ _).trans hk)
  have er : dot_S512x8_S8x1_S512x1_1_0_0_1_n_n.rhsIdx (ix2 p q) ((ValueIdx.contrEquiv1 dot_S512x8_S8x1_S512x1_1_0_0_1_n_n 8 rfl rfl).symm k) = ix2 k q := funext fun a => Fin.ext (by
    match a with
    | ⟨0, _⟩ => exact (rhs_out_0 _ _).trans hk
    | ⟨1, _⟩ => exact rhs_out_1 _ _)
  rw [el, er]

/-! ## One column broadcast over many -/

/-- An [a, 1] array broadcast to [a, b] reads, at (p, c), the operand's one column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payload at an index

Head k's block of graphs: at graph p the 16 channels relu (d p * (agg p f + sh p f) + b f) go through the head's first
weights [16, 8] (a sum over the 16 channels), the hidden bias is added and a relu taken, then through the head's second
weights [8, 1] (a sum over the 8 hidden channels), and the output bias is added. The unit leading axis of every block is
dropped on the way in and put back on the way out; the narrowing format changes are the identity on extended reals. -/

private theorem pay_apply (x0 x1 : Vec Ideal S1x512x16 .f32) (x2 : Vec Ideal S1x512x1 .f32) (x3 : Vec Ideal S1x16 .f32)
    (x4 : Vec Ideal S1x16x8 .f32) (x5 : Vec Ideal S1x1x8 .f32) (x6 : Vec Ideal S1x8x1 .f32) (x7 : Vec Ideal S1x1x1 .f32)
    (z : Fin 1) (p : Fin 512) (q : Fin 1) :
    k3_pay1 (F := Ideal) (k3_pay2 (F := Ideal) x2 x0 x1 x3 x4 x5 x6) x7 (ix3 z p q)
      = (∑ hd : Fin 8, max ((∑ f : Fin 16,
            max (x2 (ix3 (0 : Fin 1) p (0 : Fin 1)) * (x0 (ix3 (0 : Fin 1) p f) + x1 (ix3 (0 : Fin 1) p f)) + x3 (ix2 (0 : Fin 1) f)) 0
              * x4 (ix3 (0 : Fin 1) f hd)) + x5 (ix3 (0 : Fin 1) (0 : Fin 1) hd)) 0 * x6 (ix3 (0 : Fin 1) hd (0 : Fin 1)))
        + x7 (ix3 (0 : Fin 1) (0 : Fin 1) (0 : Fin 1)) := by
  obtain rfl : q = 0 := Subsingleton.elim _ _
  unfold k3_pay1 k3_pay2
  dsimp only
  rw [shapeCast_ab_1ab_apply, addf_apply, broadcastTo_1b_ab_apply, shapeCast_1ab_ab_apply, narrow_apply]
  refine congrArg (· + _) (Finset.sum_congr rfl fun hd _ => ?_)
  rw [truncf_apply, maximumf_apply, broadcast_apply, addf_apply, broadcastTo_1b_ab_apply, shapeCast_1ab_ab_apply,
    truncf_apply, shapeCast_1ab_ab_apply, wide_apply]
  have hzero : (Scalar.ofBits .f32 0x00000000#32 : Ideal .f32) = 0 := Ideal.ofBits_zero_f32
  rw [hzero]
  refine congrArg (fun s => max (s + _) 0 * _) (Finset.sum_congr rfl fun f _ => ?_)
  rw [truncf_apply, truncf_apply, maximumf_apply, broadcast_apply, addf_apply, mulf_apply, addf_apply,
    broadcastTo_a1_ab_apply, broadcastTo_1b_ab_apply, shapeCast_self,
    shapeCast_1ab_ab_apply, shapeCast_1ab_ab_apply, shapeCast_1ab_ab_apply, shapeCast_1ab_ab_apply]

-- the TensorCore's buffer contents when the launch is entered: any
variable (V : (c : Dev nD) → (b : Ref sig .tc) → Buf (Elt Ideal) ((c : Thread nD τ).loc b))

/-! ## The blocks

Grid point t is head t. Every per-head window's block at t is block (t, 0, 0) of its array, of extent 1 along the head
axis; the bias row's block is its whole array at every point. -/

private theorem zeros3 : (![0, 0, 0] : Fin 3 → Nat) = fun _ => 0 := funext fun a => by fin_cases a <;> rfl
private theorem zeros2 : (![0, 0] : Fin 2 → Nat) = fun _ => 0 := funext fun a => by fin_cases a <;> rfl

/-- The index maps at each of the nine points: every per-head window sits at block (t, 0, 0) of its array, the bias row at
    block (0, 0) of its own. -/
private theorem head_idx : ∀ t : Fin cfg3.N, t.val < 9
    ∧ (win3_0.index t (0 : Fin 3) = t.val ∧ win3_0.index t (1 : Fin 3) = 0 ∧ win3_0.index t (2 : Fin 3) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_3.index t (0 : Fin 2) = 0 ∧ win3_3.index t (1 : Fin 2) = 0)
    ∧ (win3_4.index t (0 : Fin 3) = t.val ∧ win3_4.index t (1 : Fin 3) = 0 ∧ win3_4.index t (2 : Fin 3) = 0)
    ∧ (win3_5.index t (0 : Fin 3) = t.val ∧ win3_5.index t (1 : Fin 3) = 0 ∧ win3_5.index t (2 : Fin 3) = 0)
    ∧ (win3_6.index t (0 : Fin 3) = t.val ∧ win3_6.index t (1 : Fin 3) = 0 ∧ win3_6.index t (2 : Fin 3) = 0)
    ∧ (win3_7.index t (0 : Fin 3) = t.val ∧ win3_7.index t (1 : Fin 3) = 0 ∧ win3_7.index t (2 : Fin 3) = 0)
    ∧ (win3_8.index t (0 : Fin 3) = t.val ∧ win3_8.index t (1 : Fin 3) = 0 ∧ win3_8.index t (2 : Fin 3) = 0) :=
  (by decide +kernel : ∀ t : Fin grid3.N, _)

/-- Head k's block of the aggregated features is rows (k, ·, ·) of the array. -/
private theorem blk_agg (c : Dev nD) (t : Fin cfg3.N) (k : Fin 9) (hk : k.val = t.val) (p : Fin 512) (f : Fin 16) :
    iblk3 (F := Ideal) V c 0 t (ix3 (0 : Fin 1) p f) = V c main_v38 (ix3 k p f) := by
  obtain ⟨-, ⟨e0, e1, e2⟩, -⟩ := head_idx t
  show V c main_v38 (((cfg3.win 0).blk t).view.emb (ix3 (0 : Fin 1) p f)) = V c main_v38 (ix3 k p f)
  refine congrArg _ (funext fun a => Fin.ext ?_)
  match a with
  | ⟨0, _⟩ => show win3_0.index t (0 : Fin 3) * 1 + 1 * 0 = k.val; omega
  | ⟨1, _⟩ => show win3_0.index t (1 : Fin 3) * 512 + 1 * p.val = p.val; omega
  | ⟨2, _⟩ => show win3_0.index t (2 : Fin 3) * 16 + 1 * f.val = f.val; omega

/-- Head k's block of the scaled features is rows (k, ·, ·) of the array. -/
private theorem blk_sh (c : Dev nD) (t : Fin cfg3.N) (k : Fin 9) (hk : k.val = t.val) (p : Fin 512) (f : Fin 16) :
    iblk3 (F := Ideal) V c 1 t (ix3 (0 : Fin 1) p f) = V c main_v41 (ix3 k p f) := by
  obtain ⟨-, -, ⟨e0, e1, e2⟩, -⟩ := head_idx t
  show V c main_v41 (((cfg3.win 1).blk t).view.emb (ix3 (0 : Fin 1) p f)) = V c main_v41 (ix3 k p f)
  refine congrArg _ (funext fun a => Fin.ext ?_)
  match a with
  | ⟨0, _⟩ => show win3_1.index t (0 : Fin 3) * 1 + 1 * 0 = k.val; omega
  | ⟨1, _⟩ => show win3_1.index t (1 : Fin 3) * 512 + 1 * p.val = p.val; omega
  | ⟨2, _⟩ => show win3_1.index t (2 : Fin 3) * 16 + 1 * f.val = f.val; omega

/-- Head k's block of the scale column is rows (k, ·, 0) of the array. -/
private theorem blk_d (c : Dev nD) (t : Fin cfg3.N) (k : Fin 9) (hk : k.val = t.val) (p : Fin 512) :
    iblk3 (F := Ideal) V c 2 t (ix3 (0 : Fin 1) p (0 : Fin 1)) = V c main_v44 (ix3 k p (0 : Fin 1)) := by
  obtain ⟨-, -, -, ⟨e0, e1, e2⟩, -⟩ := head_idx t
  show V c main_v44 (((cfg3.win 2).blk t).view.emb (ix3 (0 : Fin 1) p (0 : Fin 1))) = V c main_v44 (ix3 k p (0 : Fin 1))
  refine congrArg _ (funext fun a => Fin.ext ?_)
  match a with
  | ⟨0, _⟩ => show win3_2.index t (0 : Fin 3) * 1 + 1 * 0 = k.val; omega
  | ⟨1, _⟩ => show win3_2.index t (1 : Fin 3) * 512 + 1 * p.val = p.val; omega
  | ⟨2, _⟩ => show win3_2.index t (2 : Fin 3) * 1 + 1 * 0 = 0; omega

/-- The bias row's block is the whole row at every point. -/
private theorem blk_b (c : Dev nD) (t : Fin cfg3.N) (f : Fin 16) :
    iblk3 (F := Ideal) V c 3 t (ix2 (0 : Fin 1) f) = V c main_v45 (ix2 (0 : Fin 1) f) := by
  obtain ⟨-, -, -, -, ⟨e0, e1⟩, -⟩ := head_idx t
  show V c main_v45 (((cfg3.win 3).blk t).view.emb (ix2 (0 : Fin 1) f)) = V c main_v45 (ix2 (0 : Fin 1) f)
  refine congrArg _ (funext fun a => Fin.ext ?_)
  match a with
  | ⟨0, _⟩ => show win3_3.index t (0 : Fin 2) * 1 + 1 * 0 = 0; omega
  | ⟨1, _⟩ => show win3_3.index t (1 : Fin 2) * 16 + 1 * f.val = f.val; omega

/-- Head k's block of the first weights is (k, ·, ·) of the array. -/
private theorem blk_fw1 (c : Dev nD) (t : Fin cfg3.N) (k : Fin 9) (hk : k.val = t.val) (f : Fin 16) (hd : Fin 8) :
    iblk3 (F := Ideal) V c 4 t (ix3 (0 : Fin 1) f hd) = V c main_arg7 (ix3 k f hd) := by
  obtain ⟨-, -, -, -, -, ⟨e0, e1, e2⟩, -⟩ := head_idx t
  show V c main_arg7 (((cfg3.win 4).blk t).view.emb (ix3 (0 : Fin 1) f hd)) = V c main_arg7 (ix3 k f hd)
  refine congrArg _ (funext fun a => Fin.ext ?_)
  match a with
  | ⟨0, _⟩ => show win3_4.index t (0 : Fin 3) * 1 + 1 * 0 = k.val; omega
  | ⟨1, _⟩ => show win3_4.index t (1 : Fin 3) * 16 + 1 * f.val = f.val; omega
  | ⟨2, _⟩ => show win3_4.index t (2 : Fin 3) * 8 + 1 * hd.val = hd.val; omega

/-- Head k's block of the hidden biases is (k, 0, ·) of the array. -/
private theorem blk_fb1 (c : Dev nD) (t : Fin cfg3.N) (k : Fin 9) (hk : k.val = t.val) (hd : Fin 8) :
    iblk3 (F := Ideal) V c 5 t (ix3 (0 : Fin 1) (0 : Fin 1) hd) = V c main_v46 (ix3 k (0 : Fin 1) hd) := by
  obtain ⟨-, -, -, -, -, -, ⟨e0, e1, e2⟩, -⟩ := head_idx t
  show V c main_v46 (((cfg3.win 5).blk t).view.emb (ix3 (0 : Fin 1) (0 : Fin 1) hd)) = V c main_v46 (ix3 k (0 : Fin 1) hd)
  refine congrArg _ (funext fun a => Fin.ext ?_)
  match a with
  | ⟨0, _⟩ => show win3_5.index t (0 : Fin 3) * 1 + 1 * 0 = k.val; omega
  | ⟨1, _⟩ => show win3_5.index t (1 : Fin 3) * 1 + 1 * 0 = 0; omega
  | ⟨2, _⟩ => show win3_5.index t (2 : Fin 3) * 8 + 1 * hd.val = hd.val; omega

/-- Head k's block of the second weights is (k, ·, 0) of the array. -/
private theorem blk_fw2 (c : Dev nD) (t : Fin cfg3.N) (k : Fin 9) (hk : k.val = t.val) (hd : Fin 8) :
    iblk3 (F := Ideal) V c 6 t (ix3 (0 : Fin 1) hd (0 : Fin 1)) = V c main_arg9 (ix3 k hd (0 : Fin 1)) := by
  obtain ⟨-, -, -, -, -, -, -, ⟨e0, e1, e2⟩, -⟩ := head_idx t
  show V c main_arg9 (((cfg3.win 6).blk t).view.emb (ix3 (0 : Fin 1) hd (0 : Fin 1))) = V c main_arg9 (ix3 k hd (0 : Fin 1))
  refine congrArg _ (funext fun a => Fin.ext ?_)
  match a with
  | ⟨0, _⟩ => show win3_6.index t (0 : Fin 3) * 1 + 1 * 0 = k.val; omega
  | ⟨1, _⟩ => show win3_6.index t (1 : Fin 3) * 8 + 1 * hd.val = hd.val; omega
  | ⟨2, _⟩ => show win3_6.index t (2 : Fin 3) * 1 + 1 * 0 = 0; omega

/-- Head k's block of the output biases is (k, 0, 0) of the array. -/
private theorem blk_fb2 (c : Dev nD) (t : Fin cfg3.N) (k : Fin 9) (hk : k.val = t.val) :
    iblk3 (F := Ideal) V c 7 t (ix3 (0 : Fin 1) (0 : Fin 1) (0 : Fin 1)) = V c main_v47 (ix3 k (0 : Fin 1) (0 : Fin 1)) := by
  obtain ⟨-, -, -, -, -, -, -, -, ⟨e0, e1, e2⟩, -⟩ := head_idx t
  show V c main_v47 (((cfg3.win 7).blk t).view.emb (ix3 (0 : Fin 1) (0 : Fin 1) (0 : Fin 1))) = V c main_v47 (ix3 k (0 : Fin 1) (0 : Fin 1))
  refine congrArg _ (funext fun a => Fin.ext ?_)
  match a with
  | ⟨0, _⟩ => show win3_7.index t (0 : Fin 3) * 1 + 1 * 0 = k.val; omega
  | ⟨1, _⟩ => show win3_7.index t (1 : Fin 3) * 1 + 1 * 0 = 0; omega
  | ⟨2, _⟩ => show win3_7.index t (2 : Fin 3) * 1 + 1 * 0 = 0; omega

/-- An element (z, p, q) of the output's block at head k sits at (k, p, 0) in the array. -/
private theorem out_emb (t : Fin cfg3.N) (k : Fin 9) (hk : k.val = t.val) (z : Fin 1) (p : Fin 512) (q : Fin 1) :
    ((cfg3.win 8).blk t).view.emb (ix3 z p q) = (ix3 k p (0 : Fin 1) : S9x512x1.Idx) := by
  obtain ⟨-, -, -, -, -, -, -, -, -, e0, e1, e2⟩ := head_idx t
  have hz := z.isLt
  have hq := q.isLt
  funext a; apply Fin.ext
  match a with
  | ⟨0, _⟩ => show win3_8.index t (0 : Fin 3) * 1 + 1 * z.val = k.val; omega
  | ⟨1, _⟩ => show win3_8.index t (1 : Fin 3) * 512 + 1 * p.val = p.val; omega
  | ⟨2, _⟩ => show win3_8.index t (2 : Fin 3) * 1 + 1 * q.val = 0; omega

/-! ## What each point writes back, and the array after the nine points -/

/-- WHAT HEAD t WRITES BACK is block t of `Gcn.G3` of the eight arrays as the launch finds them. -/
private theorem flushed_eq (c : Dev nD) (t : Fin cfg3.N) :
    (dat3 (F := Ideal) V c).flushed 8 t
      = ((cfg3.win 8).blk t).view.read (Elt Ideal)
          (Gcn.G3 (V c main_v38) (V c main_v41) (V c main_v44) (V c main_v45) (V c main_arg7) (V c main_v46) (V c main_arg9) (V c main_v47)) := by
  show (cfg3.win 8).cut (grid3.coords t) ((dat3 V c).after 8 t) = _
  rw [after3_8]
  unfold out3_8
  rw [View.canon_unit_zero zeros3]
  simp only [View.ld_unit_zero (S := S1x512x1) zeros3, View.ld_unit_zero (S := S1x512x16) zeros3,
    View.ld_unit_zero (S := S1x16) zeros2, View.ld_unit_zero (S := S1x16x8) zeros3, View.ld_unit_zero (S := S1x1x8) zeros3,
    View.ld_unit_zero (S := S1x8x1) zeros3, View.ld_unit_zero (S := S1x1x1) zeros3]
  have hk9 : t.val < 9 := (head_idx t).1
  refine funext fun (j : S1x512x1.Idx) => ?_
  obtain ⟨z, p, q, rfl⟩ : ∃ (z : Fin 1) (p : Fin 512) (q : Fin 1), j = ix3 z p q := ⟨j 0, j 1, j 2, eq_ix3 j⟩
  show k3_pay1 (F := Ideal) (k3_pay2 (F := Ideal) (iblk3 V c 2 t) (iblk3 V c 0 t) (iblk3 V c 1 t) (iblk3 V c 3 t) (iblk3 V c 4 t) (iblk3 V c 5 t) (iblk3 V c 6 t)) (iblk3 V c 7 t) (ix3 z p q)
      = Gcn.G3 (V c main_v38) (V c main_v41) (V c main_v44) (V c main_v45) (V c main_arg7) (V c main_v46) (V c main_arg9) (V c main_v47)
          (((cfg3.win 8).blk t).view.emb (ix3 z p q))
  rw [out_emb t ⟨t.val, hk9⟩ rfl z p q]
  refine (pay_apply (iblk3 V c 0 t) (iblk3 V c 1 t) (iblk3 V c 2 t) (iblk3 V c 3 t) (iblk3 V c 4 t) (iblk3 V c 5 t) (iblk3 V c 6 t) (iblk3 V c 7 t) z p q).trans ?_
  simp only [blk_agg V c t ⟨t.val, hk9⟩ rfl, blk_sh V c t ⟨t.val, hk9⟩ rfl, blk_d V c t ⟨t.val, hk9⟩ rfl, blk_b V c t,
    blk_fw1 V c t ⟨t.val, hk9⟩ rfl, blk_fb1 V c t ⟨t.val, hk9⟩ rfl, blk_fw2 V c t ⟨t.val, hk9⟩ rfl, blk_fb2 V c t ⟨t.val, hk9⟩ rfl]
  rfl

/-- An index of the output array is in head t's block iff each coordinate is in the block's range on its axis. -/
private theorem mem_blk (t : Fin cfg3.N) (i : S9x512x1.Idx) :
    i ∈ ((cfg3.win 8).blk t).view.set ↔ ∀ a : Fin 3, win3_8.index t a * S1x512x1.size a ≤ (i a).val ∧ (i a).val < win3_8.index t a * S1x512x1.size a + S1x512x1.size a := by
  show i ∈ ((View.whole main_v48).slice (win3_8.rect t)).set ↔ _
  rw [View.set_slice_whole, Rect.mem_set_unit]
  exact Iff.rfl

/-- The nine blocks tile the output array: index (k, p, q) is in head k's block. -/
private theorem cover (i : S9x512x1.Idx) : ∃ t : Fin cfg3.N, (cfg3.win 8).flush t = true ∧ i ∈ ((cfg3.win 8).blk t).view.set := by
  have h0 : (i 0).val < 9 := (i 0).isLt
  have h1 : (i 1).val < 512 := (i 1).isLt
  have h2 : (i 2).val < 1 := (i 2).isLt
  have hN : grid3.N = 9 := by decide
  obtain ⟨t, ht⟩ : ∃ t : Fin cfg3.N, t.val = (i 0).val := ⟨⟨(i 0).val, by show (i 0).val < grid3.N; rw [hN]; exact h0⟩, rfl⟩
  obtain ⟨-, -, -, -, -, -, -, -, -, e0, e1, e2⟩ := head_idx t
  refine ⟨t, flush3_8 t, ?_⟩
  rw [mem_blk]
  intro a
  match a with
  | ⟨0, _⟩ => show win3_8.index t (0 : Fin 3) * 1 ≤ (i 0).val ∧ (i 0).val < win3_8.index t (0 : Fin 3) * 1 + 1; omega
  | ⟨1, _⟩ => show win3_8.index t (1 : Fin 3) * 512 ≤ (i 1).val ∧ (i 1).val < win3_8.index t (1 : Fin 3) * 512 + 512; omega
  | ⟨2, _⟩ => show win3_8.index t (2 : Fin 3) * 1 ≤ (i 2).val ∧ (i 2).val < win3_8.index t (2 : Fin 3) * 1 + 1; omega

/-- THE OUTPUT ARRAY after the nine points is `Gcn.G3` of the eight arrays as the launch finds them: every point writes
    its block of that one function, and the blocks cover the array. -/
theorem reg3_final (c : Dev nD) :
    (dat3 (F := Ideal) V c).arrAt 8 cfg3.N
      = Gcn.G3 (V c main_v38) (V c main_v41) (V c main_v44) (V c main_v45) (V c main_arg7) (V c main_v46) (V c main_arg9) (V c main_v47) :=
  (dat3 (F := Ideal) V c).arrAt_eq_of_cover 8
    (Gcn.G3 (V c main_v38) (V c main_v41) (V c main_v44) (V c main_v45) (V c main_arg7) (V c main_v46) (V c main_arg9) (V c main_v47))
    (fun t _ => flushed_eq V c t) cover

end Cert.KernelIdeal.RegVal

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.EdgeOps.lean ====
/-
  THE HOST'S SCATTERS AND GATHERS OVER THE EDGE LIST, READ AT AN INDEX in the words of Spec.lean.
  Each lemma takes the index array through what it holds in column 0 of each row (the target word, or the wrapped
  source word), so it applies whatever operations built that array; the dimension numbers are known through the
  equations on their lists.
-/
import proofs.«430161_j29643864277061_3_alg».proof.Proof.Spec
import proofs.«430161_j29643864277061_3_alg».proof.Proof.LibScatterSum
import proofs.«430161_j29643864277061_3_alg».proof.Proof.LibGatherRows
import Idealize.ShloMosaic.PureOps.Ideal.Laws

noncomputable section

open scoped BigOperators

namespace Gcn

open Idealize.ShloMosaic Idealize.ShloMosaic.ValueIdx

/-- The accumulating scatter of ones into zeros at the target words, plus one, under the reciprocal square root: dinv. -/
theorem dinv_of_scatter (d : ScatterDims (⟨1, ![732160]⟩ : Shape) (⟨2, ![5857280, 1]⟩ : Shape) (⟨1, ![5857280]⟩ : Shape))
    (huw : d.updateWindowDims = []) (hiw : d.insertedWindowDims = [0]) (hsd : d.scatterDimsToOperandDims = [0])
    (hiv : d.indexVectorDim = 1) (ei : EdgeArr) (idx : IVec (⟨2, ![5857280, 1]⟩ : Shape) 32)
    (hidx : ∀ e : Fin 5857280, idx (ix2 e (0 : Fin 1)) = dstW ei e)
    (x : (⟨1, ![732160]⟩ : Shape).Idx → EReal) (hx : ∀ j, x j = Ideal.ofBits .f32 0x00000000#32)
    (u : (⟨1, ![5857280]⟩ : Shape).Idx → EReal) (hu : ∀ j, u j = Ideal.ofBits .f32 0x3F800000#32)
    (i : Fin 732160) :
    Ideal.rsqrt (Host.scatterAdd (F := Ideal) (φ := .f32) d x idx u (ix1 i) + Ideal.ofBits .f32 0x3F800000#32) = dinv ei i := by
  have hf : (Finset.univ.filter fun n : Fin 5857280 => (idx (ix2 n (0 : Fin 1))).toInt = (i.val : Int)) = inE ei i := by
    unfold inE
    refine Finset.filter_congr fun e _ => ?_
    rw [hidx]
  show Ideal.rsqrt (Ideal.hostScatterAdd d x idx u (ix1 i) + Ideal.ofBits .f32 0x3F800000#32) = dinv ei i
  rw [ScatterSum.scatterAdd_flat_apply d huw hiw hsd hiv x idx u i, hf, hx,
    Finset.sum_congr rfl fun e _ => hu (ix1 e), Ideal.ofBits_zero_f32, ofBits_one]
  rfl

/-- The accumulating scatter of update rows into zeros at the target words: at (i, j), zero plus the sum over the
    edges into i of the updates at (e, j). -/
theorem agg_of_scatter (d : ScatterDims (⟨2, ![732160, 16]⟩ : Shape) (⟨2, ![5857280, 1]⟩ : Shape) (⟨2, ![5857280, 16]⟩ : Shape))
    (huw : d.updateWindowDims = [1]) (hiw : d.insertedWindowDims = [0]) (hsd : d.scatterDimsToOperandDims = [0])
    (hiv : d.indexVectorDim = 1) (ei : EdgeArr) (idx : IVec (⟨2, ![5857280, 1]⟩ : Shape) 32)
    (hidx : ∀ e : Fin 5857280, idx (ix2 e (0 : Fin 1)) = dstW ei e)
    (x : (⟨2, ![732160, 16]⟩ : Shape).Idx → EReal) (hx : ∀ j, x j = Ideal.ofBits .f32 0x00000000#32)
    (upd : (⟨2, ![5857280, 16]⟩ : Shape).Idx → EReal) (i : Fin 732160) (j : Fin 16) :
    Host.scatterAdd (F := Ideal) (φ := .f32) d x idx upd (ix2 i j) = (0 : EReal) + ∑ e ∈ inE ei i, upd (ix2 e j) := by
  have hf : (Finset.univ.filter fun n : Fin 5857280 => (idx (ix2 n (0 : Fin 1))).toInt = (i.val : Int)) = inE ei i := by
    unfold inE
    refine Finset.filter_congr fun e _ => ?_
    rw [hidx]
  show Ideal.hostScatterAdd d x idx upd (ix2 i j) = (0 : EReal) + ∑ e ∈ inE ei i, upd (ix2 e j)
  rw [ScatterSum.scatterAdd_rows_apply d huw hiw hsd hiv x idx upd i j, hf, hx, Ideal.ofBits_zero_f32]

/-- A gather of whole rows at wrapped words: row e of the result is the operand's row at the word's row. -/
theorem gather_rows_wrapped {α : Type}
    (d : GatherDims (⟨2, ![732160, 16]⟩ : Shape) (⟨2, ![5857280, 1]⟩ : Shape) (⟨2, ![5857280, 16]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, 16])
    (x : (⟨2, ![732160, 16]⟩ : Shape).Idx → α) (idx : IVec (⟨2, ![5857280, 1]⟩ : Shape) 32) (v : Fin 5857280 → BitVec 32)
    (hidx : ∀ e : Fin 5857280, idx (ix2 e (0 : Fin 1)) = wrapW (v e)) (e : Fin 5857280) (j : Fin 16) :
    Host.gather d x idx (ix2 e j) = x (ix2 (rowOf (v e)) j) := by
  rw [GatherRows.gather_rows_apply (by omega) d hod hcs hob hsb hsm hiv hss x idx e j]
  refine congrArg (fun r : Fin 732160 => x (ix2 r j)) (Fin.ext ?_)
  show min (idx (ix2 e (0 : Fin 1))).toInt.toNat (732160 - 1) = min (wrapW (v e)).toInt.toNat (732160 - 1)
  rw [hidx]

/-- A gather of single elements of a flat array at wrapped words. -/
theorem gather_flat_wrapped {α : Type}
    (d : GatherDims (⟨1, ![732160]⟩ : Shape) (⟨2, ![5857280, 1]⟩ : Shape) (⟨1, ![5857280]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![732160]⟩ : Shape).Idx → α) (idx : IVec (⟨2, ![5857280, 1]⟩ : Shape) 32) (v : Fin 5857280 → BitVec 32)
    (hidx : ∀ e : Fin 5857280, idx (ix2 e (0 : Fin 1)) = wrapW (v e)) (e : Fin 5857280) :
    Host.gather d x idx (ix1 e) = x (ix1 (rowOf (v e))) := by
  -- no operand axis is a batching axis; axis 0 is the one start axis and is collapsed
  have hnb : ∀ a : Fin 1, a ∉ d.operandBatchingDims := fun a h => by rw [hob] at h; exact List.not_mem_nil h
  have h0mem : (0 : Fin 1) ∈ d.startIndexMap := by rw [hsm]; exact List.mem_singleton.2 rfl
  have h0k : (0 : Fin 1) ∉ d.sKept := fun h =>
    ((d.mem_sKept 0).1 h).1 (by rw [hcs]; exact List.mem_singleton.2 rfl)
  -- the result's one axis is its one batch axis
  have hbd : d.batchDims = [0] := by
    show Shape.kept _ d.offsetDims = [0]
    rw [hod]; rfl
  -- the start-indices index of result index e is [e, 0], whatever the component
  have hsi : ∀ c : Fin d.startIndexMap.length, d.siIdx (ix1 e) c = ix2 e (0 : Fin 1) := by
    intro c
    funext b
    refine Fin.ext ?_
    match b with
    | ⟨0, hb⟩ =>
      rw [GatherRows.siIdx_val_of_ne d (ix1 e) c ⟨0, hb⟩ (by rw [hiv]; exact Nat.zero_ne_one) 0 hbd]
    | ⟨1, hb⟩ =>
      have h1 : (d.siIdx (ix1 e) c ⟨1, hb⟩).val < 1 := (d.siIdx (ix1 e) c ⟨1, hb⟩).isLt
      show (d.siIdx (ix1 e) c ⟨1, hb⟩).val = 0
      omega
  unfold Host.gather
  congr 1
  funext a
  refine Fin.ext ?_
  match a with
  | ⟨0, _⟩ =>
    show d.start (ix1 e) idx 0 + d.batchCoord (ix1 e) 0 + d.offCoord (ix1 e) 0
      = min (wrapW (v e)).toInt.toNat (732160 - 1)
    rw [d.batchCoord_eq_zero _ _ (hnb 0), d.offCoord_eq_zero _ _ h0k]
    simp only [Nat.add_zero]
    unfold GatherDims.start
    rw [dif_pos h0mem, hsi, hss, hidx]
    rfl

/-- An entry of a list known through an equation, at a position known through an equation. -/
private theorem getElem_eq_of {α : Type} {l l' : List α} {a : α} (h : l = l') (k k' : Nat) (hkk : k = k') (hk : k < l.length)
    (ha : ∀ hk' : k' < l'.length, l'[k'] = a) : l[k] = a := by
  subst h; subst hkk; exact ha hk

/-- Off the index vector's axis, the start-indices index has the result index's coordinate on the batch axis in that
    axis's position: with the batch axes known as the list l and the axis b in position p among the start indices'
    other axes, the coordinate on l[p]. -/
private theorem siIdx_val_of_pos {s si t : Shape} (d : GatherDims s si t) (j : t.Idx) (c : Fin d.startIndexMap.length)
    (b : Fin si.rank) (hb : ¬ b.val = d.indexVectorDim) (a : Fin t.rank) {l : List (Fin t.rank)} (hl : d.batchDims = l)
    (p : Nat) (hp : d.siKept.idxOf b = p) (ha : ∀ h : p < l.length, l[p] = a) :
    (d.siIdx j c b).val = (j a).val := by
  unfold GatherDims.siIdx
  rw [dif_neg hb]
  unfold GatherDims.siCoord
  exact congrArg (fun e => (j e).val) (getElem_eq_of hl _ p hp _ ha)

/-- The heads' gather of whole rows: start indices [head, graph, 1] holding node k g's number (as a word, wrapped or
    not: a node number is not negative), result [head, graph, channel]. -/
theorem gather_heads {α : Type}
    (d : GatherDims (⟨2, ![732160, 16]⟩ : Shape) (⟨3, ![9, 512, 1]⟩ : Shape) (⟨3, ![9, 512, 16]⟩ : Shape))
    (hod : d.offsetDims = [2]) (hcs : d.collapsedSliceDims = [0]) (hob : d.operandBatchingDims = [])
    (hsb : d.startIndicesBatchingDims = []) (hsm : d.startIndexMap = [0]) (hiv : d.indexVectorDim = 2)
    (hss : d.sliceSizes = ![1, 16])
    (x : (⟨2, ![732160, 16]⟩ : Shape).Idx → α) (idx : IVec (⟨3, ![9, 512, 1]⟩ : Shape) 32)
    (hidx : ∀ (k : Fin 9) (g : Fin 512), (idx (ix3 k g (0 : Fin 1))).toInt = ((node k g).val : Int))
    (k : Fin 9) (g : Fin 512) (f : Fin 16) :
    Host.gather d x idx (ix3 k g f) = x (ix2 (node k g) f) := by
  have h10 : ¬ (1 : Fin 2) = 0 := fun h => absurd (congrArg Fin.val h) Nat.one_ne_zero
  -- no operand axis is a batching axis; axis 0 is the one start axis and is collapsed; axis 1 is the one kept axis
  have hnb : ∀ a : Fin 2, a ∉ d.operandBatchingDims := fun a h => by rw [hob] at h; exact List.not_mem_nil h
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's batch axes are 0 and 1; the start indices' axes off the index vector's are 0 and 1
  have hbd : d.batchDims = [0, 1] := by
    show Shape.kept _ d.offsetDims = [0, 1]
    rw [hod]; rfl
  have hsk : d.siKept = [0, 1] := by
    show (List.finRange 3).filter (fun b => decide (b.val ≠ d.indexVectorDim)) = [0, 1]
    rw [hiv]; rfl
  -- the start-indices index of (k, g, f) is [k, g, 0], whatever the component
  have hsi : ∀ c : Fin d.startIndexMap.length, d.siIdx (ix3 k g f) c = ix3 k g (0 : Fin 1) := by
    intro c
    funext b
    refine Fin.ext ?_
    match b with
    | ⟨0, hb⟩ =>
      rw [siIdx_val_of_pos d (ix3 k g f) c ⟨0, hb⟩ (by rw [hiv]; show ¬ (0 : Nat) = 2; omega) 0 hbd 0 (by rw [hsk]; rfl) fun _ => rfl]
    | ⟨1, hb⟩ =>
      rw [siIdx_val_of_pos d (ix3 k g f) c ⟨1, hb⟩ (by rw [hiv]; show ¬ (1 : Nat) = 2; omega) 1 hbd 1 (by rw [hsk]; rfl) fun _ => rfl]
    | ⟨2, hb⟩ =>
      have h1 : (d.siIdx (ix3 k g f) c ⟨2, hb⟩).val < 1 := (d.siIdx (ix3 k g f) c ⟨2, hb⟩).isLt
      show (d.siIdx (ix3 k g f) c ⟨2, hb⟩).val = 0
      omega
  unfold Host.gather
  congr 1
  funext a
  refine Fin.ext ?_
  match a with
  | ⟨0, _⟩ =>
    show d.start (ix3 k g f) idx 0 + d.batchCoord (ix3 k g f) 0 + d.offCoord (ix3 k g f) 0 = (node k g).val
    rw [d.batchCoord_eq_zero _ _ (hnb 0), d.offCoord_eq_zero _ _ h0k]
    simp only [Nat.add_zero]
    unfold GatherDims.start
    rw [dif_pos h0mem, hsi, hss]
    show min (idx (ix3 k g (0 : Fin 1))).toInt.toNat (732160 - 1) = (node k g).val
    rw [hidx]
    have hlt := (node k g).isLt
    omega
  | ⟨1, _⟩ =>
    show d.start (ix3 k g f) idx 1 + d.batchCoord (ix3 k g f) 1 + d.offCoord (ix3 k g f) 1 = f.val
    rw [d.batchCoord_eq_zero _ _ (hnb 1), GatherRows.offCoord_of_singleton d _ _ h1k 2 hod]
    simp only [Nat.add_zero]
    unfold GatherDims.start
    rw [dif_neg h1nmem, Nat.zero_add]

end Gcn

end
-- ==== Proof.KChain.lean ====
/-
  THE KERNEL PROGRAM'S RESULT BUFFERS AS FUNCTIONS OF THE ARGUMENTS. The buffer contents at each boundary of @main are
  a fold: a stretch of host operations applied to the contents before it, or a launch's arrays at what its write-backs
  leave (Reg0 … Reg3 say what that is for each launch's output). Walking the fold from the launch memory:
  the dinv column (an accumulating scatter of ones at the target words, plus one, under the reciprocal square root);
  launch 0's scaled features; their rows gathered at the wrapped source words and scattered, accumulating, at the
  target words; launch 1's combine; launch 2's scaled second features; the same gather and scatter; the nine rows per
  graph that the heads read, taken by a reshape to [graph, node in graph, channel], a slice of nodes 1421 … 1429 and a
  transposition to [head, graph, channel]; launch 3; and each head's [1, 512, 1] slice reshaped to [512, 1].
-/
import proofs.«430161_j29643864277061_3_alg».proof.Proof.KRun
import proofs.«430161_j29643864277061_3_alg».proof.Proof.Reg0
import proofs.«430161_j29643864277061_3_alg».proof.Proof.Reg1
import proofs.«430161_j29643864277061_3_alg».proof.Proof.Reg2
import proofs.«430161_j29643864277061_3_alg».proof.Proof.Reg3
import proofs.«430161_j29643864277061_3_alg».proof.Proof.EdgeOps
import Idealize.ShloMosaic.Lib.StableHlo.Run

set_option maxRecDepth 16384

noncomputable section

namespace Cert.KernelIdeal.KChain

open Cert.KernelIdeal Cert.KernelIdeal.Gen Cert.KernelIdeal.RegVal
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The edge list's two rows as flat vectors of words -/

/-- The source words, one per edge. -/
def srcVec (ei : Gcn.EdgeArr) : S5857280.Idx → BitVec 32 := fun i => Gcn.srcW ei (i 0)
/-- The target words, one per edge. -/
def dstVec (ei : Gcn.EdgeArr) : S5857280.Idx → BitVec 32 := fun i => Gcn.dstW ei (i 0)

/-- Row 0 of the edge array, sliced out and flattened, is the vector of source words. -/
theorem row0_flat (ei : Gcn.EdgeArr) :
    shapeCast S5857280 (extractStridedSlice S1x5857280 ![0, 0] ei slices_S2x5857280_S1x5857280_0_0) shapeCasts_S1x5857280_S5857280
      = srcVec ei := by
  funext i
  obtain ⟨e, rfl⟩ : ∃ e : Fin 5857280, i = ix1 e := ⟨i 0, eq_ix1 i⟩
  refine (shapeCast_apply _ shapeCasts_S1x5857280_S5857280 (ix1 e) (ix2 (0 : Fin 1) e)
    (by rewrite [Shape.rowMajor_val_two, Shape.rowMajor_val_one]; show 0 * 5857280 + e.val = e.val; omega)).trans ?_
  exact extractStridedSlice_apply ![0, 0] ei slices_S2x5857280_S1x5857280_0_0 (ix2 (0 : Fin 1) e) (ix2 (0 : Fin 2) e)
    (fun a => match a with
      | ⟨0, _⟩ => by show (0 : Nat) = 0 + 0; omega
      | ⟨1, _⟩ => by show e.val = 0 + e.val; omega)

/-- Row 1 of the edge array, sliced out and flattened, is the vector of target words. -/
theorem row1_flat (ei : Gcn.EdgeArr) :
    shapeCast S5857280 (extractStridedSlice S1x5857280 ![1, 0] ei slices_S2x5857280_S1x5857280_1_0) shapeCasts_S1x5857280_S5857280
      = dstVec ei := by
  funext i
  obtain ⟨e, rfl⟩ : ∃ e : Fin 5857280, i = ix1 e := ⟨i 0, eq_ix1 i⟩
  refine (shapeCast_apply _ shapeCasts_S1x5857280_S5857280 (ix1 e) (ix2 (0 : Fin 1) e)
    (by rewrite [Shape.rowMajor_val_two, Shape.rowMajor_val_one]; show 0 * 5857280 + e.val = e.val; omega)).trans ?_
  exact extractStridedSlice_apply ![1, 0] ei slices_S2x5857280_S1x5857280_1_0 (ix2 (0 : Fin 1) e) (ix2 (1 : Fin 2) e)
    (fun a => match a with
      | ⟨0, _⟩ => by show (1 : Nat) = 1 + 0; omega
      | ⟨1, _⟩ => by show e.val = 0 + e.val; omega)

/-- A flat vector of words broadcast to a column holds, in column 0 of row e, the vector's word e. -/
theorem col_apply (v : S5857280.Idx → BitVec 32) (e : Fin 5857280) :
    broadcastInDim S5857280x1 ![0] bcast_S5857280_S5857280x1_0 v (ix2 e (0 : Fin 1)) = v (ix1 e) :=
  broadcastInDim_apply _ bcast_S5857280_S5857280x1_0 v (ix2 e (0 : Fin 1)) (ix1 e) (fun a => match a with
    | ⟨0, _⟩ => by show e.val = if (5857280 : Nat) = 1 then 0 else e.val; rw [if_neg (by decide)])

/-- The wrapped source words as a column: a negative word has the node count added. -/
theorem wrapped_col (ei : Gcn.EdgeArr) (e : Fin 5857280) :
    broadcastInDim S5857280x1 ![0] bcast_S5857280_S5857280x1_0
        (select (cmpi .slt (srcVec ei) (broadcastInDim S5857280 ![] bcast_S_S5857280 (constantI S_ 32 0#32)))
          (addi (srcVec ei) (broadcastInDim S5857280 ![] bcast_S_S5857280 (constantI S_ 32 732160#32))) (srcVec ei))
        (ix2 e (0 : Fin 1))
      = Gcn.wrapW (Gcn.srcW ei e) := by
  rw [col_apply]
  rfl

/-! ## The degree column -/

/-- The accumulating scatter of ones at the target words, plus one, under the reciprocal square root, as a column: dinv. -/
theorem dinv_col (ei : Gcn.EdgeArr) :
    shapeCast S732160x1
        (Host.rsqrt (F := Ideal) (addf
          (Host.scatterAdd (F := Ideal) scatter_S732160_S5857280x1_S5857280_n_0_0_1
            (broadcastInDim S732160 ![] bcast_S_S732160 (constant (F := Ideal) S_ .f32 0x00000000#32))
            (broadcastInDim S5857280x1 ![0] bcast_S5857280_S5857280x1_0 (dstVec ei))
            (broadcastInDim S5857280 ![] bcast_S_S5857280 (constant (F := Ideal) S_ .f32 0x3F800000#32)))
          (broadcastInDim S732160 ![] bcast_S_S732160 (constant (F := Ideal) S_ .f32 0x3F800000#32))))
        shapeCasts_S732160_S732160x1
      = Gcn.D2 ei := by
  funext i
  obtain ⟨p, q, rfl⟩ : ∃ (p : Fin 732160) (q : Fin 1), i = ix2 p q := ⟨i 0, i 1, eq_ix2 i⟩
  refine (shapeCast_apply _ shapeCasts_S732160_S732160x1 (ix2 p q) (ix1 p)
    (by rewrite [Shape.rowMajor_val_one, Shape.rowMajor_val_two]; have := q.isLt; show p.val = p.val * 1 + q.val; omega)).trans ?_
  have hx : ∀ j, (broadcastInDim S732160 ![] bcast_S_S732160 (constant (F := Ideal) S_ .f32 0x00000000#32)) j
      = Ideal.ofBits .f32 0x00000000#32 := fun j => rfl
  have hu : ∀ j, (broadcastInDim S5857280 ![] bcast_S_S5857280 (constant (F := Ideal) S_ .f32 0x3F800000#32)) j
      = Ideal.ofBits .f32 0x3F800000#32 := fun j => rfl
  have h1 : ∀ j, (broadcastInDim S732160 ![] bcast_S_S732160 (constant (F := Ideal) S_ .f32 0x3F800000#32)) j
      = Ideal.ofBits .f32 0x3F800000#32 := fun j => rfl
  have e1 : ∀ (v : S732160.Idx → EReal) (j : S732160.Idx), Host.rsqrt (F := Ideal) (φ := .f32) v j = Ideal.rsqrt (v j) :=
    fun _ _ => rfl
  rw [e1, addf_apply, h1]
  exact Gcn.dinv_of_scatter scatter_S732160_S5857280x1_S5857280_n_0_0_1 rfl rfl rfl rfl ei _
    (fun e => col_apply (dstVec ei) e) _ hx _ hu p

/-! ## Aggregation over the edge list -/

/-- Rows gathered at the wrapped source words and scattered, accumulating, into zeros at the target words: the plain
    sum over a node's incoming edges of the rows at the edges' source rows. -/
theorem agg_term (ei : Gcn.EdgeArr) (sh : Gcn.ArrN16) :
    Host.scatterAdd (F := Ideal) scatter_S732160x16_S5857280x1_S5857280x16_1_0_0_1
        (broadcastInDim S732160x16 ![] bcast_S_S732160x16 (constant (F := Ideal) S_ .f32 0x00000000#32))
        (broadcastInDim S5857280x1 ![0] bcast_S5857280_S5857280x1_0 (dstVec ei))
        (Host.gather gather_S732160x16_S5857280x1_S5857280x16_1_0_n_n_0_1_116 sh
          (broadcastInDim S5857280x1 ![0] bcast_S5857280_S5857280x1_0
            (select (cmpi .slt (srcVec ei) (broadcastInDim S5857280 ![] bcast_S_S5857280 (constantI S_ 32 0#32)))
              (addi (srcVec ei) (broadcastInDim S5857280 ![] bcast_S_S5857280 (constantI S_ 32 732160#32))) (srcVec ei))))
      = Gcn.AGG ei sh := by
  funext i
  obtain ⟨p, q, rfl⟩ : ∃ (p : Fin 732160) (q : Fin 16), i = ix2 p q := ⟨i 0, i 1, eq_ix2 i⟩
  have hx : ∀ j, (broadcastInDim S732160x16 ![] bcast_S_S732160x16 (constant (F := Ideal) S_ .f32 0x00000000#32)) j
      = Ideal.ofBits .f32 0x00000000#32 := fun j => rfl
  refine (Gcn.agg_of_scatter scatter_S732160x16_S5857280x1_S5857280x16_1_0_0_1 rfl rfl rfl rfl ei _
    (fun e => col_apply (dstVec ei) e) _ hx _ p q).trans ?_
  show _ = (0 : EReal) + ∑ e ∈ Gcn.inE ei p, sh (ix2 (Gcn.rowOf (Gcn.srcW ei e)) q)
  refine congrArg (fun s => (0 : EReal) + s) (Finset.sum_congr rfl fun e _ => ?_)
  exact Gcn.gather_rows_wrapped gather_S732160x16_S5857280x1_S5857280x16_1_0_n_n_0_1_116 rfl rfl rfl rfl rfl rfl rfl sh _
    (Gcn.srcW ei) (fun e' => wrapped_col ei e') e q

/-! ## The rows the heads read, and the reshapes that insert unit axes -/

/-- Reshaped to [graph, node in graph, channel], nodes 1421 … 1429 of each graph sliced out, and transposed to
    [head, graph, channel]: entry (k, g, f) is row g * 1430 + 1421 + k. -/
theorem headRows_term (a : Gcn.ArrN16) :
    transpose S9x512x16 [1, 0, 2]
        (extractStridedSlice S512x9x16 ![0, 1421, 0] (shapeCast S512x1430x16 a shapeCasts_S732160x16_S512x1430x16)
          slices_S512x1430x16_S512x9x16_0_1421_0)
        transposes_S512x9x16_S9x512x16_1_0_2
      = Gcn.headRows a := by
  funext i
  obtain ⟨k, g, f, rfl⟩ : ∃ (k : Fin 9) (g : Fin 512) (f : Fin 16), i = ix3 k g f := ⟨i 0, i 1, i 2, eq_ix3 i⟩
  have hk := k.isLt
  have hg := g.isLt
  refine (transpose_apply [1, 0, 2] _ transposes_S512x9x16_S9x512x16_1_0_2 (ix3 k g f) (ix3 g k f) (fun b => match b with
    | ⟨0, _⟩ => rfl
    | ⟨1, _⟩ => rfl
    | ⟨2, _⟩ => rfl)).trans ?_
  refine (extractStridedSlice_apply ![0, 1421, 0] _ slices_S512x1430x16_S512x9x16_0_1421_0 (ix3 g k f)
    (ix3 g (⟨1421 + k.val, by omega⟩ : Fin 1430) f) (fun a => match a with
      | ⟨0, _⟩ => by show g.val = 0 + g.val; omega
      | ⟨1, _⟩ => by show 1421 + k.val = 1421 + k.val; rfl
      | ⟨2, _⟩ => by show f.val = 0 + f.val; omega)).trans ?_
  exact shapeCast_apply a shapeCasts_S732160x16_S512x1430x16 (ix3 g (⟨1421 + k.val, by omega⟩ : Fin 1430) f) (ix2 (Gcn.node k g) f)
    (by rewrite [Shape.rowMajor_val_two, Shape.rowMajor_val_three]
        show (g.val * 1430 + 1421 + k.val) * 16 + f.val = (g.val * 1430 + (1421 + k.val)) * 16 + f.val
        omega)

/-- The same for a column [node, 1]. -/
theorem headRows1_term (a : Gcn.ArrN1) :
    transpose S9x512x1 [1, 0, 2]
        (extractStridedSlice S512x9x1 ![0, 1421, 0] (shapeCast S512x1430x1 a shapeCasts_S732160x1_S512x1430x1)
          slices_S512x1430x1_S512x9x1_0_1421_0)
        transposes_S512x9x1_S9x512x1_1_0_2
      = Gcn.headRows1 a := by
  funext i
  obtain ⟨k, g, z, rfl⟩ : ∃ (k : Fin 9) (g : Fin 512) (z : Fin 1), i = ix3 k g z := ⟨i 0, i 1, i 2, eq_ix3 i⟩
  have hk := k.isLt
  have hg := g.isLt
  have hz := z.isLt
  refine (transpose_apply [1, 0, 2] _ transposes_S512x9x1_S9x512x1_1_0_2 (ix3 k g z) (ix3 g k z) (fun b => match b with
    | ⟨0, _⟩ => rfl
    | ⟨1, _⟩ => rfl
    | ⟨2, _⟩ => rfl)).trans ?_
  refine (extractStridedSlice_apply ![0, 1421, 0] _ slices_S512x1430x1_S512x9x1_0_1421_0 (ix3 g k z)
    (ix3 g (⟨1421 + k.val, by omega⟩ : Fin 1430) z) (fun a => match a with
      | ⟨0, _⟩ => by show g.val = 0 + g.val; omega
      | ⟨1, _⟩ => by show 1421 + k.val = 1421 + k.val; rfl
      | ⟨2, _⟩ => by show z.val = 0 + z.val; omega)).trans ?_
  exact shapeCast_apply a shapeCasts_S732160x1_S512x1430x1 (ix3 g (⟨1421 + k.val, by omega⟩ : Fin 1430) z)
    (ix2 (Gcn.node k g) (0 : Fin 1))
    (by rewrite [Shape.rowMajor_val_two, Shape.rowMajor_val_three]
        show (g.val * 1430 + 1421 + k.val) * 1 + 0 = (g.val * 1430 + (1421 + k.val)) * 1 + z.val
        omega)

/-- A bias [16] reshaped to a row [1, 16]. -/
theorem row16_term (b : Gcn.Arr16) : shapeCast S1x16 b shapeCasts_S16_S1x16 = Gcn.row16 b := by
  funext i
  obtain ⟨z, j, rfl⟩ : ∃ (z : Fin 1) (j : Fin 16), i = ix2 z j := ⟨i 0, i 1, eq_ix2 i⟩
  have hz := z.isLt
  exact shapeCast_apply b shapeCasts_S16_S1x16 (ix2 z j) (ix1 j)
    (by rewrite [Shape.rowMajor_val_one, Shape.rowMajor_val_two]; show j.val = z.val * 16 + j.val; omega)

/-- The heads' first biases [9, 8] with a unit axis inserted in the middle. -/
theorem mid8_term (fb1 : Gcn.Arr9x8) : shapeCast S9x1x8 fb1 shapeCasts_S9x8_S9x1x8 = Gcn.mid8 fb1 := by
  funext i
  obtain ⟨k, z, h, rfl⟩ : ∃ (k : Fin 9) (z : Fin 1) (h : Fin 8), i = ix3 k z h := ⟨i 0, i 1, i 2, eq_ix3 i⟩
  have hz := z.isLt
  exact shapeCast_apply fb1 shapeCasts_S9x8_S9x1x8 (ix3 k z h) (ix2 k h)
    (by rewrite [Shape.rowMajor_val_two, Shape.rowMajor_val_three]; show k.val * 8 + h.val = (k.val * 1 + z.val) * 8 + h.val; omega)

/-- The heads' second biases [9, 1] with a unit axis inserted in the middle. -/
theorem mid1_term (fb2 : Gcn.Arr9x1) : shapeCast S9x1x1 fb2 shapeCasts_S9x1_S9x1x1 = Gcn.mid1 fb2 := by
  funext i
  obtain ⟨k, z, z', rfl⟩ : ∃ (k : Fin 9) (z : Fin 1) (z' : Fin 1), i = ix3 k z z' := ⟨i 0, i 1, i 2, eq_ix3 i⟩
  have hz := z.isLt
  have hz' := z'.isLt
  exact shapeCast_apply fb2 shapeCasts_S9x1_S9x1x1 (ix3 k z z') (ix2 k (0 : Fin 1))
    (by rewrite [Shape.rowMajor_val_two, Shape.rowMajor_val_three]; show k.val * 1 + 0 = (k.val * 1 + z.val) * 1 + z'.val; omega)

/-- Head k's [1, 512, 1] slice of a [9, 512, 1] array, reshaped to [512, 1]: entry (g, 0) is entry (k, g, 0). -/
theorem head_slice (o : Gcn.Arr9x512x1) (n : Nat) (hs : S9x512x1.Slices ![n, 0, 0] S1x512x1) (k : Fin 9) (hk : k.val = n) :
    shapeCast S512x1 (extractStridedSlice S1x512x1 ![n, 0, 0] o hs) shapeCasts_S1x512x1_S512x1
      = fun i => o (ix3 k (i 0) (0 : Fin 1)) := by
  funext i
  obtain ⟨g, z, rfl⟩ : ∃ (g : Fin 512) (z : Fin 1), i = ix2 g z := ⟨i 0, i 1, eq_ix2 i⟩
  have hz := z.isLt
  refine (shapeCast_apply _ shapeCasts_S1x512x1_S512x1 (ix2 g z) (ix3 (0 : Fin 1) g (0 : Fin 1))
    (by rewrite [Shape.rowMajor_val_three, Shape.rowMajor_val_two]; show (0 * 512 + g.val) * 1 + 0 = g.val * 1 + z.val; omega)).trans ?_
  exact extractStridedSlice_apply ![n, 0, 0] o hs (ix3 (0 : Fin 1) g (0 : Fin 1)) (ix3 k g (0 : Fin 1)) (fun a => match a with
    | ⟨0, _⟩ => by show k.val = n + 0; omega
    | ⟨1, _⟩ => by show g.val = 0 + g.val; omega
    | ⟨2, _⟩ => by show (0 : Nat) = 0 + 0; omega)

/-- The heads' rows of an array equal to a given one are the given one's. -/
theorem headRows_of (a a' : Gcn.ArrN16) (h : a' = a) :
    transpose S9x512x16 [1, 0, 2]
        (extractStridedSlice S512x9x16 ![0, 1421, 0] (shapeCast S512x1430x16 a' shapeCasts_S732160x16_S512x1430x16)
          slices_S512x1430x16_S512x9x16_0_1421_0)
        transposes_S512x9x16_S9x512x16_1_0_2
      = Gcn.headRows a := by
  subst h; exact headRows_term _

/-- The heads' rows of a column equal to a given one are the given one's. -/
theorem headRows1_of (a a' : Gcn.ArrN1) (h : a' = a) :
    transpose S9x512x1 [1, 0, 2]
        (extractStridedSlice S512x9x1 ![0, 1421, 0] (shapeCast S512x1430x1 a' shapeCasts_S732160x1_S512x1430x1)
          slices_S512x1430x1_S512x9x1_0_1421_0)
        transposes_S512x9x1_S9x512x1_1_0_2
      = Gcn.headRows1 a := by
  subst h; exact headRows1_term _

/-- A bias equal to a given one, as a row, is the given one's row. -/
theorem row16_of (b b' : Gcn.Arr16) (h : b' = b) : shapeCast S1x16 b' shapeCasts_S16_S1x16 = Gcn.row16 b := by
  subst h; exact row16_term _

/-- The heads' first biases equal to given ones, with the unit axis inserted. -/
theorem mid8_of (fb1 fb1' : Gcn.Arr9x8) (h : fb1' = fb1) : shapeCast S9x1x8 fb1' shapeCasts_S9x8_S9x1x8 = Gcn.mid8 fb1 := by
  subst h; exact mid8_term _

/-- The heads' second biases equal to given ones, with the unit axis inserted. -/
theorem mid1_of (fb2 fb2' : Gcn.Arr9x1) (h : fb2' = fb2) : shapeCast S9x1x1 fb2' shapeCasts_S9x1_S9x1x1 = Gcn.mid1 fb2 := by
  subst h; exact mid1_term _

/-- Head k's slice, reshaped, of an array equal to a given one reads the given one. -/
theorem head_slice_of (o o' : Gcn.Arr9x512x1) (h : o' = o) (n : Nat) (hs : S9x512x1.Slices ![n, 0, 0] S1x512x1) (k : Fin 9)
    (hk : k.val = n) :
    shapeCast S512x1 (extractStridedSlice S1x512x1 ![n, 0, 0] o' hs) shapeCasts_S1x512x1_S512x1
      = fun i => o (ix3 k (i 0) (0 : Fin 1)) := by
  subst h; exact head_slice _ n hs k hk

/-- The degree column from any index vector equal to the vector of target words. -/
theorem dinv_col_of (ei : Gcn.EdgeArr) (v : S5857280.Idx → BitVec 32) (hv : v = dstVec ei) :
    shapeCast S732160x1
        (Host.rsqrt (F := Ideal) (addf
          (Host.scatterAdd (F := Ideal) scatter_S732160_S5857280x1_S5857280_n_0_0_1
            (broadcastInDim S732160 ![] bcast_S_S732160 (constant (F := Ideal) S_ .f32 0x00000000#32))
            (broadcastInDim S5857280x1 ![0] bcast_S5857280_S5857280x1_0 v)
            (broadcastInDim S5857280 ![] bcast_S_S5857280 (constant (F := Ideal) S_ .f32 0x3F800000#32)))
          (broadcastInDim S732160 ![] bcast_S_S732160 (constant (F := Ideal) S_ .f32 0x3F800000#32))))
        shapeCasts_S732160_S732160x1
      = Gcn.D2 ei := by
  subst hv; exact dinv_col ei

section Chain
variable (c : Dev nD)

/-! ## After the first stretch of host operations: the edge words, the degree column, the arguments untouched -/

theorem W1_arg0 : W1 (F := Ideal) m ρ c (Proc.devRef .tc main_arg0) = (m ((c.tc : Thread nD τ).loc main_arg0)) := by
  show StableHlo.after hostOps0 (W0 m ρ c) (Proc.devRef .tc main_arg0) = _
  after_results
  all_goals rfl

theorem W1_arg3 : W1 (F := Ideal) m ρ c (Proc.devRef .tc main_arg3) = (m ((c.tc : Thread nD τ).loc main_arg3)) := by
  show StableHlo.after hostOps0 (W0 m ρ c) (Proc.devRef .tc main_arg3) = _
  after_results
  all_goals rfl

theorem W1_arg4 : W1 (F := Ideal) m ρ c (Proc.devRef .tc main_arg4) = (m ((c.tc : Thread nD τ).loc main_arg4)) := by
  show StableHlo.after hostOps0 (W0 m ρ c) (Proc.devRef .tc main_arg4) = _
  after_results
  all_goals rfl

theorem W1_arg5 : W1 (F := Ideal) m ρ c (Proc.devRef .tc main_arg5) = (m ((c.tc : Thread nD τ).loc main_arg5)) := by
  show StableHlo.after hostOps0 (W0 m ρ c) (Proc.devRef .tc main_arg5) = _
  after_results
  all_goals rfl

theorem W1_arg6 : W1 (F := Ideal) m ρ c (Proc.devRef .tc main_arg6) = (m ((c.tc : Thread nD τ).loc main_arg6)) := by
  show StableHlo.after hostOps0 (W0 m ρ c) (Proc.devRef .tc main_arg6) = _
  after_results
  all_goals rfl

theorem W1_arg7 : W1 (F := Ideal) m ρ c (Proc.devRef .tc main_arg7) = (m ((c.tc : Thread nD τ).loc main_arg7)) := by
  show StableHlo.after hostOps0 (W0 m ρ c) (Proc.devRef .tc main_arg7) = _
  after_results
  all_goals rfl

theorem W1_arg8 : W1 (F := Ideal) m ρ c (Proc.devRef .tc main_arg8) = (m ((c.tc : Thread nD τ).loc main_arg8)) := by
  show StableHlo.after hostOps0 (W0 m ρ c) (Proc.devRef .tc main_arg8) = _
  after_results
  all_goals rfl

theorem W1_arg9 : W1 (F := Ideal) m ρ c (Proc.devRef .tc main_arg9) = (m ((c.tc : Thread nD τ).loc main_arg9)) := by
  show StableHlo.after hostOps0 (W0 m ρ c) (Proc.devRef .tc main_arg9) = _
  after_results
  all_goals rfl

theorem W1_arg10 : W1 (F := Ideal) m ρ c (Proc.devRef .tc main_arg10) = (m ((c.tc : Thread nD τ).loc main_arg10)) := by
  show StableHlo.after hostOps0 (W0 m ρ c) (Proc.devRef .tc main_arg10) = _
  after_results
  all_goals rfl

theorem W1_v1 : W1 (F := Ideal) m ρ c (Proc.devRef .tc main_v1) = srcVec (m ((c.tc : Thread nD τ).loc main_arg1)) := by
  show StableHlo.after hostOps0 (W0 m ρ c) (Proc.devRef .tc main_v1) = _
  after_results
  exact row0_flat _

theorem W1_v3 : W1 (F := Ideal) m ρ c (Proc.devRef .tc main_v3) = dstVec (m ((c.tc : Thread nD τ).loc main_arg1)) := by
  show StableHlo.after hostOps0 (W0 m ρ c) (Proc.devRef .tc main_v3) = _
  after_results
  exact row1_flat _

theorem W1_v11 : W1 (F := Ideal) m ρ c (Proc.devRef .tc main_v11) = Gcn.D2 (m ((c.tc : Thread nD τ).loc main_arg1)) := by
  show StableHlo.after hostOps0 (W0 m ρ c) (Proc.devRef .tc main_v11) = _
  after_results
  exact dinv_col_of _ _ (row1_flat _)

/-! ## After launch 0: the scaled first features -/

theorem W2_arg4 : W2 (F := Ideal) m ρ c (Proc.devRef .tc main_arg4) = (m ((c.tc : Thread nD τ).loc main_arg4)) :=
  (W2_of_ne m ρ c main_arg4 (by decide)).trans (W1_arg4 m ρ c)

theorem W2_arg5 : W2 (F := Ideal) m ρ c (Proc.devRef .tc main_arg5) = (m ((c.tc : Thread nD τ).loc main_arg5)) :=
  (W2_of_ne m ρ c main_arg5 (by decide)).trans (W1_arg5 m ρ c)

theorem W2_arg6 : W2 (F := Ideal) m ρ c (Proc.devRef .tc main_arg6) = (m ((c.tc : Thread nD τ).loc main_arg6)) :=
  (W2_of_ne m ρ c main_arg6 (by decide)).trans (W1_arg6 m ρ c)

theorem W2_arg7 : W2 (F := Ideal) m ρ c (Proc.devRef .tc main_arg7) = (m ((c.tc : Thread nD τ).loc main_arg7)) :=
  (W2_of_ne m ρ c main_arg7 (by decide)).trans (W1_arg7 m ρ c)

theorem W2_arg8 : W2 (F := Ideal) m ρ c (Proc.devRef .tc main_arg8) = (m ((c.tc : Thread nD τ).loc main_arg8)) :=
  (W2_of_ne m ρ c main_arg8 (by decide)).trans (W1_arg8 m ρ c)

theorem W2_arg9 : W2 (F := Ideal) m ρ c (Proc.devRef .tc main_arg9) = (m ((c.tc : Thread nD τ).loc main_arg9)) :=
  (W2_of_ne m ρ c main_arg9 (by decide)).trans (W1_arg9 m ρ c)

theorem W2_arg10 : W2 (F := Ideal) m ρ c (Proc.devRef .tc main_arg10) = (m ((c.tc : Thread nD τ).loc main_arg10)) :=
  (W2_of_ne m ρ c main_arg10 (by decide)).trans (W1_arg10 m ρ c)

theorem W2_v1 : W2 (F := Ideal) m ρ c (Proc.devRef .tc main_v1) = srcVec (m ((c.tc : Thread nD τ).loc main_arg1)) :=
  (W2_of_ne m ρ c main_v1 (by decide)).trans (W1_v1 m ρ c)

theorem W2_v3 : W2 (F := Ideal) m ρ c (Proc.devRef .tc main_v3) = dstVec (m ((c.tc : Thread nD τ).loc main_arg1)) :=
  (W2_of_ne m ρ c main_v3 (by decide)).trans (W1_v3 m ρ c)

theorem W2_v11 : W2 (F := Ideal) m ρ c (Proc.devRef .tc main_v11) = Gcn.D2 (m ((c.tc : Thread nD τ).loc main_arg1)) :=
  (W2_arr m ρ c 2).trans (((dat0 (V1 m ρ) c).arrAt_in 2 rfl _).trans ((A_eq0 (V1 m ρ) c 2).trans (W1_v11 m ρ c)))

theorem W2_v12 : W2 (F := Ideal) m ρ c (Proc.devRef .tc main_v12) = Gcn.kSH1 (m ((c.tc : Thread nD τ).loc main_arg0)) (m ((c.tc : Thread nD τ).loc main_arg1)) (m ((c.tc : Thread nD τ).loc main_arg3)) :=
  (W2_arr m ρ c 3).trans ((reg0_final (V1 m ρ) c).trans (by
    show Gcn.G0 (W1 m ρ c (Proc.devRef .tc main_arg0)) (W1 m ρ c (Proc.devRef .tc main_arg3)) (W1 m ρ c (Proc.devRef .tc main_v11)) = _
    rw [W1_arg0, W1_arg3, W1_v11]; rfl))

/-! ## After the second stretch: the first aggregation and the first bias as a row -/

theorem W3_arg5 : W3 (F := Ideal) m ρ c (Proc.devRef .tc main_arg5) = (m ((c.tc : Thread nD τ).loc main_arg5)) := by
  show StableHlo.after hostOps1 (W2 m ρ c) (Proc.devRef .tc main_arg5) = _
  after_results_simp
  exact W2_arg5 m ρ c

theorem W3_arg6 : W3 (F := Ideal) m ρ c (Proc.devRef .tc main_arg6) = (m ((c.tc : Thread nD τ).loc main_arg6)) := by
  show StableHlo.after hostOps1 (W2 m ρ c) (Proc.devRef .tc main_arg6) = _
  after_results_simp
  exact W2_arg6 m ρ c

theorem W3_arg7 : W3 (F := Ideal) m ρ c (Proc.devRef .tc main_arg7) = (m ((c.tc : Thread nD τ).loc main_arg7)) := by
  show StableHlo.after hostOps1 (W2 m ρ c) (Proc.devRef .tc main_arg7) = _
  after_results_simp
  exact W2_arg7 m ρ c

theorem W3_arg8 : W3 (F := Ideal) m ρ c (Proc.devRef .tc main_arg8) = (m ((c.tc : Thread nD τ).loc main_arg8)) := by
  show StableHlo.after hostOps1 (W2 m ρ c) (Proc.devRef .tc main_arg8) = _
  after_results_simp
  exact W2_arg8 m ρ c

theorem W3_arg9 : W3 (F := Ideal) m ρ c (Proc.devRef .tc main_arg9) = (m ((c.tc : Thread nD τ).loc main_arg9)) := by
  show StableHlo.after hostOps1 (W2 m ρ c) (Proc.devRef .tc main_arg9) = _
  after_results_simp
  exact W2_arg9 m ρ c

theorem W3_arg10 : W3 (F := Ideal) m ρ c (Proc.devRef .tc main_arg10) = (m ((c.tc : Thread nD τ).loc main_arg10)) := by
  show StableHlo.after hostOps1 (W2 m ρ c) (Proc.devRef .tc main_arg10) = _
  after_results_simp
  exact W2_arg10 m ρ c

theorem W3_v1 : W3 (F := Ideal) m ρ c (Proc.devRef .tc main_v1) = srcVec (m ((c.tc : Thread nD τ).loc main_arg1)) := by
  show StableHlo.after hostOps1 (W2 m ρ c) (Proc.devRef .tc main_v1) = _
  after_results_simp
  exact W2_v1 m ρ c

theorem W3_v3 : W3 (F := Ideal) m ρ c (Proc.devRef .tc main_v3) = dstVec (m ((c.tc : Thread nD τ).loc main_arg1)) := by
  show StableHlo.after hostOps1 (W2 m ρ c) (Proc.devRef .tc main_v3) = _
  after_results_simp
  exact W2_v3 m ρ c

theorem W3_v11 : W3 (F := Ideal) m ρ c (Proc.devRef .tc main_v11) = Gcn.D2 (m ((c.tc : Thread nD τ).loc main_arg1)) := by
  show StableHlo.after hostOps1 (W2 m ρ c) (Proc.devRef .tc main_v11) = _
  after_results_simp
  exact W2_v11 m ρ c

theorem W3_v12 : W3 (F := Ideal) m ρ c (Proc.devRef .tc main_v12) = Gcn.kSH1 (m ((c.tc : Thread nD τ).loc main_arg0)) (m ((c.tc : Thread nD τ).loc main_arg1)) (m ((c.tc : Thread nD τ).loc main_arg3)) := by
  show StableHlo.after hostOps1 (W2 m ρ c) (Proc.devRef .tc main_v12) = _
  after_results_simp
  exact W2_v12 m ρ c

theorem W3_v22 : W3 (F := Ideal) m ρ c (Proc.devRef .tc main_v22) = Gcn.AGG (m ((c.tc : Thread nD τ).loc main_arg1)) (Gcn.kSH1 (m ((c.tc : Thread nD τ).loc main_arg0)) (m ((c.tc : Thread nD τ).loc main_arg1)) (m ((c.tc : Thread nD τ).loc main_arg3))) := by
  show StableHlo.after hostOps1 (W2 m ρ c) (Proc.devRef .tc main_v22) = _
  after_results_simp
  rw [W2_v1, W2_v3, W2_v12]
  exact agg_term _ _

theorem W3_v23 : W3 (F := Ideal) m ρ c (Proc.devRef .tc main_v23) = Gcn.row16 (m ((c.tc : Thread nD τ).loc main_arg4)) := by
  show StableHlo.after hostOps1 (W2 m ρ c) (Proc.devRef .tc main_v23) = _
  after_results_simp
  exact row16_of _ _ (W2_arg4 m ρ c)

/-! ## After launch 1: the first layer's output -/

theorem W4_arg5 : W4 (F := Ideal) m ρ c (Proc.devRef .tc main_arg5) = (m ((c.tc : Thread nD τ).loc main_arg5)) :=
  (W4_of_ne m ρ c main_arg5 (by decide)).trans (W3_arg5 m ρ c)

theorem W4_arg6 : W4 (F := Ideal) m ρ c (Proc.devRef .tc main_arg6) = (m ((c.tc : Thread nD τ).loc main_arg6)) :=
  (W4_of_ne m ρ c main_arg6 (by decide)).trans (W3_arg6 m ρ c)

theorem W4_arg7 : W4 (F := Ideal) m ρ c (Proc.devRef .tc main_arg7) = (m ((c.tc : Thread nD τ).loc main_arg7)) :=
  (W4_of_ne m ρ c main_arg7 (by decide)).trans (W3_arg7 m ρ c)

theorem W4_arg8 : W4 (F := Ideal) m ρ c (Proc.devRef .tc main_arg8) = (m ((c.tc : Thread nD τ).loc main_arg8)) :=
  (W4_of_ne m ρ c main_arg8 (by decide)).trans (W3_arg8 m ρ c)

theorem W4_arg9 : W4 (F := Ideal) m ρ c (Proc.devRef .tc main_arg9) = (m ((c.tc : Thread nD τ).loc main_arg9)) :=
  (W4_of_ne m ρ c main_arg9 (by decide)).trans (W3_arg9 m ρ c)

theorem W4_arg10 : W4 (F := Ideal) m ρ c (Proc.devRef .tc main_arg10) = (m ((c.tc : Thread nD τ).loc main_arg10)) :=
  (W4_of_ne m ρ c main_arg10 (by decide)).trans (W3_arg10 m ρ c)

theorem W4_v1 : W4 (F := Ideal) m ρ c (Proc.devRef .tc main_v1) = srcVec (m ((c.tc : Thread nD τ).loc main_arg1)) :=
  (W4_of_ne m ρ c main_v1 (by decide)).trans (W3_v1 m ρ c)

theorem W4_v3 : W4 (F := Ideal) m ρ c (Proc.devRef .tc main_v3) = dstVec (m ((c.tc : Thread nD τ).loc main_arg1)) :=
  (W4_of_ne m ρ c main_v3 (by decide)).trans (W3_v3 m ρ c)

theorem W4_v11 : W4 (F := Ideal) m ρ c (Proc.devRef .tc main_v11) = Gcn.D2 (m ((c.tc : Thread nD τ).loc main_arg1)) :=
  (W4_arr m ρ c 2).trans (((dat1 (V3 m ρ) c).arrAt_in 2 rfl _).trans ((A_eq1 (V3 m ρ) c 2).trans (W3_v11 m ρ c)))

theorem W4_v24 : W4 (F := Ideal) m ρ c (Proc.devRef .tc main_v24) = Gcn.kH1 (m ((c.tc : Thread nD τ).loc main_arg0)) (m ((c.tc : Thread nD τ).loc main_arg1)) (m ((c.tc : Thread nD τ).loc main_arg3)) (m ((c.tc : Thread nD τ).loc main_arg4)) :=
  (W4_arr m ρ c 4).trans ((reg1_final (V3 m ρ) c).trans (by
    show Gcn.G1 (W3 m ρ c (Proc.devRef .tc main_v22)) (W3 m ρ c (Proc.devRef .tc main_v12)) (W3 m ρ c (Proc.devRef .tc main_v11)) (W3 m ρ c (Proc.devRef .tc main_v23)) = _
    rw [W3_v22, W3_v12, W3_v11, W3_v23]; rfl))

/-! ## After launch 2: the scaled second features -/

theorem W5_arg6 : W5 (F := Ideal) m ρ c (Proc.devRef .tc main_arg6) = (m ((c.tc : Thread nD τ).loc main_arg6)) :=
  (W5_of_ne m ρ c main_arg6 (by decide)).trans (W4_arg6 m ρ c)

theorem W5_arg7 : W5 (F := Ideal) m ρ c (Proc.devRef .tc main_arg7) = (m ((c.tc : Thread nD τ).loc main_arg7)) :=
  (W5_of_ne m ρ c main_arg7 (by decide)).trans (W4_arg7 m ρ c)

theorem W5_arg8 : W5 (F := Ideal) m ρ c (Proc.devRef .tc main_arg8) = (m ((c.tc : Thread nD τ).loc main_arg8)) :=
  (W5_of_ne m ρ c main_arg8 (by decide)).trans (W4_arg8 m ρ c)

theorem W5_arg9 : W5 (F := Ideal) m ρ c (Proc.devRef .tc main_arg9) = (m ((c.tc : Thread nD τ).loc main_arg9)) :=
  (W5_of_ne m ρ c main_arg9 (by decide)).trans (W4_arg9 m ρ c)

theorem W5_arg10 : W5 (F := Ideal) m ρ c (Proc.devRef .tc main_arg10) = (m ((c.tc : Thread nD τ).loc main_arg10)) :=
  (W5_of_ne m ρ c main_arg10 (by decide)).trans (W4_arg10 m ρ c)

theorem W5_v1 : W5 (F := Ideal) m ρ c (Proc.devRef .tc main_v1) = srcVec (m ((c.tc : Thread nD τ).loc main_arg1)) :=
  (W5_of_ne m ρ c main_v1 (by decide)).trans (W4_v1 m ρ c)

theorem W5_v3 : W5 (F := Ideal) m ρ c (Proc.devRef .tc main_v3) = dstVec (m ((c.tc : Thread nD τ).loc main_arg1)) :=
  (W5_of_ne m ρ c main_v3 (by decide)).trans (W4_v3 m ρ c)

theorem W5_v11 : W5 (F := Ideal) m ρ c (Proc.devRef .tc main_v11) = Gcn.D2 (m ((c.tc : Thread nD τ).loc main_arg1)) :=
  (W5_arr m ρ c 2).trans (((dat2 (V4 m ρ) c).arrAt_in 2 rfl _).trans ((A_eq2 (V4 m ρ) c 2).trans (W4_v11 m ρ c)))

theorem W5_v25 : W5 (F := Ideal) m ρ c (Proc.devRef .tc main_v25) = Gcn.kSH2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (W5_arr m ρ c 3).trans ((reg2_final (V4 m ρ) c).trans (by
    show Gcn.G2 (W4 m ρ c (Proc.devRef .tc main_v24)) (W4 m ρ c (Proc.devRef .tc main_arg5)) (W4 m ρ c (Proc.devRef .tc main_v11)) = _
    rw [W4_v24, W4_arg5, W4_v11]; rfl))

/-! ## After the third stretch: the second aggregation, and the heads' rows, biases and unit axes -/

theorem W6_arg7 : W6 (F := Ideal) m ρ c (Proc.devRef .tc main_arg7) = (m ((c.tc : Thread nD τ).loc main_arg7)) := by
  show StableHlo.after hostOps3 (W5 m ρ c) (Proc.devRef .tc main_arg7) = _
  after_results_simp
  exact W5_arg7 m ρ c

theorem W6_arg9 : W6 (F := Ideal) m ρ c (Proc.devRef .tc main_arg9) = (m ((c.tc : Thread nD τ).loc main_arg9)) := by
  show StableHlo.after hostOps3 (W5 m ρ c) (Proc.devRef .tc main_arg9) = _
  after_results_simp
  exact W5_arg9 m ρ c

theorem W6_v38 : W6 (F := Ideal) m ρ c (Proc.devRef .tc main_v38) = Gcn.headRows (Gcn.AGG (m ((c.tc : Thread nD τ).loc main_arg1)) (Gcn.kSH2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) := by
  show StableHlo.after hostOps3 (W5 m ρ c) (Proc.devRef .tc main_v38) = _
  after_results_simp
  rw [W5_v1, W5_v3, W5_v25]
  exact headRows_of _ _ (agg_term _ _)

theorem W6_v41 : W6 (F := Ideal) m ρ c (Proc.devRef .tc main_v41) = Gcn.headRows (Gcn.kSH2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  show StableHlo.after hostOps3 (W5 m ρ c) (Proc.devRef .tc main_v41) = _
  after_results_simp
  exact headRows_of _ _ (W5_v25 m ρ c)

theorem W6_v44 : W6 (F := Ideal) m ρ c (Proc.devRef .tc main_v44) = Gcn.headRows1 (Gcn.D2 (m ((c.tc : Thread nD τ).loc main_arg1))) := by
  show StableHlo.after hostOps3 (W5 m ρ c) (Proc.devRef .tc main_v44) = _
  after_results_simp
  exact headRows1_of _ _ (W5_v11 m ρ c)

theorem W6_v45 : W6 (F := Ideal) m ρ c (Proc.devRef .tc main_v45) = Gcn.row16 (m ((c.tc : Thread nD τ).loc main_arg6)) := by
  show StableHlo.after hostOps3 (W5 m ρ c) (Proc.devRef .tc main_v45) = _
  after_results_simp
  exact row16_of _ _ (W5_arg6 m ρ c)

theorem W6_v46 : W6 (F := Ideal) m ρ c (Proc.devRef .tc main_v46) = Gcn.mid8 (m ((c.tc : Thread nD τ).loc main_arg8)) := by
  show StableHlo.after hostOps3 (W5 m ρ c) (Proc.devRef .tc main_v46) = _
  after_results_simp
  exact mid8_of _ _ (W5_arg8 m ρ c)

theorem W6_v47 : W6 (F := Ideal) m ρ c (Proc.devRef .tc main_v47) = Gcn.mid1 (m ((c.tc : Thread nD τ).loc main_arg10)) := by
  show StableHlo.after hostOps3 (W5 m ρ c) (Proc.devRef .tc main_v47) = _
  after_results_simp
  exact mid1_of _ _ (W5_arg10 m ρ c)

end Chain

/-- What launch 3 leaves in its output array, as a function of the arguments. -/
theorem launch3_out (c : Dev nD) :
    W7 (F := Ideal) m ρ c (Proc.devRef .tc main_v48) = Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W7_arr m ρ c 8).trans ((reg3_final (V6 m ρ) c).trans (by
    show Gcn.G3 (W6 m ρ c (Proc.devRef .tc main_v38)) (W6 m ρ c (Proc.devRef .tc main_v41)) (W6 m ρ c (Proc.devRef .tc main_v44)) (W6 m ρ c (Proc.devRef .tc main_v45))
      (W6 m ρ c (Proc.devRef .tc main_arg7)) (W6 m ρ c (Proc.devRef .tc main_v46)) (W6 m ρ c (Proc.devRef .tc main_arg9)) (W6 m ρ c (Proc.devRef .tc main_v47)) = _
    rw [W6_v38, W6_v41, W6_v44, W6_v45, W6_arg7, W6_v46, W6_arg9, W6_v47]; rfl))

/-- Result 0: head 0's slice of launch 3's output. -/
theorem out0 (c : Dev nD) :
    W8 (F := Ideal) m ρ c (Proc.devRef .tc main_v50) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (0 : Fin 9) := by
  show StableHlo.after hostOps4 (W7 m ρ c) (Proc.devRef .tc main_v50) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 0 _ (0 : Fin 9) rfl

/-- Result 1: head 1's slice of launch 3's output. -/
theorem out1 (c : Dev nD) :
    W8 (F := Ideal) m ρ c (Proc.devRef .tc main_v52) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (1 : Fin 9) := by
  show StableHlo.after hostOps4 (W7 m ρ c) (Proc.devRef .tc main_v52) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 1 _ (1 : Fin 9) rfl

/-- Result 2: head 2's slice of launch 3's output. -/
theorem out2 (c : Dev nD) :
    W8 (F := Ideal) m ρ c (Proc.devRef .tc main_v54) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (2 : Fin 9) := by
  show StableHlo.after hostOps4 (W7 m ρ c) (Proc.devRef .tc main_v54) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 2 _ (2 : Fin 9) rfl

/-- Result 3: head 3's slice of launch 3's output. -/
theorem out3 (c : Dev nD) :
    W8 (F := Ideal) m ρ c (Proc.devRef .tc main_v56) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (3 : Fin 9) := by
  show StableHlo.after hostOps4 (W7 m ρ c) (Proc.devRef .tc main_v56) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 3 _ (3 : Fin 9) rfl

/-- Result 4: head 4's slice of launch 3's output. -/
theorem out4 (c : Dev nD) :
    W8 (F := Ideal) m ρ c (Proc.devRef .tc main_v58) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (4 : Fin 9) := by
  show StableHlo.after hostOps4 (W7 m ρ c) (Proc.devRef .tc main_v58) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 4 _ (4 : Fin 9) rfl

/-- Result 5: head 5's slice of launch 3's output. -/
theorem out5 (c : Dev nD) :
    W8 (F := Ideal) m ρ c (Proc.devRef .tc main_v60) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (5 : Fin 9) := by
  show StableHlo.after hostOps4 (W7 m ρ c) (Proc.devRef .tc main_v60) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 5 _ (5 : Fin 9) rfl

/-- Result 6: head 6's slice of launch 3's output. -/
theorem out6 (c : Dev nD) :
    W8 (F := Ideal) m ρ c (Proc.devRef .tc main_v62) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (6 : Fin 9) := by
  show StableHlo.after hostOps4 (W7 m ρ c) (Proc.devRef .tc main_v62) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 6 _ (6 : Fin 9) rfl

/-- Result 7: head 7's slice of launch 3's output. -/
theorem out7 (c : Dev nD) :
    W8 (F := Ideal) m ρ c (Proc.devRef .tc main_v64) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (7 : Fin 9) := by
  show StableHlo.after hostOps4 (W7 m ρ c) (Proc.devRef .tc main_v64) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 7 _ (7 : Fin 9) rfl

/-- Result 8: head 8's slice of launch 3's output. -/
theorem out8 (c : Dev nD) :
    W8 (F := Ideal) m ρ c (Proc.devRef .tc main_v66) = Gcn.kernelOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (8 : Fin 9) := by
  show StableHlo.after hostOps4 (W7 m ρ c) (Proc.devRef .tc main_v66) = _
  after_results_simp
  exact head_slice_of (Gcn.kOUT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) _ (launch3_out m ρ c) 8 _ (8 : Fin 9) rfl

end Cert.KernelIdeal.KChain

end
-- ==== Proof.SpecLaws.lean ====
/-
  THE LAWS OF Spec.lean's FUNCTIONS. dinv i is the reciprocal square root of a real that is at least 1, hence a
  nonnegative real; the product with such a number distributes over every sum of extended reals, and an edge into i has
  target row i, which makes the kernel's arrangement of a layer (scale, sum, scale again) equal to the reference's
  (weigh every edge by both ends); and the kernel's stages, composed, are its arrangement of the network read at the
  heads' nodes.
-/
import proofs.«430161_j29643864277061_3_alg».proof.Proof.Spec

noncomputable section

open scoped BigOperators

namespace Gcn

open Idealize.ShloMosaic Idealize.ShloMosaic.ValueIdx

/-- An edge into i has target row i: its word is a node number, so it is neither wrapped nor clamped. -/
theorem rowOf_dst_of_mem {ei : EdgeArr} {i : Fin 732160} {e : Fin 5857280} (h : e ∈ inE ei i) :
    rowOf (dstW ei e) = i := by
  have hv : (dstW ei e).toInt = (i.val : Int) := (Finset.mem_filter.mp h).2
  have hlt : i.val < 732160 := i.isLt
  -- the word read signed is a natural number, so it is not signed-less-than zero
  have hns : (dstW ei e).slt 0#32 = false := by
    simp [BitVec.slt, hv]
  -- hence the word is not wrapped
  have hw : wrapW (dstW ei e) = dstW ei e := by
    unfold wrapW IntOp.cmpi
    simp only [hns]
    exact select_zero _ _
  -- and the clamp leaves a number below the node count
  apply Fin.ext
  show min (wrapW (dstW ei e)).toInt.toNat (732160 - 1) = i.val
  rw [hw, hv]
  omega

/-- A sum of ones over a finite set is the set's size. -/
private theorem sum_one (s : Finset (Fin 5857280)) : ∑ _e ∈ s, (1 : EReal) = ((s.card : ℝ) : EReal) := by
  induction s using Finset.induction_on with
  | empty => simp
  | insert a s ha ih =>
    rw [Finset.sum_insert ha, ih, Finset.card_insert_of_notMem ha, Nat.cast_succ, EReal.coe_add, EReal.coe_one, add_comm]

/-- The degree is the real number (edges into i) + 1. -/
private theorem deg_eq (ei : EdgeArr) (i : Fin 732160) : deg ei i = ((((inE ei i).card : ℝ) + 1 : ℝ) : EReal) := by
  unfold deg
  rw [sum_one, zero_add, EReal.coe_add, EReal.coe_one]

/-- dinv i is the real number 1 / sqrt (degree), the degree being positive. -/
private theorem dinv_eq (ei : EdgeArr) (i : Fin 732160) :
    dinv ei i = (((Real.sqrt (((inE ei i).card : ℝ) + 1))⁻¹ : ℝ) : EReal) := by
  have hpos : (0 : ℝ) < ((inE ei i).card : ℝ) + 1 := by positivity
  unfold dinv
  rw [deg_eq, Ideal.rsqrt_coe, if_neg (not_lt.mpr hpos.le), if_neg hpos.ne']

theorem dinv_nonneg (ei : EdgeArr) (i : Fin 732160) : 0 ≤ dinv ei i := by
  rw [dinv_eq]
  exact EReal.coe_nonneg.mpr (inv_nonneg.mpr (Real.sqrt_nonneg _))
theorem dinv_ne_top (ei : EdgeArr) (i : Fin 732160) : dinv ei i ≠ ⊤ := by
  rw [dinv_eq]
  exact EReal.coe_ne_top _

/-- The product with a nonnegative finite number distributes over a finite sum of extended reals. -/
private theorem mul_sum_of_nonneg {d : EReal} (h0 : 0 ≤ d) (ht : d ≠ ⊤) (s : Finset (Fin 5857280))
    (f : Fin 5857280 → EReal) : d * ∑ e ∈ s, f e = ∑ e ∈ s, d * f e := by
  induction s using Finset.induction_on with
  | empty => simp
  | insert a s ha ih =>
    rw [Finset.sum_insert ha, Finset.sum_insert ha, EReal.left_distrib_of_nonneg_of_ne_top h0 ht, ih]

theorem layerK_eq_layerR (ei : EdgeArr) (hh : ArrN16) (b : Arr16) : layerK ei hh b = layerR ei hh b := by
  funext i
  have h0 := dinv_nonneg ei (i 0)
  have ht := dinv_ne_top ei (i 0)
  -- scale, sum, scale again = weigh every edge by both ends
  have key : dinv ei (i 0) * (((0 : EReal) + ∑ e ∈ inE ei (i 0), dinv ei (rowOf (srcW ei e)) * hh (ix2 (rowOf (srcW ei e)) (i 1)))
        + dinv ei (i 0) * hh i)
      = ((0 : EReal) + ∑ e ∈ inE ei (i 0),
          (dinv ei (rowOf (srcW ei e)) * dinv ei (rowOf (dstW ei e))) * hh (ix2 (rowOf (srcW ei e)) (i 1)))
        + (dinv ei (i 0) * dinv ei (i 0)) * hh i := by
    rw [EReal.left_distrib_of_nonneg_of_ne_top h0 ht, EReal.left_distrib_of_nonneg_of_ne_top h0 ht, mul_zero,
      mul_sum_of_nonneg h0 ht, ← mul_assoc]
    have hs : ∑ e ∈ inE ei (i 0), dinv ei (i 0) * (dinv ei (rowOf (srcW ei e)) * hh (ix2 (rowOf (srcW ei e)) (i 1)))
        = ∑ e ∈ inE ei (i 0),
          (dinv ei (rowOf (srcW ei e)) * dinv ei (rowOf (dstW ei e))) * hh (ix2 (rowOf (srcW ei e)) (i 1)) := by
      apply Finset.sum_congr rfl
      intro e he
      rw [rowOf_dst_of_mem he, ← mul_assoc, mul_comm (dinv ei (i 0))]
    rw [hs]
  unfold layerK layerR
  rw [key]

theorem netK_eq_netR (x : ArrN1) (ei : EdgeArr) (w1 : Arr1x16) (b1 : Arr16) (w2 : Arr16x16) (b2 : Arr16) (fw1 : Arr9x16x8)
    (fb1 : Arr9x8) (fw2 : Arr9x8x1) (fb2 : Arr9x1) (k : Fin 9) :
    netK x ei w1 b1 w2 b2 fw1 fb1 fw2 fb2 k = netR x ei w1 b1 w2 b2 fw1 fb1 fw2 fb2 k := by
  unfold netK netR
  rw [layerK_eq_layerR, layerK_eq_layerR]

theorem kH1_eq (x : ArrN1) (ei : EdgeArr) (w1 : Arr1x16) (b1 : Arr16) : kH1 x ei w1 b1 = layerK ei (feat1 x w1) b1 := by
  -- both sides are the same term once the indices are read by their coordinates
  funext i
  rfl

/-- Scaling the second features, summing them over the edges into a node, adding the node's own, scaling again and
    adding the bias under the relu is the kernel's arrangement of a layer on the second features: the same terms, the
    indices read by their coordinates. -/
private theorem G1_G2_eq (ei : EdgeArr) (h : ArrN16) (w : Arr16x16) (b : Arr16) :
    G1 (AGG ei (G2 h w (D2 ei))) (G2 h w (D2 ei)) (D2 ei) (row16 b) = layerK ei (feat2 h w) b := by
  funext j
  rfl

/-- The last launch at head k's row of graph g, on the rows the heads read of any three arrays, is the head's perceptron
    on relu (d * (agg + sh) + b) read at the head's node: the same terms, the indices read by their coordinates. -/
private theorem G3_heads (agg sh : ArrN16) (d : ArrN1) (b : Arr1x16) (fw1 : Arr9x16x8) (fb1 : Arr9x8) (fw2 : Arr9x8x1)
    (fb2 : Arr9x1) (k : Fin 9) (i : (⟨2, ![512, 1]⟩ : Shape).Idx) :
    G3 (headRows agg) (headRows sh) (headRows1 d) b fw1 (mid8 fb1) fw2 (mid1 fb2) (ix3 k (i 0) (0 : Fin 1))
      = headOut (G1 agg sh d b) fw1 fb1 fw2 fb2 k i := by
  rfl

theorem kernelOut_eq_netK (x : ArrN1) (ei : EdgeArr) (w1 : Arr1x16) (b1 : Arr16) (w2 : Arr16x16) (b2 : Arr16) (fw1 : Arr9x16x8)
    (fb1 : Arr9x8) (fw2 : Arr9x8x1) (fb2 : Arr9x1) (k : Fin 9) :
    kernelOut x ei w1 b1 w2 b2 fw1 fb1 fw2 fb2 k = netK x ei w1 b1 w2 b2 fw1 fb1 fw2 fb2 k := by
  funext i
  -- the last launch at the head's row is the head's perceptron on a layer of the second features of the first layer
  unfold kernelOut kOUT netK kSH2
  rw [G3_heads, G1_G2_eq, kH1_eq]

end Gcn

end
-- ==== Proof.RefRead.lean ====
/-
  The reference program's run and its stages read at an index are taken from the generated modules; this module
  only makes them available to the modules that state the reference's value.
-/
import proofs.«430161_j29643864277061_3_alg».proof.Proof.Gen.ReferenceIdeal.Run
import proofs.«430161_j29643864277061_3_alg».proof.Proof.Gen.ReferenceIdeal.Read
-- ==== Proof.RLayers.lean ====
/-
  THE REFERENCE'S TWO GRAPH-CONVOLUTION LAYERS, READ AT AN INDEX. Stage by stage (the generated read-at-an-index lemmas
  for the pointwise and layout operations, Spec's words for the scatters and gathers over the edge list): the degree
  scatter and its reciprocal square root are dinv; the gathers of dinv at the wrapped source and target words and of
  the feature rows at the wrapped source words, multiplied and scattered at the target words, are the sum over the
  edges into a node of (dinv (src) * dinv (tgt)) * features (src); the self term is (dinv * dinv) * features; the bias
  is added and the result clamped at zero. The first layer's features are x times the one weight row (a contraction
  over one index); the second's the first layer's output times the 16 x 16 weight (a contraction over 16).
-/
import proofs.«430161_j29643864277061_3_alg».proof.Proof.RefRead
import proofs.«430161_j29643864277061_3_alg».proof.Proof.EdgeOps

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem

/-! ## The edge words: the two rows of the edge array, flattened -/

/-- Row 0 of the edge array, flattened: the source words. -/
theorem v1_at (x1 : (⟨S2x5857280, .i32⟩ : BufTy).Contents (Elt Ideal)) (e : Fin 5857280) :
    val_main_v1 (F := Ideal) x1 (ix1 e) = Gcn.srcW x1 e := by
  rw [val_main_v1_apply, val_main_v0_apply]
  unfold Gcn.srcW
  congr 1
  funext a
  match a with
  | ⟨0, _⟩ => rfl
  | ⟨1, _⟩ => exact Fin.ext (Nat.mod_eq_of_lt e.isLt)

/-- Row 1 of the edge array, flattened: the target words. -/
theorem v3_at (x1 : (⟨S2x5857280, .i32⟩ : BufTy).Contents (Elt Ideal)) (e : Fin 5857280) :
    val_main_v3 (F := Ideal) x1 (ix1 e) = Gcn.dstW x1 e := by
  rw [val_main_v3_apply, val_main_v2_apply]
  unfold Gcn.dstW
  congr 1
  funext a
  match a with
  | ⟨0, _⟩ => rfl
  | ⟨1, _⟩ => exact Fin.ext (Nat.mod_eq_of_lt e.isLt)

/-! ## The index arrays of the scatters (the target words) and of the gathers (the wrapped words), at column 0 -/

theorem v7_at (x1 : (⟨S2x5857280, .i32⟩ : BufTy).Contents (Elt Ideal)) (e : Fin 5857280) :
    val_main_v7 (F := Ideal) x1 (ix2 e (0 : Fin 1)) = Gcn.dstW x1 e := by
  rw [val_main_v7_apply, show idx_main_v7 (ix2 e (0 : Fin 1)) = ix1 e from funext fun a => match a with | ⟨0, _⟩ => rfl, v3_at]

theorem v38_at (x1 : (⟨S2x5857280, .i32⟩ : BufTy).Contents (Elt Ideal)) (e : Fin 5857280) :
    val_main_v38 (F := Ideal) x1 (ix2 e (0 : Fin 1)) = Gcn.dstW x1 e := by
  rw [val_main_v38_apply, show idx_main_v38 (ix2 e (0 : Fin 1)) = ix1 e from funext fun a => match a with | ⟨0, _⟩ => rfl, v3_at]

/-- The source words wrapped (the first gather's). -/
theorem v16_at (x1 : (⟨S2x5857280, .i32⟩ : BufTy).Contents (Elt Ideal)) (e : Fin 5857280) :
    val_main_v16 (F := Ideal) x1 (ix1 e) = Gcn.wrapW (Gcn.srcW x1 e) := by
  unfold Gcn.wrapW
  rw [val_main_v16_apply, val_main_v13_apply, val_main_v15_apply, val_main_v12_apply, val_main_v14_apply,
    val_main_c_apply, val_main_c_2_apply, v1_at]

theorem v17_at (x1 : (⟨S2x5857280, .i32⟩ : BufTy).Contents (Elt Ideal)) (e : Fin 5857280) :
    val_main_v17 (F := Ideal) x1 (ix2 e (0 : Fin 1)) = Gcn.wrapW (Gcn.srcW x1 e) := by
  rw [val_main_v17_apply, show idx_main_v17 (ix2 e (0 : Fin 1)) = ix1 e from funext fun a => match a with | ⟨0, _⟩ => rfl, v16_at]

/-- The target words wrapped. -/
theorem v23_at (x1 : (⟨S2x5857280, .i32⟩ : BufTy).Contents (Elt Ideal)) (e : Fin 5857280) :
    val_main_v23 (F := Ideal) x1 (ix1 e) = Gcn.wrapW (Gcn.dstW x1 e) := by
  unfold Gcn.wrapW
  rw [val_main_v23_apply, val_main_v20_apply, val_main_v22_apply, val_main_v19_apply, val_main_v21_apply,
    val_main_c_3_apply, val_main_c_4_apply, v3_at]

theorem v24_at (x1 : (⟨S2x5857280, .i32⟩ : BufTy).Contents (Elt Ideal)) (e : Fin 5857280) :
    val_main_v24 (F := Ideal) x1 (ix2 e (0 : Fin 1)) = Gcn.wrapW (Gcn.dstW x1 e) := by
  rw [val_main_v24_apply, show idx_main_v24 (ix2 e (0 : Fin 1)) = ix1 e from funext fun a => match a with | ⟨0, _⟩ => rfl, v23_at]

/-- The source words wrapped (the feature gather's). -/
theorem v32_at (x1 : (⟨S2x5857280, .i32⟩ : BufTy).Contents (Elt Ideal)) (e : Fin 5857280) :
    val_main_v32 (F := Ideal) x1 (ix1 e) = Gcn.wrapW (Gcn.srcW x1 e) := by
  unfold Gcn.wrapW
  rw [val_main_v32_apply, val_main_v29_apply, val_main_v31_apply, val_main_v28_apply, val_main_v30_apply,
    val_main_c_5_apply, val_main_c_6_apply, v1_at]

theorem v33_at (x1 : (⟨S2x5857280, .i32⟩ : BufTy).Contents (Elt Ideal)) (e : Fin 5857280) :
    val_main_v33 (F := Ideal) x1 (ix2 e (0 : Fin 1)) = Gcn.wrapW (Gcn.srcW x1 e) := by
  rw [val_main_v33_apply, show idx_main_v33 (ix2 e (0 : Fin 1)) = ix1 e from funext fun a => match a with | ⟨0, _⟩ => rfl, v32_at]

/-! ## The degrees: the scatter of ones at the target words, plus one, under the reciprocal square root -/

/-- The reciprocal square root of the degree. -/
theorem v11_at (x1 : (⟨S2x5857280, .i32⟩ : BufTy).Contents (Elt Ideal)) (i : Fin 732160) :
    val_main_v11 (F := Ideal) x1 (ix1 i) = Gcn.dinv x1 i := by
  rw [val_main_v11_apply, val_main_v10_apply, val_main_v9_apply, val_main_cst_1_apply]
  unfold val_main_v8
  rw [Ideal.hostUnary_rsqrt_def, Ideal.addf_def, Ideal.ofBits_def]
  exact Gcn.dinv_of_scatter scatter_S732160_S5857280x1_S5857280_n_0_0_1 rfl rfl rfl rfl x1
    (val_main_v7 (F := Ideal) x1) (v7_at x1)
    (val_main_v6 (F := Ideal)) (fun j => (val_main_v6_apply (F := Ideal) j).trans (val_main_cst_0_apply (F := Ideal) _))
    (val_main_v5 (F := Ideal)) (fun j => (val_main_v5_apply (F := Ideal) j).trans (val_main_cst_apply (F := Ideal) _)) i

/-- dinv gathered at the wrapped source words. -/
theorem v18_at (x1 : (⟨S2x5857280, .i32⟩ : BufTy).Contents (Elt Ideal)) (e : Fin 5857280) :
    val_main_v18 (F := Ideal) x1 (ix1 e) = Gcn.dinv x1 (Gcn.rowOf (Gcn.srcW x1 e)) := by
  unfold val_main_v18
  rw [Gcn.gather_flat_wrapped gather_S732160_S5857280x1_S5857280_n_0_n_n_0_1_1 rfl rfl rfl rfl rfl rfl rfl
    (val_main_v11 (F := Ideal) x1) (val_main_v17 (F := Ideal) x1) (Gcn.srcW x1) (v17_at x1) e, v11_at]

/-- dinv gathered at the wrapped target words. -/
theorem v25_at (x1 : (⟨S2x5857280, .i32⟩ : BufTy).Contents (Elt Ideal)) (e : Fin 5857280) :
    val_main_v25 (F := Ideal) x1 (ix1 e) = Gcn.dinv x1 (Gcn.rowOf (Gcn.dstW x1 e)) := by
  unfold val_main_v25
  rw [Gcn.gather_flat_wrapped gather_S732160_S5857280x1_S5857280_n_0_n_n_0_1_1 rfl rfl rfl rfl rfl rfl rfl
    (val_main_v11 (F := Ideal) x1) (val_main_v24 (F := Ideal) x1) (Gcn.dstW x1) (v24_at x1) e, v11_at]

/-- The edge's weight dinv (src) * dinv (tgt), broadcast along the channels. -/
theorem v35_at (x1 : (⟨S2x5857280, .i32⟩ : BufTy).Contents (Elt Ideal)) (e : Fin 5857280) (j : Fin 16) :
    val_main_v35 (F := Ideal) x1 (ix2 e j)
      = Gcn.dinv x1 (Gcn.rowOf (Gcn.srcW x1 e)) * Gcn.dinv x1 (Gcn.rowOf (Gcn.dstW x1 e)) := by
  rw [val_main_v35_apply, val_main_v27_apply,
    show idx_main_v27 (idx_main_v35 (ix2 e j)) = ix1 e from funext fun a => match a with | ⟨0, _⟩ => rfl,
    val_main_v26_apply, v18_at, v25_at, Ideal.mulf_def]

/-- The self weight dinv * dinv, broadcast along the channels. -/
theorem v42_at (x1 : (⟨S2x5857280, .i32⟩ : BufTy).Contents (Elt Ideal)) (i : Fin 732160) (j : Fin 16) :
    val_main_v42 (F := Ideal) x1 (ix2 i j) = Gcn.dinv x1 i * Gcn.dinv x1 i := by
  rw [val_main_v42_apply, val_main_v41_apply,
    show idx_main_v41 (idx_main_v42 (ix2 i j)) = ix1 i from funext fun a => match a with | ⟨0, _⟩ => rfl,
    val_main_v40_apply, v11_at, Ideal.mulf_def]

/-- The bias, broadcast along the nodes. -/
theorem v46_at (b : (⟨S16, .f32⟩ : BufTy).Contents (Elt Ideal)) (i : Fin 732160) (j : Fin 16) :
    val_main_v46 (F := Ideal) b (ix2 i j) = b (ix1 j) := by
  rw [val_main_v46_apply, val_main_v45_apply,
    show idx_main_v45 (idx_main_v46 (ix2 i j)) = ix1 j from funext fun a => match a with | ⟨0, _⟩ => rfl]

/-- The zeros the aggregation scatters into. -/
theorem v37_at (j : S732160x16.Idx) : val_main_v37 (F := Ideal) j = Ideal.ofBits .f32 0x00000000#32 := by
  rw [val_main_v37_apply, val_main_cst_7_apply, Ideal.ofBits_def]

/-- The zero the result is clamped at. -/
theorem call0_v0_at (j : S732160x16.Idx) : val_main_call0_v0 (F := Ideal) j = 0 := by
  rw [val_main_call0_v0_apply, val_main_call0_cst_apply, Ideal.ofBits_def, Ideal.ofBits_zero_f32]

/-! ## One layer's host operations as a function of an arbitrary feature array and bias -/

/-- The feature rows gathered at the wrapped source words, weighted, scattered at the target words into zeros; plus
    the self term; plus the bias; clamped at zero. -/
def hostLayer (x1 : (⟨S2x5857280, .i32⟩ : BufTy).Contents (Elt Ideal)) (hh : (⟨S732160x16, .f32⟩ : BufTy).Contents (Elt Ideal)) (b : (⟨S16, .f32⟩ : BufTy).Contents (Elt Ideal)) : (⟨S732160x16, .f32⟩ : BufTy).Contents (Elt Ideal) :=
  maximumf (F := Ideal) (φ := .f32) (addf (F := Ideal) (φ := .f32) (addf (F := Ideal) (φ := .f32)
      (Host.scatterAdd (F := Ideal) (φ := .f32) scatter_S732160x16_S5857280x1_S5857280x16_1_0_0_1 (val_main_v37 (F := Ideal)) (val_main_v38 (F := Ideal) x1)
        (mulf (F := Ideal) (φ := .f32) (val_main_v35 (F := Ideal) x1)
          (Host.gather gather_S732160x16_S5857280x1_S5857280x16_1_0_n_n_0_1_116 hh (val_main_v33 (F := Ideal) x1))))
      (mulf (F := Ideal) (φ := .f32) (val_main_v42 (F := Ideal) x1) hh))
    (val_main_v46 (F := Ideal) b)) (val_main_call0_v0 (F := Ideal))

/-- The feature rows gathered at the wrapped source words. -/
theorem gather_feat_at (x1 : (⟨S2x5857280, .i32⟩ : BufTy).Contents (Elt Ideal)) (hh : (⟨S732160x16, .f32⟩ : BufTy).Contents (Elt Ideal)) (e : Fin 5857280) (j : Fin 16) :
    Host.gather gather_S732160x16_S5857280x1_S5857280x16_1_0_n_n_0_1_116 hh (val_main_v33 (F := Ideal) x1) (ix2 e j)
      = hh (ix2 (Gcn.rowOf (Gcn.srcW x1 e)) j) :=
  Gcn.gather_rows_wrapped gather_S732160x16_S5857280x1_S5857280x16_1_0_n_n_0_1_116 rfl rfl rfl rfl rfl rfl rfl
    hh (val_main_v33 (F := Ideal) x1) (Gcn.srcW x1) (v33_at x1) e j

/-- It is the reference's arrangement of a layer. -/
theorem hostLayer_eq (x1 : (⟨S2x5857280, .i32⟩ : BufTy).Contents (Elt Ideal)) (hh : (⟨S732160x16, .f32⟩ : BufTy).Contents (Elt Ideal)) (b : (⟨S16, .f32⟩ : BufTy).Contents (Elt Ideal)) : hostLayer x1 hh b = Gcn.layerR x1 hh b := by
  funext i
  obtain ⟨p, q, rfl⟩ : ∃ (p : Fin 732160) (q : Fin 16), i = ix2 p q := ⟨i 0, i 1, eq_ix2 i⟩
  have hupd : ∀ e : Fin 5857280, mulf (F := Ideal) (φ := .f32) (val_main_v35 (F := Ideal) x1)
        (Host.gather gather_S732160x16_S5857280x1_S5857280x16_1_0_n_n_0_1_116 hh (val_main_v33 (F := Ideal) x1)) (ix2 e q)
      = (Gcn.dinv x1 (Gcn.rowOf (Gcn.srcW x1 e)) * Gcn.dinv x1 (Gcn.rowOf (Gcn.dstW x1 e))) * hh (ix2 (Gcn.rowOf (Gcn.srcW x1 e)) q) :=
    fun e => by rw [mulf_apply, v35_at, gather_feat_at]
  unfold hostLayer
  rw [maximumf_apply, addf_apply, addf_apply, mulf_apply (val_main_v42 (F := Ideal) x1) hh,
    Gcn.agg_of_scatter scatter_S732160x16_S5857280x1_S5857280x16_1_0_0_1 rfl rfl rfl rfl x1
    (val_main_v38 (F := Ideal) x1) (v38_at x1) (val_main_v37 (F := Ideal)) v37_at _ p q, v42_at, v46_at, call0_v0_at,
    Finset.sum_congr rfl (fun e _ => hupd e)]
  rfl

/-! ## The two layers are that function of their features -/

/-- The first layer is that function of the first features and the first bias. -/
theorem v48_bridge (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) :
    val_main_v48 (F := Ideal) x0 x1 x3 x4 = hostLayer x1 (val_main_v4 (F := Ideal) x0 x3) x4 := by
  unfold val_main_v48 val_main_v47 val_main_v44 val_main_v39 val_main_v36 val_main_v34 val_main_v43 hostLayer
  with_reducible rfl

/-- The first layer's features: a contraction over one index. -/
theorem v4_eq (x0 : (⟨S732160x1, .f32⟩ : BufTy).Contents (Elt Ideal)) (x3 : (⟨S1x16, .f32⟩ : BufTy).Contents (Elt Ideal)) : val_main_v4 (F := Ideal) x0 x3 = Gcn.feat1 x0 x3 := by
  funext i
  rw [val_main_v4_apply, Fin.sum_univ_one]
  unfold Gcn.feat1
  rw [show lidx_main_v4 i 0 = ix2 (i 0) (0 : Fin 1) from funext fun a => match a with | ⟨0, _⟩ => rfl | ⟨1, _⟩ => rfl,
    show ridx_main_v4 i 0 = ix2 (0 : Fin 1) (i 1) from funext fun a => match a with | ⟨0, _⟩ => rfl | ⟨1, _⟩ => rfl]
  rfl

/-- The second layer's features: a contraction over the 16 channels. -/
theorem v49_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) :
    val_main_v49 (F := Ideal) x0 x1 x3 x4 x5 = Gcn.feat2 (val_main_v48 (F := Ideal) x0 x1 x3 x4) x5 := by
  funext i
  rw [val_main_v49_apply]
  generalize val_main_v48 (F := Ideal) x0 x1 x3 x4 = h
  unfold Gcn.feat2
  refine Finset.sum_congr rfl fun k _ => ?_
  rw [show lidx_main_v49 i k = ix2 (i 0) k from funext fun a => match a with | ⟨0, _⟩ => rfl | ⟨1, _⟩ => rfl,
    show ridx_main_v49 i k = ix2 k (i 1) from funext fun a => match a with | ⟨0, _⟩ => rfl | ⟨1, _⟩ => rfl]
  rfl

/-! The second layer's stages that do not read the features are the first layer's, operation for operation. -/

theorem v56_eq (x1 : (⟨S2x5857280, .i32⟩ : BufTy).Contents (Elt Ideal)) : val_main_v56 (F := Ideal) x1 = val_main_v11 (F := Ideal) x1 := by
  unfold val_main_v56 val_main_v55 val_main_v53 val_main_v54 val_main_cst_10 val_main_v52 val_main_v51 val_main_cst_9
    val_main_v50 val_main_cst_8 val_main_v11 val_main_v10 val_main_v8 val_main_v9 val_main_cst_1 val_main_v7 val_main_v6
    val_main_cst_0 val_main_v5 val_main_cst
  with_reducible rfl
theorem v78_eq (x1 : (⟨S2x5857280, .i32⟩ : BufTy).Contents (Elt Ideal)) : val_main_v78 (F := Ideal) x1 = val_main_v33 (F := Ideal) x1 := by
  unfold val_main_v78 val_main_v77 val_main_v74 val_main_v76 val_main_v73 val_main_v75 val_main_c_15 val_main_c_16
    val_main_v33 val_main_v32 val_main_v29 val_main_v31 val_main_v28 val_main_v30 val_main_c_5 val_main_c_6
  with_reducible rfl
theorem v62_eq (x1 : (⟨S2x5857280, .i32⟩ : BufTy).Contents (Elt Ideal)) : val_main_v62 (F := Ideal) x1 = val_main_v17 (F := Ideal) x1 := by
  unfold val_main_v62 val_main_v61 val_main_v58 val_main_v60 val_main_v57 val_main_v59 val_main_c_11 val_main_c_12
    val_main_v17 val_main_v16 val_main_v13 val_main_v15 val_main_v12 val_main_v14 val_main_c val_main_c_2
  with_reducible rfl
theorem v69_eq (x1 : (⟨S2x5857280, .i32⟩ : BufTy).Contents (Elt Ideal)) : val_main_v69 (F := Ideal) x1 = val_main_v24 (F := Ideal) x1 := by
  unfold val_main_v69 val_main_v68 val_main_v65 val_main_v67 val_main_v64 val_main_v66 val_main_c_13 val_main_c_14
    val_main_v24 val_main_v23 val_main_v20 val_main_v22 val_main_v19 val_main_v21 val_main_c_3 val_main_c_4
  with_reducible rfl
theorem v80_eq (x1 : (⟨S2x5857280, .i32⟩ : BufTy).Contents (Elt Ideal)) : val_main_v80 (F := Ideal) x1 = val_main_v35 (F := Ideal) x1 := by
  unfold val_main_v80 val_main_v72 val_main_v71 val_main_v63 val_main_v70 val_main_v35 val_main_v27 val_main_v26 val_main_v18
    val_main_v25
  rw [v56_eq, v62_eq, v69_eq]
theorem v82_eq : val_main_v82 (F := Ideal) = val_main_v37 (F := Ideal) := by
  unfold val_main_v82 val_main_cst_17 val_main_v37 val_main_cst_7
  with_reducible rfl
theorem v83_eq (x1 : (⟨S2x5857280, .i32⟩ : BufTy).Contents (Elt Ideal)) : val_main_v83 (F := Ideal) x1 = val_main_v38 (F := Ideal) x1 := by
  unfold val_main_v83 val_main_v38
  with_reducible rfl
theorem v87_eq (x1 : (⟨S2x5857280, .i32⟩ : BufTy).Contents (Elt Ideal)) : val_main_v87 (F := Ideal) x1 = val_main_v42 (F := Ideal) x1 := by
  unfold val_main_v87 val_main_v86 val_main_v85 val_main_v42 val_main_v41 val_main_v40
  rw [v56_eq]
theorem v91_eq (x6 : (⟨S16, .f32⟩ : BufTy).Contents (Elt Ideal)) : val_main_v91 (F := Ideal) x6 = val_main_v46 (F := Ideal) x6 := by
  unfold val_main_v91 val_main_v90 val_main_v46 val_main_v45
  with_reducible rfl
theorem call1_v0_eq : val_main_call1_v0 (F := Ideal) = val_main_call0_v0 (F := Ideal) := by
  unfold val_main_call1_v0 val_main_call1_cst val_main_call0_v0 val_main_call0_cst
  with_reducible rfl

/-- The second layer is that function of the second features and the second bias. -/
theorem v93_bridge (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) :
    val_main_v93 (F := Ideal) x0 x1 x3 x4 x5 x6 = hostLayer x1 (val_main_v49 (F := Ideal) x0 x1 x3 x4 x5) x6 := by
  unfold val_main_v93 val_main_v92 val_main_v89 val_main_v84 val_main_v81 val_main_v79 val_main_v88 hostLayer
  rw [v78_eq, v80_eq, v82_eq, v83_eq, v87_eq, v91_eq, call1_v0_eq]

/-- The first layer's output. -/
theorem layer1_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) :
    val_main_v48 (F := Ideal) x0 x1 x3 x4 = Gcn.layerR x1 (Gcn.feat1 x0 x3) x4 := by
  rw [v48_bridge, hostLayer_eq, v4_eq]

/-- The second layer's output. -/
theorem layer2_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) :
    val_main_v93 (F := Ideal) x0 x1 x3 x4 x5 x6
      = Gcn.layerR x1 (Gcn.feat2 (Gcn.layerR x1 (Gcn.feat1 x0 x3) x4) x5) x6 := by
  rw [v93_bridge, hostLayer_eq, v49_eq, layer1_eq]

end Cert.ReferenceIdeal.RefVal

end
-- ==== Proof.RHeads.lean ====
/-
  THE REFERENCE'S HEADS, READ AT AN INDEX. The index array iota(9)[:, None] + 1421 + iota(512)[None, :] * 1430, computed
  in 32-bit words, holds node k g's number at (k, g) (no word overflows: the largest is 732159), which is not negative,
  so the wrap leaves it and the gather of the second layer's rows reads row node k g. The two batched contractions
  (over 16 and over 8 channels, head by head), the biases broadcast along the graphs and the clamp at zero between
  them are, at (k, g, 0), Spec's headOut; result k is the slice at head k reshaped to [512, 1].
-/
import proofs.«430161_j29643864277061_3_alg».proof.Proof.RefRead
import proofs.«430161_j29643864277061_3_alg».proof.Proof.EdgeOps

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem

/-! ## The start-index words -/

/-- The word computed at (k, g): (1421 + k) + g * 1430, in 32-bit arithmetic. -/
theorem v104_word (k : Fin 9) (g : Fin 512) :
    val_main_v104 (F := Ideal) (ix2 k g)
      = (1421#32 + BitVec.ofNat 32 k.val) + BitVec.ofNat 32 g.val * 1430#32 := by
  rw [val_main_v104_apply, val_main_v102_apply, val_main_v97_apply, val_main_v96_apply, val_main_c_18_apply,
    val_main_v95_apply, val_main_v94_apply, val_main_v103_apply, val_main_v101_apply, val_main_v99_apply,
    val_main_v98_apply, val_main_v100_apply, val_main_c_19_apply]
  rfl

/-- No word overflows: read unsigned, the word at (k, g) is node k g's number. -/
theorem v104_toNat (k : Fin 9) (g : Fin 512) :
    (val_main_v104 (F := Ideal) (ix2 k g)).toNat = g.val * 1430 + 1421 + k.val := by
  rw [v104_word]
  have hk := k.isLt
  have hg := g.isLt
  simp only [BitVec.toNat_add, BitVec.toNat_mul, BitVec.toNat_ofNat, Nat.reducePow, Nat.reduceMod]
  omega

/-- A word below 2^31 is not negative. -/
theorem cmpi_slt_zero_of_small (w : BitVec 32) (h : 2 * w.toNat < 2 ^ 32) : IntOp.cmpi .slt w 0#32 = 0#1 := by
  have hi : w.toInt = (w.toNat : Int) := BitVec.toInt_eq_toNat_of_lt h
  have hs : w.slt 0#32 = false := by
    simp only [BitVec.slt, hi, BitVec.toInt_zero, decide_eq_false_iff_not, not_lt]
    omega
  show BitVec.ofBool (w.slt 0#32) = 0#1
  rw [hs]; rfl

/-- The wrap leaves the word at (k, g): it is not negative. -/
theorem v109_eq (k : Fin 9) (g : Fin 512) :
    val_main_v109 (F := Ideal) (ix2 k g) = val_main_v104 (F := Ideal) (ix2 k g) := by
  have hk := k.isLt
  have hg := g.isLt
  rw [val_main_v109_apply, val_main_v106_apply, val_main_v105_apply, val_main_c_20_apply,
    cmpi_slt_zero_of_small _ (by rw [v104_toNat]; omega), select_zero]

/-- The start-index array at (k, g, 0), read signed, is node k g's number. -/
theorem v110_toInt (k : Fin 9) (g : Fin 512) :
    (val_main_v110 (F := Ideal) (ix3 k g (0 : Fin 1))).toInt = ((Gcn.node k g).val : Int) := by
  have hk := k.isLt
  have hg := g.isLt
  have e : idx_main_v110 (ix3 k g (0 : Fin 1)) = ix2 k g :=
    funext fun a => Fin.ext (by match a with | ⟨0, _⟩ => rfl | ⟨1, _⟩ => rfl)
  rw [val_main_v110_apply, e, v109_eq, BitVec.toInt_eq_toNat_of_lt (by rw [v104_toNat]; omega), v104_toNat]
  rfl

/-! ## The gathered rows -/

/-- The gather reads the second layer's row at node k g. -/
theorem v111_at (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (k : Fin 9) (g : Fin 512) (f : Fin 16) :
    val_main_v111 (F := Ideal) x0 x1 x3 x4 x5 x6 (ix3 k g f)
      = val_main_v93 (F := Ideal) x0 x1 x3 x4 x5 x6 (ix2 (Gcn.node k g) f) := by
  unfold val_main_v111
  generalize val_main_v93 (F := Ideal) x0 x1 x3 x4 x5 x6 = h2
  exact Gcn.gather_heads gather_S732160x16_S9x512x1_S9x512x16_2_0_n_n_0_2_116 rfl rfl rfl rfl rfl rfl rfl h2
    (val_main_v110 (F := Ideal)) v110_toInt k g f

/-! ## The index functions of the two contractions and of the bias broadcasts, by coordinates -/

theorem lidx112 (k : Fin 9) (g : Fin 512) (hd : Fin 8) (f : Fin 16) : lidx_main_v112 (ix3 k g hd) f = ix3 k g f :=
  funext fun a => Fin.ext (by match a with | ⟨0, _⟩ => rfl | ⟨1, _⟩ => rfl | ⟨2, _⟩ => rfl)
theorem ridx112 (k : Fin 9) (g : Fin 512) (hd : Fin 8) (f : Fin 16) : ridx_main_v112 (ix3 k g hd) f = ix3 k f hd :=
  funext fun a => Fin.ext (by match a with | ⟨0, _⟩ => rfl | ⟨1, _⟩ => rfl | ⟨2, _⟩ => rfl)
theorem bidx114 (k : Fin 9) (g : Fin 512) (hd : Fin 8) : idx_main_v113 (idx_main_v114 (ix3 k g hd)) = ix2 k hd :=
  funext fun a => Fin.ext (by match a with | ⟨0, _⟩ => rfl | ⟨1, _⟩ => rfl)
theorem lidx117 (k : Fin 9) (g : Fin 512) (hd : Fin 8) : lidx_main_v117 (ix3 k g (0 : Fin 1)) hd = ix3 k g hd :=
  funext fun a => Fin.ext (by match a with | ⟨0, _⟩ => rfl | ⟨1, _⟩ => rfl | ⟨2, _⟩ => rfl)
theorem ridx117 (k : Fin 9) (g : Fin 512) (hd : Fin 8) : ridx_main_v117 (ix3 k g (0 : Fin 1)) hd = ix3 k hd (0 : Fin 1) :=
  funext fun a => Fin.ext (by match a with | ⟨0, _⟩ => rfl | ⟨1, _⟩ => rfl | ⟨2, _⟩ => rfl)
theorem bidx119 (k : Fin 9) (g : Fin 512) : idx_main_v118 (idx_main_v119 (ix3 k g (0 : Fin 1))) = ix2 k (0 : Fin 1) :=
  funext fun a => Fin.ext (by match a with | ⟨0, _⟩ => rfl | ⟨1, _⟩ => rfl)

/-! ## The perceptrons -/

/-- The hidden layer at (k, g, hd): the clamp at zero of the contraction over the 16 channels plus the bias. -/
theorem v116_at (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (k : Fin 9) (g : Fin 512) (hd : Fin 8) :
    val_main_v116 (F := Ideal) x0 x1 x3 x4 x5 x6 x7 x8 (ix3 k g hd)
      = max ((∑ f : Fin 16, val_main_v93 (F := Ideal) x0 x1 x3 x4 x5 x6 (ix2 (Gcn.node k g) f) * x7 (ix3 k f hd))
          + x8 (ix2 k hd)) 0 := by
  have hs : ∀ f : Fin 16,
      val_main_v111 (F := Ideal) x0 x1 x3 x4 x5 x6 (lidx_main_v112 (ix3 k g hd) f) * x7 (ridx_main_v112 (ix3 k g hd) f)
        = val_main_v93 (F := Ideal) x0 x1 x3 x4 x5 x6 (ix2 (Gcn.node k g) f) * x7 (ix3 k f hd) := fun f => by
    rw [lidx112, ridx112, v111_at]
  rw [val_main_v116_apply, val_main_v115_apply, val_main_v112_apply, val_main_v114_apply, val_main_v113_apply,
    val_main_call2_v0_apply, val_main_call2_cst_apply, bidx114, Finset.sum_congr rfl (fun f _ => hs f)]
  simp only [Ideal.maximumf_def, Ideal.addf_def, Ideal.ofBits_def, Ideal.ofBits_zero_f32]

/-- The output layer at (k, g, 0) is Spec's head k at graph g. -/
theorem v120_at (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) (k : Fin 9) (g : Fin 512) :
    val_main_v120 (F := Ideal) x0 x1 x3 x4 x5 x6 x7 x8 x9 x10 (ix3 k g (0 : Fin 1))
      = Gcn.headOut (val_main_v93 (F := Ideal) x0 x1 x3 x4 x5 x6) x7 x8 x9 x10 k (ix2 g (0 : Fin 1)) := by
  have hs : ∀ hd : Fin 8,
      val_main_v116 (F := Ideal) x0 x1 x3 x4 x5 x6 x7 x8 (lidx_main_v117 (ix3 k g (0 : Fin 1)) hd)
          * x9 (ridx_main_v117 (ix3 k g (0 : Fin 1)) hd)
        = max ((∑ f : Fin 16, val_main_v93 (F := Ideal) x0 x1 x3 x4 x5 x6 (ix2 (Gcn.node k g) f) * x7 (ix3 k f hd))
            + x8 (ix2 k hd)) 0 * x9 (ix3 k hd (0 : Fin 1)) := fun hd => by
    rw [lidx117, ridx117, v116_at]
  rw [val_main_v120_apply, val_main_v117_apply, val_main_v119_apply, val_main_v118_apply, bidx119,
    Finset.sum_congr rfl (fun hd _ => hs hd)]
  generalize val_main_v93 (F := Ideal) x0 x1 x3 x4 x5 x6 = h2
  rfl

/-- Any index of the output layer with head coordinate k and graph coordinate g reads Spec's head k at graph g. -/
theorem v120_head (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) (k : Fin 9) (g : Fin 512) (z : Fin 1) (j : S9x512x1.Idx)
    (h0 : (j 0).val = k.val) (h1 : (j 1).val = g.val) :
    val_main_v120 (F := Ideal) x0 x1 x3 x4 x5 x6 x7 x8 x9 x10 j
      = Gcn.headOut (val_main_v93 (F := Ideal) x0 x1 x3 x4 x5 x6) x7 x8 x9 x10 k (ix2 g z) := by
  obtain rfl : z = 0 := Fin.fin_one_eq_zero z
  have hj : j = ix3 k g (0 : Fin 1) := funext fun a => Fin.ext (by
    match a with
    | ⟨0, _⟩ => exact h0
    | ⟨1, _⟩ => exact h1
    | ⟨2, _⟩ => exact Nat.lt_one_iff.mp (j 2).isLt)
  rw [hj, v120_at]

/-! ## The nine results -/

/-- Result 0. -/
theorem head0_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v122 (F := Ideal) x0 x1 x3 x4 x5 x6 x7 x8 x9 x10
      = Gcn.headOut (val_main_v93 (F := Ideal) x0 x1 x3 x4 x5 x6) x7 x8 x9 x10 (0 : Fin 9) := by
  funext i
  obtain ⟨g, z, rfl⟩ : ∃ (g : Fin 512) (z : Fin 1), i = ix2 g z := ⟨i 0, i 1, eq_ix2 i⟩
  have hz := z.isLt
  have hg := g.isLt
  rw [val_main_v122_apply, val_main_v121_apply]
  exact v120_head x0 x1 x3 x4 x5 x6 x7 x8 x9 x10 (0 : Fin 9) g z _ rfl
    (by show (g.val * 1 + z.val) / 1 % 512 = g.val; omega)

/-- Result 1. -/
theorem head1_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v124 (F := Ideal) x0 x1 x3 x4 x5 x6 x7 x8 x9 x10
      = Gcn.headOut (val_main_v93 (F := Ideal) x0 x1 x3 x4 x5 x6) x7 x8 x9 x10 (1 : Fin 9) := by
  funext i
  obtain ⟨g, z, rfl⟩ : ∃ (g : Fin 512) (z : Fin 1), i = ix2 g z := ⟨i 0, i 1, eq_ix2 i⟩
  have hz := z.isLt
  have hg := g.isLt
  rw [val_main_v124_apply, val_main_v123_apply]
  exact v120_head x0 x1 x3 x4 x5 x6 x7 x8 x9 x10 (1 : Fin 9) g z _ rfl
    (by show (g.val * 1 + z.val) / 1 % 512 = g.val; omega)

/-- Result 2. -/
theorem head2_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v126 (F := Ideal) x0 x1 x3 x4 x5 x6 x7 x8 x9 x10
      = Gcn.headOut (val_main_v93 (F := Ideal) x0 x1 x3 x4 x5 x6) x7 x8 x9 x10 (2 : Fin 9) := by
  funext i
  obtain ⟨g, z, rfl⟩ : ∃ (g : Fin 512) (z : Fin 1), i = ix2 g z := ⟨i 0, i 1, eq_ix2 i⟩
  have hz := z.isLt
  have hg := g.isLt
  rw [val_main_v126_apply, val_main_v125_apply]
  exact v120_head x0 x1 x3 x4 x5 x6 x7 x8 x9 x10 (2 : Fin 9) g z _ rfl
    (by show (g.val * 1 + z.val) / 1 % 512 = g.val; omega)

/-- Result 3. -/
theorem head3_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v128 (F := Ideal) x0 x1 x3 x4 x5 x6 x7 x8 x9 x10
      = Gcn.headOut (val_main_v93 (F := Ideal) x0 x1 x3 x4 x5 x6) x7 x8 x9 x10 (3 : Fin 9) := by
  funext i
  obtain ⟨g, z, rfl⟩ : ∃ (g : Fin 512) (z : Fin 1), i = ix2 g z := ⟨i 0, i 1, eq_ix2 i⟩
  have hz := z.isLt
  have hg := g.isLt
  rw [val_main_v128_apply, val_main_v127_apply]
  exact v120_head x0 x1 x3 x4 x5 x6 x7 x8 x9 x10 (3 : Fin 9) g z _ rfl
    (by show (g.val * 1 + z.val) / 1 % 512 = g.val; omega)

/-- Result 4. -/
theorem head4_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v130 (F := Ideal) x0 x1 x3 x4 x5 x6 x7 x8 x9 x10
      = Gcn.headOut (val_main_v93 (F := Ideal) x0 x1 x3 x4 x5 x6) x7 x8 x9 x10 (4 : Fin 9) := by
  funext i
  obtain ⟨g, z, rfl⟩ : ∃ (g : Fin 512) (z : Fin 1), i = ix2 g z := ⟨i 0, i 1, eq_ix2 i⟩
  have hz := z.isLt
  have hg := g.isLt
  rw [val_main_v130_apply, val_main_v129_apply]
  exact v120_head x0 x1 x3 x4 x5 x6 x7 x8 x9 x10 (4 : Fin 9) g z _ rfl
    (by show (g.val * 1 + z.val) / 1 % 512 = g.val; omega)

/-- Result 5. -/
theorem head5_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v132 (F := Ideal) x0 x1 x3 x4 x5 x6 x7 x8 x9 x10
      = Gcn.headOut (val_main_v93 (F := Ideal) x0 x1 x3 x4 x5 x6) x7 x8 x9 x10 (5 : Fin 9) := by
  funext i
  obtain ⟨g, z, rfl⟩ : ∃ (g : Fin 512) (z : Fin 1), i = ix2 g z := ⟨i 0, i 1, eq_ix2 i⟩
  have hz := z.isLt
  have hg := g.isLt
  rw [val_main_v132_apply, val_main_v131_apply]
  exact v120_head x0 x1 x3 x4 x5 x6 x7 x8 x9 x10 (5 : Fin 9) g z _ rfl
    (by show (g.val * 1 + z.val) / 1 % 512 = g.val; omega)

/-- Result 6. -/
theorem head6_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v134 (F := Ideal) x0 x1 x3 x4 x5 x6 x7 x8 x9 x10
      = Gcn.headOut (val_main_v93 (F := Ideal) x0 x1 x3 x4 x5 x6) x7 x8 x9 x10 (6 : Fin 9) := by
  funext i
  obtain ⟨g, z, rfl⟩ : ∃ (g : Fin 512) (z : Fin 1), i = ix2 g z := ⟨i 0, i 1, eq_ix2 i⟩
  have hz := z.isLt
  have hg := g.isLt
  rw [val_main_v134_apply, val_main_v133_apply]
  exact v120_head x0 x1 x3 x4 x5 x6 x7 x8 x9 x10 (6 : Fin 9) g z _ rfl
    (by show (g.val * 1 + z.val) / 1 % 512 = g.val; omega)

/-- Result 7. -/
theorem head7_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v136 (F := Ideal) x0 x1 x3 x4 x5 x6 x7 x8 x9 x10
      = Gcn.headOut (val_main_v93 (F := Ideal) x0 x1 x3 x4 x5 x6) x7 x8 x9 x10 (7 : Fin 9) := by
  funext i
  obtain ⟨g, z, rfl⟩ : ∃ (g : Fin 512) (z : Fin 1), i = ix2 g z := ⟨i 0, i 1, eq_ix2 i⟩
  have hz := z.isLt
  have hg := g.isLt
  rw [val_main_v136_apply, val_main_v135_apply]
  exact v120_head x0 x1 x3 x4 x5 x6 x7 x8 x9 x10 (7 : Fin 9) g z _ rfl
    (by show (g.val * 1 + z.val) / 1 % 512 = g.val; omega)

/-- Result 8. -/
theorem head8_eq (x0 : (⟨S732160x1, .f32⟩ : BufTy).Contents (Elt Ideal)) (x1 : (⟨S2x5857280, .i32⟩ : BufTy).Contents (Elt Ideal)) (x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S9x16x8, .f32⟩ : BufTy).Contents (Elt Ideal)) (x8 : (⟨S9x8, .f32⟩ : BufTy).Contents (Elt Ideal)) (x9 : (⟨S9x8x1, .f32⟩ : BufTy).Contents (Elt Ideal)) (x10 : (⟨S9x1, .f32⟩ : BufTy).Contents (Elt Ideal)) :
    val_main_v138 (F := Ideal) x0 x1 x3 x4 x5 x6 x7 x8 x9 x10
      = Gcn.headOut (val_main_v93 (F := Ideal) x0 x1 x3 x4 x5 x6) x7 x8 x9 x10 (8 : Fin 9) := by
  funext i
  obtain ⟨g, z, rfl⟩ : ∃ (g : Fin 512) (z : Fin 1), i = ix2 g z := ⟨i 0, i 1, eq_ix2 i⟩
  have hz := z.isLt
  have hg := g.isLt
  rw [val_main_v138_apply, val_main_v137_apply]
  exact v120_head x0 x1 x3 x4 x5 x6 x7 x8 x9 x10 (8 : Fin 9) g z _ rfl
    (by show (g.val * 1 + z.val) / 1 % 512 = g.val; omega)

end Cert.ReferenceIdeal.RefVal

end
-- ==== Proof.lean ====
/-
  THE CERTIFICATE. The kernel computes a two-layer graph convolution over 732160 nodes and 5857280 edges followed by
  nine small per-head perceptrons on nine nodes of each of 512 graphs, in four launches with host scatters and gathers
  between them; the reference computes the same network with every edge weighted by the inverse square roots of both
  its ends' degrees, where the kernel scales the features by that factor before the edge sum and the sum after it.
  Both programs' results are read as functions of the argument arrays, index by index, on the extended reals
  (Spec.lean: `netK` for the kernel's arrangement, `netR` for the reference's); they are equal because the factor is
  a nonnegative finite number, over which the product distributes across every sum of extended reals, and because an
  edge that adds into node i has target row i (SpecLaws.lean). The three programs' runs terminate without fault and
  leave their arguments unchanged: the generated frames for the two kernel programs, the generated run for the
  reference. The idealization rewrote nothing, so the kernel's idealized program is its own text read at the ideal
  instance.
-/
import proofs.«430161_j29643864277061_3_alg».proof.Defs
import proofs.«430161_j29643864277061_3_alg».proof.Proof.Gen.Kernel
import proofs.«430161_j29643864277061_3_alg».proof.Proof.Gen.Kernel.Frame
import proofs.«430161_j29643864277061_3_alg».proof.Proof.Gen.KernelIdeal
import proofs.«430161_j29643864277061_3_alg».proof.Proof.Gen.KernelIdeal.Frame
import proofs.«430161_j29643864277061_3_alg».proof.Proof.Gen.ReferenceIdeal
import proofs.«430161_j29643864277061_3_alg».proof.Proof.Gen.Pre_finite_inputs
import proofs.«430161_j29643864277061_3_alg».proof.Proof.KRun
import proofs.«430161_j29643864277061_3_alg».proof.Proof.KChain
import proofs.«430161_j29643864277061_3_alg».proof.Proof.SpecLaws
import proofs.«430161_j29643864277061_3_alg».proof.Proof.RefRead
import proofs.«430161_j29643864277061_3_alg».proof.Proof.RLayers
import proofs.«430161_j29643864277061_3_alg».proof.Proof.RHeads
import Idealize.ShloMosaic.Adequacy
import Idealize.ShloMosaic.Init

set_option maxRecDepth 16384

noncomputable section

namespace Cert.Proof

open Idealize.ShloMosaic Idealize.ShloMosaic.TcCoe Idealize.SL.Sem

/-- The kernel's run ends and leaves its arguments unchanged. -/
theorem frame_k : Cert.frame_Kernel := fun m ρ _ => Cert.Kernel.Gen.frame m ρ
/-- So does the idealized kernel's. -/
theorem frame_ki : Cert.frame_KernelIdeal := fun m ρ _ => Cert.KernelIdeal.Gen.frame m ρ
/-- So does the reference's: its run with the nine results dropped. -/
theorem frame_ri : Cert.frame_ReferenceIdeal := fun m ρ _ =>
  (θ_run Cert.ReferenceIdeal.defs _ _).mono (fun _ h c => (h c).2.2.2.2.2.2.2.2.2)
    (Cert.ReferenceIdeal.Value.run (F := Ideal) m ρ)

/-- The reference's result 0, as a function of arguments that agree with the kernel's, is the network at head 0 of the kernel's arguments. -/
theorem ref0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v122 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (0 : Fin 9) := by
  obtain ⟨e0, e1, e2, e3, e4, e5, e6, e7, e8, e9, e10⟩ := hagree
  rw [Cert.ReferenceIdeal.RefVal.head0_eq, Cert.ReferenceIdeal.RefVal.layer2_eq, e0, e1, e3, e4, e5, e6, e7, e8, e9, e10]
  exact (Gcn.netK_eq_netR _ _ _ _ _ _ _ _ _ _ _).symm

/-- The reference's result 1, as a function of arguments that agree with the kernel's, is the network at head 1 of the kernel's arguments. -/
theorem ref1
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v124 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (1 : Fin 9) := by
  obtain ⟨e0, e1, e2, e3, e4, e5, e6, e7, e8, e9, e10⟩ := hagree
  rw [Cert.ReferenceIdeal.RefVal.head1_eq, Cert.ReferenceIdeal.RefVal.layer2_eq, e0, e1, e3, e4, e5, e6, e7, e8, e9, e10]
  exact (Gcn.netK_eq_netR _ _ _ _ _ _ _ _ _ _ _).symm

/-- The reference's result 2, as a function of arguments that agree with the kernel's, is the network at head 2 of the kernel's arguments. -/
theorem ref2
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v126 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (2 : Fin 9) := by
  obtain ⟨e0, e1, e2, e3, e4, e5, e6, e7, e8, e9, e10⟩ := hagree
  rw [Cert.ReferenceIdeal.RefVal.head2_eq, Cert.ReferenceIdeal.RefVal.layer2_eq, e0, e1, e3, e4, e5, e6, e7, e8, e9, e10]
  exact (Gcn.netK_eq_netR _ _ _ _ _ _ _ _ _ _ _).symm

/-- The reference's result 3, as a function of arguments that agree with the kernel's, is the network at head 3 of the kernel's arguments. -/
theorem ref3
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v128 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (3 : Fin 9) := by
  obtain ⟨e0, e1, e2, e3, e4, e5, e6, e7, e8, e9, e10⟩ := hagree
  rw [Cert.ReferenceIdeal.RefVal.head3_eq, Cert.ReferenceIdeal.RefVal.layer2_eq, e0, e1, e3, e4, e5, e6, e7, e8, e9, e10]
  exact (Gcn.netK_eq_netR _ _ _ _ _ _ _ _ _ _ _).symm

/-- The reference's result 4, as a function of arguments that agree with the kernel's, is the network at head 4 of the kernel's arguments. -/
theorem ref4
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v130 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (4 : Fin 9) := by
  obtain ⟨e0, e1, e2, e3, e4, e5, e6, e7, e8, e9, e10⟩ := hagree
  rw [Cert.ReferenceIdeal.RefVal.head4_eq, Cert.ReferenceIdeal.RefVal.layer2_eq, e0, e1, e3, e4, e5, e6, e7, e8, e9, e10]
  exact (Gcn.netK_eq_netR _ _ _ _ _ _ _ _ _ _ _).symm

/-- The reference's result 5, as a function of arguments that agree with the kernel's, is the network at head 5 of the kernel's arguments. -/
theorem ref5
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v132 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (5 : Fin 9) := by
  obtain ⟨e0, e1, e2, e3, e4, e5, e6, e7, e8, e9, e10⟩ := hagree
  rw [Cert.ReferenceIdeal.RefVal.head5_eq, Cert.ReferenceIdeal.RefVal.layer2_eq, e0, e1, e3, e4, e5, e6, e7, e8, e9, e10]
  exact (Gcn.netK_eq_netR _ _ _ _ _ _ _ _ _ _ _).symm

/-- The reference's result 6, as a function of arguments that agree with the kernel's, is the network at head 6 of the kernel's arguments. -/
theorem ref6
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v134 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (6 : Fin 9) := by
  obtain ⟨e0, e1, e2, e3, e4, e5, e6, e7, e8, e9, e10⟩ := hagree
  rw [Cert.ReferenceIdeal.RefVal.head6_eq, Cert.ReferenceIdeal.RefVal.layer2_eq, e0, e1, e3, e4, e5, e6, e7, e8, e9, e10]
  exact (Gcn.netK_eq_netR _ _ _ _ _ _ _ _ _ _ _).symm

/-- The reference's result 7, as a function of arguments that agree with the kernel's, is the network at head 7 of the kernel's arguments. -/
theorem ref7
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v136 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (7 : Fin 9) := by
  obtain ⟨e0, e1, e2, e3, e4, e5, e6, e7, e8, e9, e10⟩ := hagree
  rw [Cert.ReferenceIdeal.RefVal.head7_eq, Cert.ReferenceIdeal.RefVal.layer2_eq, e0, e1, e3, e4, e5, e6, e7, e8, e9, e10]
  exact (Gcn.netK_eq_netR _ _ _ _ _ _ _ _ _ _ _).symm

/-- The reference's result 8, as a function of arguments that agree with the kernel's, is the network at head 8 of the kernel's arguments. -/
theorem ref8
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Read.val_main_v138 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (8 : Fin 9) := by
  obtain ⟨e0, e1, e2, e3, e4, e5, e6, e7, e8, e9, e10⟩ := hagree
  rw [Cert.ReferenceIdeal.RefVal.head8_eq, Cert.ReferenceIdeal.RefVal.layer2_eq, e0, e1, e3, e4, e5, e6, e7, e8, e9, e10]
  exact (Gcn.netK_eq_netR _ _ _ _ _ _ _ _ _ _ _).symm

set_option maxHeartbeats 1000000 in
/-- Result k of both programs is the network at head k of the arguments: the kernel's by its arrangement, the
    reference's by its own, which is the same function. -/
theorem algebraic : Cert.algebraic_KernelIdeal_ReferenceIdeal := by
  intro m ρ m' ρ' _ hagree
  refine ⟨fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (0 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (1 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (2 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (3 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (4 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (5 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (6 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (7 : Fin 9),
    fun c => Gcn.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (8 : Fin 9), ?_, ?_⟩
  · refine (θ_run Cert.KernelIdeal.defs _ _).mono (fun r h c => ?_) (Cert.KernelIdeal.Gen.run_results (F := Ideal) m ρ)
    obtain ⟨h0, h1, h2, h3, h4, h5, h6, h7, h8, ha⟩ := h c
    exact ⟨h0.trans ((Cert.KernelIdeal.KChain.out0 m ρ c).trans (Gcn.kernelOut_eq_netK _ _ _ _ _ _ _ _ _ _ _)),
      h1.trans ((Cert.KernelIdeal.KChain.out1 m ρ c).trans (Gcn.kernelOut_eq_netK _ _ _ _ _ _ _ _ _ _ _)),
      h2.trans ((Cert.KernelIdeal.KChain.out2 m ρ c).trans (Gcn.kernelOut_eq_netK _ _ _ _ _ _ _ _ _ _ _)),
      h3.trans ((Cert.KernelIdeal.KChain.out3 m ρ c).trans (Gcn.kernelOut_eq_netK _ _ _ _ _ _ _ _ _ _ _)),
      h4.trans ((Cert.KernelIdeal.KChain.out4 m ρ c).trans (Gcn.kernelOut_eq_netK _ _ _ _ _ _ _ _ _ _ _)),
      h5.trans ((Cert.KernelIdeal.KChain.out5 m ρ c).trans (Gcn.kernelOut_eq_netK _ _ _ _ _ _ _ _ _ _ _)),
      h6.trans ((Cert.KernelIdeal.KChain.out6 m ρ c).trans (Gcn.kernelOut_eq_netK _ _ _ _ _ _ _ _ _ _ _)),
      h7.trans ((Cert.KernelIdeal.KChain.out7 m ρ c).trans (Gcn.kernelOut_eq_netK _ _ _ _ _ _ _ _ _ _ _)),
      h8.trans ((Cert.KernelIdeal.KChain.out8 m ρ c).trans (Gcn.kernelOut_eq_netK _ _ _ _ _ _ _ _ _ _ _)),
      ha⟩
  · refine (θ_run Cert.ReferenceIdeal.defs _ _).mono (fun r h c => ?_) (Cert.ReferenceIdeal.Value.run (F := Ideal) m' ρ')
    obtain ⟨h0, h1, h2, h3, h4, h5, h6, h7, h8, ha⟩ := h c
    exact ⟨h0.trans ((Cert.ReferenceIdeal.Read.val_main_v122_eq m' c).trans (ref0 m m' c (hagree c))),
      h1.trans ((Cert.ReferenceIdeal.Read.val_main_v124_eq m' c).trans (ref1 m m' c (hagree c))),
      h2.trans ((Cert.ReferenceIdeal.Read.val_main_v126_eq m' c).trans (ref2 m m' c (hagree c))),
      h3.trans ((Cert.ReferenceIdeal.Read.val_main_v128_eq m' c).trans (ref3 m m' c (hagree c))),
      h4.trans ((Cert.ReferenceIdeal.Read.val_main_v130_eq m' c).trans (ref4 m m' c (hagree c))),
      h5.trans ((Cert.ReferenceIdeal.Read.val_main_v132_eq m' c).trans (ref5 m m' c (hagree c))),
      h6.trans ((Cert.ReferenceIdeal.Read.val_main_v134_eq m' c).trans (ref6 m m' c (hagree c))),
      h7.trans ((Cert.ReferenceIdeal.Read.val_main_v136_eq m' c).trans (ref7 m m' c (hagree c))),
      h8.trans ((Cert.ReferenceIdeal.Read.val_main_v138_eq m' c).trans (ref8 m m' c (hagree c))),
      ha⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
